-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x80x80x80 : Shape := ⟨5, ![2, 64, 80, 80, 80]⟩
abbrev S_ : Shape := ⟨0, ![]⟩

class Facts : Prop where
  bcast_S_S2x64x80x80x80 : S_.BroadcastsInDim S2x64x80x80x80 (![] : Fin 0 → Fin S2x64x80x80x80.rank)
  reducesTo_S2x64x80x80x80_S_d0_1_2_3_4 : S2x64x80x80x80.ReducesTo [0, 1, 2, 3, 4] S_
  h_S_ : 0 < S_.numel

variable [Facts]

def fn {F : FTy → Type} [FloatOps F] (main_arg0 : FVec F S2x64x80x80x80 .f32) (main_arg1 : FVec F S2x64x80x80x80 .f32) : IVec S_ 1 :=
  let main_v0 : FVec F S2x64x80x80x80 .f32 := Host.absf main_arg0
  let main_cst : FVec F S_ .f32 := constant S_ .f32 0x7F800000#32
  let main_v1 : FVec F S2x64x80x80x80 .f32 := broadcastInDim S2x64x80x80x80 ![] bcast_S_S2x64x80x80x80 main_cst
  let main_v2 : IVec S2x64x80x80x80 1 := cmpf .olt main_v0 main_v1
  let main_c : IVec S_ 1 := constantI S_ 1 1#1
  let main_v3 : IVec S_ 1 := (fun x v => Host.reduce IntOp.andi x v reducesTo_S2x64x80x80x80_S_d0_1_2_3_4 h_S_) main_v2 main_c
  let main_v4 : FVec F S2x64x80x80x80 .f32 := Host.absf main_arg1
  let main_cst_0 : FVec F S_ .f32 := constant S_ .f32 0x7F800000#32
  let main_v5 : FVec F S2x64x80x80x80 .f32 := broadcastInDim S2x64x80x80x80 ![] bcast_S_S2x64x80x80x80 main_cst_0
  let main_v6 : IVec S2x64x80x80x80 1 := cmpf .olt main_v4 main_v5
  let main_c_1 : IVec S_ 1 := constantI S_ 1 1#1
  let main_v7 : IVec S_ 1 := (fun x v => Host.reduce IntOp.andi x v reducesTo_S2x64x80x80x80_S_d0_1_2_3_4 h_S_) main_v6 main_c_1
  let main_v8 : IVec S_ 1 := andi main_v3 main_v7
  main_v8
-- ==== Kernel.lean ====
abbrev S2x64x80x80x80 : Shape := ⟨5, ![2, 64, 80, 80, 80]⟩
abbrev S_ : Shape := ⟨0, ![]⟩
abbrev S2x64x82x82x82 : Shape := ⟨5, ![2, 64, 82, 82, 82]⟩
abbrev S2x27x80x80x80 : Shape := ⟨5, ![2, 27, 80, 80, 80]⟩
abbrev S1x64x1x80x80 : Shape := ⟨5, ![1, 64, 1, 80, 80]⟩
abbrev S1x27x1x80x80 : Shape := ⟨5, ![1, 27, 1, 80, 80]⟩
abbrev S2x64x3x82x82 : Shape := ⟨5, ![2, 64, 3, 82, 82]⟩
abbrev S2 : Shape := ⟨1, ![2]⟩
abbrev S1 : Shape := ⟨1, ![1]⟩
abbrev S1x64x3x82x82 : Shape := ⟨5, ![1, 64, 3, 82, 82]⟩
abbrev S64x3x82x82 : Shape := ⟨4, ![64, 3, 82, 82]⟩
abbrev S64x1x80x80 : Shape := ⟨4, ![64, 1, 80, 80]⟩
abbrev S1x80x80 : Shape := ⟨3, ![1, 80, 80]⟩
abbrev S1x1x1x80x80 : Shape := ⟨5, ![1, 1, 1, 80, 80]⟩

abbrev nBuf : Space → Nat
  | .hbm => 6
  | .vmem => 5
  | .smem => 0
  | _ => 0

abbrev bufTy : (tb : Table) → Fin (tcTables nBuf tb) → BufTy
  | .hbm, ⟨0, _⟩ => ⟨S2x64x80x80x80, .f32⟩
  | .hbm, ⟨1, _⟩ => ⟨S2x64x80x80x80, .f32⟩
  | .hbm, ⟨2, _⟩ => ⟨S_, .i32⟩
  | .hbm, ⟨3, _⟩ => ⟨S_, .f32⟩
  | .hbm, ⟨4, _⟩ => ⟨S2x64x82x82x82, .f32⟩
  | .hbm, ⟨5, _⟩ => ⟨S2x27x80x80x80, .f32⟩
  | .local _ .vmem, ⟨0, _⟩ => ⟨S1x64x1x80x80, .f32⟩
  | .local _ .vmem, ⟨1, _⟩ => ⟨S1x64x1x80x80, .f32⟩
  | .local _ .vmem, ⟨2, _⟩ => ⟨S1x27x1x80x80, .f32⟩
  | .local _ .vmem, ⟨3, _⟩ => ⟨S1x27x1x80x80, .f32⟩
  | .local _ .vmem, ⟨4, _⟩ => ⟨S2x64x3x82x82, .f32⟩
  | _, _ => ⟨S2x64x80x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 80], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c1_i32_185 : BitVec 32 := 1#32
  let v246 : BitVec 32 := Scalar.muli arg1 c1_i32_185
  v246
def k0_off1 (i : grid0.Coords) : Fin 5 → Nat :=
  let arg0 : BitVec 32 := BitVec.ofNat 32 (i 0).val
  let c0_i32_192 : BitVec 32 := 0#32
  let arg1 : BitVec 32 := BitVec.ofNat 32 (i 1).val
  let c1_i32_185 : BitVec 32 := 1#32
  let v246 : BitVec 32 := Scalar.muli arg1 c1_i32_185
  let v247 : BitVec 32 := v246
  let c0_i32_193 : BitVec 32 := 0#32
  let c0_i32_194 : BitVec 32 := 0#32
  ![arg0.toNat, 0, v247.toNat, 0, 0]
def k0_mult2 (i : grid0.Coords) : BitVec 32 :=
  let arg1 : BitVec 32 := BitVec.ofNat 32 (i 1).val
  let c1_i32_5 : BitVec 32 := 1#32
  let v13 : BitVec 32 := Scalar.muli arg1 c1_i32_5
  v13
def k0_off2 (i : grid0.Coords) : Fin 1 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off3 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  let c0_i32_8 : BitVec 32 := 0#32
  let c0_i32_9 : BitVec 32 := 0#32
  ![v12.toNat, 0, 0, 0, 0]
def k0_off4 (i : grid0.Coords) : Fin 5 → Nat :=
  let arg0 : BitVec 32 := BitVec.ofNat 32 (i 0).val
  let c0_i32_10 : BitVec 32 := 0#32
  let arg1 : BitVec 32 := BitVec.ofNat 32 (i 1).val
  let c1_i32_5 : BitVec 32 := 1#32
  let v13 : BitVec 32 := Scalar.muli arg1 c1_i32_5
  let v14 : BitVec 32 := v13
  let c0_i32_11 : BitVec 32 := 0#32
  let c0_i32_12 : BitVec 32 := 0#32
  ![arg0.toNat, 0, v14.toNat, 0, 0]
def k0_cond2 (i : grid0.Coords) : BitVec 1 :=
  let arg1 : BitVec 32 := BitVec.ofNat 32 (i 1).val
  let c1_i32_13 : BitVec 32 := 1#32
  let v21 : BitVec 32 := Scalar.addi arg1 c1_i32_13
  let c80_i32 : BitVec 32 := 80#32
  let v22 : BitVec 1 := Scalar.cmpi .slt v21 c80_i32
  let v23 : BitVec 32 := Scalar.extui v22
  let c0_i32_14 : BitVec 32 := 0#32
  let v24 : BitVec 1 := Scalar.cmpi .ne v23 c0_i32_14
  v24

def k0_mult3 (i : grid0.Coords) : BitVec 32 :=
  let arg1 : BitVec 32 := BitVec.ofNat 32 (i 1).val
  let c1_i32_186 : BitVec 32 := 1#32
  let v247 : BitVec 32 := Scalar.addi arg1 c1_i32_186
  let c1_i32_187 : BitVec 32 := 1#32
  let v248 : BitVec 32 := Scalar.muli v247 c1_i32_187
  v248
def k0_off5 (i : grid0.Coords) : Fin 1 → Nat :=
  let c1_i32_185 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v246 : BitVec 32 := Scalar.subi c1_i32_185 v12
  ![v246.toNat]
def k0_off6 (i : grid0.Coords) : Fin 5 → Nat :=
  let c1_i32_185 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v246 : BitVec 32 := Scalar.subi c1_i32_185 v12
  let c0_i32_188 : BitVec 32 := 0#32
  let c0_i32_189 : BitVec 32 := 0#32
  let c0_i32_190 : BitVec 32 := 0#32
  let c0_i32_191 : BitVec 32 := 0#32
  ![v246.toNat, 0, 0, 0, 0]
def k0_off7 (i : grid0.Coords) : Fin 5 → Nat :=
  let arg0 : BitVec 32 := BitVec.ofNat 32 (i 0).val
  let c0_i32_192 : BitVec 32 := 0#32
  let arg1 : BitVec 32 := BitVec.ofNat 32 (i 1).val
  let c1_i32_186 : BitVec 32 := 1#32
  let v247 : BitVec 32 := Scalar.addi arg1 c1_i32_186
  let c1_i32_187 : BitVec 32 := 1#32
  let v248 : BitVec 32 := Scalar.muli v247 c1_i32_187
  let v249 : BitVec 32 := v248
  let c0_i32_193 : BitVec 32 := 0#32
  let c0_i32_194 : BitVec 32 := 0#32
  ![arg0.toNat, 0, v249.toNat, 0, 0]
def k0_off8 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v27 : Index := Scalar.indexCast v12
  let c0_19 : Index := 0#32
  let c0_20 : Index := 0#32
  let c0_21 : Index := 0#32
  let c0_22 : Index := 0#32
  ![v27.toNat, 0, 0, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x64x1x80x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x27x1x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S2x64x80x80x80_S2x64x82x82x82_000_000_110_110_110 : S2x64x80x80x80.Pads (![0, 0, 1, 1, 1] : Fin 5 → Nat) ![0, 0, 1, 1, 1] ![0, 0, 0, 0, 0] S2x64x82x82x82
  h_S_ : 0 < S_.numel
  inb_S2_S1_0 : ∀ a, (![0] : Fin 1 → Nat) a + S1.size a ≤ S2.size a
  squeezes_S1_S_ : S1.Squeezes S_
  inb_S2x64x3x82x82_S1x64x3x82x82_0_0_0_0_0 : ∀ a, (![0, 0, 0, 0, 0] : Fin 5 → Nat) a + S1x64x3x82x82.size a ≤ S2x64x3x82x82.size a
  squeezes_S1x64x3x82x82_S64x3x82x82 : S1x64x3x82x82.Squeezes S64x3x82x82
  inb_S1x64x1x80x80_S1x64x1x80x80_0_0_0_0_0 : ∀ a, (![0, 0, 0, 0, 0] : Fin 5 → Nat) a + S1x64x1x80x80.size a ≤ S1x64x1x80x80.size a
  h_S1x64x1x80x80 : 0 < S1x64x1x80x80.numel
  shapeCasts_S1x64x1x80x80_S64x1x80x80 : S1x64x1x80x80.ShapeCasts S64x1x80x80
  h_S1x64x3x82x82 : 0 < S1x64x3x82x82.numel
  shapeCasts_S1x64x3x82x82_S64x3x82x82 : S1x64x3x82x82.ShapeCasts S64x3x82x82
  slices_S64x3x82x82_o0_0_0_0_S64x1x80x80 : S64x3x82x82.Slices ![0, 0, 0, 0] S64x1x80x80
  reduces_S64x1x80x80_S1x80x80 : S64x1x80x80.Reduces [0] S1x80x80
  inb_S1x27x1x80x80_S1x1x1x80x80_0_0_0_0_0 : ∀ a, (![0, 0, 0, 0, 0] : Fin 5 → Nat) a + S1x1x1x80x80.size a ≤ S1x27x1x80x80.size a
  h_S1x1x1x80x80 : 0 < S1x1x1x80x80.numel
  shapeCasts_S1x1x1x80x80_S1x80x80 : S1x1x1x80x80.ShapeCasts S1x80x80
  shapeCasts_S1x80x80_S1x1x1x80x80 : S1x80x80.ShapeCasts S1x1x1x80x80
  slices_S64x3x82x82_o0_0_0_1_S64x1x80x80 : S64x3x82x82.Slices ![0, 0, 0, 1] S64x1x80x80
  inb_S1x27x1x80x80_S1x1x1x80x80_0_1_0_0_0 : ∀ a, (![0, 1, 0, 0, 0] : Fin 5 → Nat) a + S1x1x1x80x80.size a ≤ S1x27x1x80x80.size a
  slices_S64x3x82x82_o0_0_0_2_S64x1x80x80 : S64x3x82x82.Slices ![0, 0, 0, 2] S64x1x80x80
  inb_S1x27x1x80x80_S1x1x1x80x80_0_2_0_0_0 : ∀ a, (![0, 2, 0, 0, 0] : Fin 5 → Nat) a + S1x1x1x80x80.size a ≤ S1x27x1x80x80.size a
  slices_S64x3x82x82_o0_0_1_0_S64x1x80x80 : S64x3x82x82.Slices ![0, 0, 1, 0] S64x1x80x80
  inb_S1x27x1x80x80_S1x1x1x80x80_0_3_0_0_0 : ∀ a, (![0, 3, 0, 0, 0] : Fin 5 → Nat) a + S1x1x1x80x80.size a ≤ S1x27x1x80x80.size a
  slices_S64x3x82x82_o0_0_1_1_S64x1x80x80 : S64x3x82x82.Slices ![0, 0, 1, 1] S64x1x80x80
  inb_S1x27x1x80x80_S1x1x1x80x80_0_4_0_0_0 : ∀ a, (![0, 4, 0, 0, 0] : Fin 5 → Nat) a + S1x1x1x80x80.size a ≤ S1x27x1x80x80.size a
  slices_S64x3x82x82_o0_0_1_2_S64x1x80x80 : S64x3x82x82.Slices ![0, 0, 1, 2] S64x1x80x80
  inb_S1x27x1x80x80_S1x1x1x80x80_0_5_0_0_0 : ∀ a, (![0, 5, 0, 0, 0] : Fin 5 → Nat) a + S1x1x1x80x80.size a ≤ S1x27x1x80x80.size a
  slices_S64x3x82x82_o0_0_2_0_S64x1x80x80 : S64x3x82x82.Slices ![0, 0, 2, 0] S64x1x80x80
  inb_S1x27x1x80x80_S1x1x1x80x80_0_6_0_0_0 : ∀ a, (![0, 6, 0, 0, 0] : Fin 5 → Nat) a + S1x1x1x80x80.size a ≤ S1x27x1x80x80.size a
  slices_S64x3x82x82_o0_0_2_1_S64x1x80x80 : S64x3x82x82.Slices ![0, 0, 2, 1] S64x1x80x80
  inb_S1x27x1x80x80_S1x1x1x80x80_0_7_0_0_0 : ∀ a, (![0, 7, 0, 0, 0] : Fin 5 → Nat) a + S1x1x1x80x80.size a ≤ S1x27x1x80x80.size a
  slices_S64x3x82x82_o0_0_2_2_S64x1x80x80 : S64x3x82x82.Slices ![0, 0, 2, 2] S64x1x80x80
  inb_S1x27x1x80x80_S1x1x1x80x80_0_8_0_0_0 : ∀ a, (![0, 8, 0, 0, 0] : Fin 5 → Nat) a + S1x1x1x80x80.size a ≤ S1x27x1x80x80.size a
  slices_S64x3x82x82_o0_1_0_0_S64x1x80x80 : S64x3x82x82.Slices ![0, 1, 0, 0] S64x1x80x80
  inb_S1x27x1x80x80_S1x1x1x80x80_0_9_0_0_0 : ∀ a, (![0, 9, 0, 0, 0] : Fin 5 → Nat) a + S1x1x1x80x80.size a ≤ S1x27x1x80x80.size a
  slices_S64x3x82x82_o0_1_0_1_S64x1x80x80 : S64x3x82x82.Slices ![0, 1, 0, 1] S64x1x80x80
  inb_S1x27x1x80x80_S1x1x1x80x80_0_10_0_0_0 : ∀ a, (![0, 10, 0, 0, 0] : Fin 5 → Nat) a + S1x1x1x80x80.size a ≤ S1x27x1x80x80.size a
  slices_S64x3x82x82_o0_1_0_2_S64x1x80x80 : S64x3x82x82.Slices ![0, 1, 0, 2] S64x1x80x80
  inb_S1x27x1x80x80_S1x1x1x80x80_0_11_0_0_0 : ∀ a, (![0, 11, 0, 0, 0] : Fin 5 → Nat) a + S1x1x1x80x80.size a ≤ S1x27x1x80x80.size a
  slices_S64x3x82x82_o0_1_1_0_S64x1x80x80 : S64x3x82x82.Slices ![0, 1, 1, 0] S64x1x80x80
  inb_S1x27x1x80x80_S1x1x1x80x80_0_12_0_0_0 : ∀ a, (![0, 12, 0, 0, 0] : Fin 5 → Nat) a + S1x1x1x80x80.size a ≤ S1x27x1x80x80.size a
  slices_S64x3x82x82_o0_1_1_1_S64x1x80x80 : S64x3x82x82.Slices ![0, 1, 1, 1] S64x1x80x80
  inb_S1x27x1x80x80_S1x1x1x80x80_0_13_0_0_0 : ∀ a, (![0, 13, 0, 0, 0] : Fin 5 → Nat) a + S1x1x1x80x80.size a ≤ S1x27x1x80x80.size a
  slices_S64x3x82x82_o0_1_1_2_S64x1x80x80 : S64x3x82x82.Slices ![0, 1, 1, 2] S64x1x80x80
  inb_S1x27x1x80x80_S1x1x1x80x80_0_14_0_0_0 : ∀ a, (![0, 14, 0, 0, 0] : Fin 5 → Nat) a + S1x1x1x80x80.size a ≤ S1x27x1x80x80.size a
  slices_S64x3x82x82_o0_1_2_0_S64x1x80x80 : S64x3x82x82.Slices ![0, 1, 2, 0] S64x1x80x80
  inb_S1x27x1x80x80_S1x1x1x80x80_0_15_0_0_0 : ∀ a, (![0, 15, 0, 0, 0] : Fin 5 → Nat) a + S1x1x1x80x80.size a ≤ S1x27x1x80x80.size a
  slices_S64x3x82x82_o0_1_2_1_S64x1x80x80 : S64x3x82x82.Slices ![0, 1, 2, 1] S64x1x80x80
  inb_S1x27x1x80x80_S1x1x1x80x80_0_16_0_0_0 : ∀ a, (![0, 16, 0, 0, 0] : Fin 5 → Nat) a + S1x1x1x80x80.size a ≤ S1x27x1x80x80.size a
  slices_S64x3x82x82_o0_1_2_2_S64x1x80x80 : S64x3x82x82.Slices ![0, 1, 2, 2] S64x1x80x80
  inb_S1x27x1x80x80_S1x1x1x80x80_0_17_0_0_0 : ∀ a, (![0, 17, 0, 0, 0] : Fin 5 → Nat) a + S1x1x1x80x80.size a ≤ S1x27x1x80x80.size a
  slices_S64x3x82x82_o0_2_0_0_S64x1x80x80 : S64x3x82x82.Slices ![0, 2, 0, 0] S64x1x80x80
  inb_S1x27x1x80x80_S1x1x1x80x80_0_18_0_0_0 : ∀ a, (![0, 18, 0, 0, 0] : Fin 5 → Nat) a + S1x1x1x80x80.size a ≤ S1x27x1x80x80.size a
  slices_S64x3x82x82_o0_2_0_1_S64x1x80x80 : S64x3x82x82.Slices ![0, 2, 0, 1] S64x1x80x80
  inb_S1x27x1x80x80_S1x1x1x80x80_0_19_0_0_0 : ∀ a, (![0, 19, 0, 0, 0] : Fin 5 → Nat) a + S1x1x1x80x80.size a ≤ S1x27x1x80x80.size a
  slices_S64x3x82x82_o0_2_0_2_S64x1x80x80 : S64x3x82x82.Slices ![0, 2, 0, 2] S64x1x80x80
  inb_S1x27x1x80x80_S1x1x1x80x80_0_20_0_0_0 : ∀ a, (![0, 20, 0, 0, 0] : Fin 5 → Nat) a + S1x1x1x80x80.size a ≤ S1x27x1x80x80.size a
  slices_S64x3x82x82_o0_2_1_0_S64x1x80x80 : S64x3x82x82.Slices ![0, 2, 1, 0] S64x1x80x80
  inb_S1x27x1x80x80_S1x1x1x80x80_0_21_0_0_0 : ∀ a, (![0, 21, 0, 0, 0] : Fin 5 → Nat) a + S1x1x1x80x80.size a ≤ S1x27x1x80x80.size a
  slices_S64x3x82x82_o0_2_1_1_S64x1x80x80 : S64x3x82x82.Slices ![0, 2, 1, 1] S64x1x80x80
  inb_S1x27x1x80x80_S1x1x1x80x80_0_22_0_0_0 : ∀ a, (![0, 22, 0, 0, 0] : Fin 5 → Nat) a + S1x1x1x80x80.size a ≤ S1x27x1x80x80.size a
  slices_S64x3x82x82_o0_2_1_2_S64x1x80x80 : S64x3x82x82.Slices ![0, 2, 1, 2] S64x1x80x80
  inb_S1x27x1x80x80_S1x1x1x80x80_0_23_0_0_0 : ∀ a, (![0, 23, 0, 0, 0] : Fin 5 → Nat) a + S1x1x1x80x80.size a ≤ S1x27x1x80x80.size a
  slices_S64x3x82x82_o0_2_2_0_S64x1x80x80 : S64x3x82x82.Slices ![0, 2, 2, 0] S64x1x80x80
  inb_S1x27x1x80x80_S1x1x1x80x80_0_24_0_0_0 : ∀ a, (![0, 24, 0, 0, 0] : Fin 5 → Nat) a + S1x1x1x80x80.size a ≤ S1x27x1x80x80.size a
  slices_S64x3x82x82_o0_2_2_1_S64x1x80x80 : S64x3x82x82.Slices ![0, 2, 2, 1] S64x1x80x80
  inb_S1x27x1x80x80_S1x1x1x80x80_0_25_0_0_0 : ∀ a, (![0, 25, 0, 0, 0] : Fin 5 → Nat) a + S1x1x1x80x80.size a ≤ S1x27x1x80x80.size a
  slices_S64x3x82x82_o0_2_2_2_S64x1x80x80 : S64x3x82x82.Slices ![0, 2, 2, 2] S64x1x80x80
  inb_S1x27x1x80x80_S1x1x1x80x80_0_26_0_0_0 : ∀ a, (![0, 26, 0, 0, 0] : Fin 5 → Nat) a + S1x1x1x80x80.size a ≤ S1x27x1x80x80.size a
  hcc0_scratch1 : 4 + S2.numel ≤ 6
  hrank0 : 0 < grid0.rank
  k0_mult1_dvd : ∀ i : grid0.Coords, ∀ (k0_h1 : k0_cond1 i = 1#1), 1 ∣ (k0_mult1 i).toNat
  k0_off1_inb : ∀ i : grid0.Coords, ∀ (k0_h1 : k0_cond1 i = 1#1), ∀ a, (k0_off1 i) a + S1x64x3x82x82.size a ≤ S2x64x82x82x82.size a
  k0_mult2_dvd : ∀ i : grid0.Coords, 1 ∣ (k0_mult2 i).toNat
  k0_off2_inb : ∀ i : grid0.Coords, ∀ a, (k0_off2 i) a + S1.size a ≤ S2.size a
  k0_off3_inb : ∀ i : grid0.Coords, ∀ a, (k0_off3 i) a + S1x64x3x82x82.size a ≤ S2x64x3x82x82.size a
  k0_off4_inb : ∀ i : grid0.Coords, ∀ a, (k0_off4 i) a + S1x64x3x82x82.size a ≤ S2x64x82x82x82.size a
  k0_mult3_dvd : ∀ i : grid0.Coords, ∀ (k0_h2 : k0_cond2 i = 1#1), 1 ∣ (k0_mult3 i).toNat
  k0_off5_inb : ∀ i : grid0.Coords, ∀ (k0_h2 : k0_cond2 i = 1#1), ∀ a, (k0_off5 i) a + S1.size a ≤ S2.size a
  k0_off6_inb : ∀ i : grid0.Coords, ∀ (k0_h2 : k0_cond2 i = 1#1), ∀ a, (k0_off6 i) a + S1x64x3x82x82.size a ≤ S2x64x3x82x82.size a
  k0_off7_inb : ∀ i : grid0.Coords, ∀ (k0_h2 : k0_cond2 i = 1#1), ∀ a, (k0_off7 i) a + S1x64x3x82x82.size a ≤ S2x64x82x82x82.size a
  k0_off8_inb : ∀ i : grid0.Coords, ∀ a, (k0_off8 i) a + S1x64x3x82x82.size a ≤ S2x64x3x82x82.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1x80x80.size a ≤ S2x64x80x80x80.size a
  hwx0_0 : ∀ i : grid0.Coords, EltTy.bits .f32 = 32 ∨ (Rect.block (s := S2x64x80x80x80) S1x64x1x80x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x27x1x80x80.size a ≤ S2x27x80x80x80.size a
  hwx0_1 : ∀ i : grid0.Coords, EltTy.bits .f32 = 32 ∨ (Rect.block (s := S2x27x80x80x80) S1x27x1x80x80.size (cc0_transform_2 i) (hinb0_1 i)).WholeWords (EltTy.packing .f32)

variable [Facts₀]

abbrev cc0_scratch1 : DmaSems sig S2 := SemArray.consecutive 4 S2 hcc0_scratch1

abbrev win0_0 : Pipeline.Window sig grid0 :=
  Pipeline.Window.ofSpec (Memref.whole main_arg0) S1x64x1x80x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x27x1x80x80.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x64x80x80x80 : Shape := ⟨5, ![2, 64, 80, 80, 80]⟩
abbrev S_ : Shape := ⟨0, ![]⟩
abbrev S2x64x82x82x82 : Shape := ⟨5, ![2, 64, 82, 82, 82]⟩
abbrev S2x80x80x80 : Shape := ⟨4, ![2, 80, 80, 80]⟩
abbrev S2x1x80x80x80 : Shape := ⟨5, ![2, 1, 80, 80, 80]⟩
abbrev S2x16x80x80x80 : Shape := ⟨5, ![2, 16, 80, 80, 80]⟩
abbrev S2x11x80x80x80 : Shape := ⟨5, ![2, 11, 80, 80, 80]⟩
abbrev S2x27x80x80x80 : Shape := ⟨5, ![2, 27, 80, 80, 80]⟩

abbrev nBuf : Space → Nat
  | .hbm => 146
  | .vmem => 0
  | .smem => 0
  | _ => 0

abbrev hbmTy0_0 (i : Nat) : BufTy := match i % 128 with
  | 0 => ⟨S2x64x80x80x80, .f32⟩
  | 1 => ⟨S2x64x80x80x80, .f32⟩
  | 2 => ⟨S_, .i32⟩
  | 3 => ⟨S_, .f32⟩
  | 4 => ⟨S2x64x82x82x82, .f32⟩
  | 5 => ⟨S2x64x80x80x80, .f32⟩
  | 6 => ⟨S2x64x80x80x80, .f32⟩
  | 7 => ⟨S_, .f32⟩
  | 8 => ⟨S2x80x80x80, .f32⟩
  | 9 => ⟨S2x64x80x80x80, .f32⟩
  | 10 => ⟨S2x64x80x80x80, .f32⟩
  | 11 => ⟨S_, .f32⟩
  | 12 => ⟨S2x80x80x80, .f32⟩
  | 13 => ⟨S2x64x80x80x80, .f32⟩
  | 14 => ⟨S2x64x80x80x80, .f32⟩
  | 15 => ⟨S_, .f32⟩
  | 16 => ⟨S2x80x80x80, .f32⟩
  | 17 => ⟨S2x64x80x80x80, .f32⟩
  | 18 => ⟨S2x64x80x80x80, .f32⟩
  | 19 => ⟨S_, .f32⟩
  | 20 => ⟨S2x80x80x80, .f32⟩
  | 21 => ⟨S2x64x80x80x80, .f32⟩
  | 22 => ⟨S2x64x80x80x80, .f32⟩
  | 23 => ⟨S_, .f32⟩
  | 24 => ⟨S2x80x80x80, .f32⟩
  | 25 => ⟨S2x64x80x80x80, .f32⟩
  | 26 => ⟨S2x64x80x80x80, .f32⟩
  | 27 => ⟨S_, .f32⟩
  | 28 => ⟨S2x80x80x80, .f32⟩
  | 29 => ⟨S2x64x80x80x80, .f32⟩
  | 30 => ⟨S2x64x80x80x80, .f32⟩
  | 31 => ⟨S_, .f32⟩
  | 32 => ⟨S2x80x80x80, .f32⟩
  | 33 => ⟨S2x64x80x80x80, .f32⟩
  | 34 => ⟨S2x64x80x80x80, .f32⟩
  | 35 => ⟨S_, .f32⟩
  | 36 => ⟨S2x80x80x80, .f32⟩
  | 37 => ⟨S2x64x80x80x80, .f32⟩
  | 38 => ⟨S2x64x80x80x80, .f32⟩
  | 39 => ⟨S_, .f32⟩
  | 40 => ⟨S2x80x80x80, .f32⟩
  | 41 => ⟨S2x64x80x80x80, .f32⟩
  | 42 => ⟨S2x64x80x80x80, .f32⟩
  | 43 => ⟨S_, .f32⟩
  | 44 => ⟨S2x80x80x80, .f32⟩
  | 45 => ⟨S2x64x80x80x80, .f32⟩
  | 46 => ⟨S2x64x80x80x80, .f32⟩
  | 47 => ⟨S_, .f32⟩
  | 48 => ⟨S2x80x80x80, .f32⟩
  | 49 => ⟨S2x64x80x80x80, .f32⟩
  | 50 => ⟨S2x64x80x80x80, .f32⟩
  | 51 => ⟨S_, .f32⟩
  | 52 => ⟨S2x80x80x80, .f32⟩
  | 53 => ⟨S2x64x80x80x80, .f32⟩
  | 54 => ⟨S2x64x80x80x80, .f32⟩
  | 55 => ⟨S_, .f32⟩
  | 56 => ⟨S2x80x80x80, .f32⟩
  | 57 => ⟨S2x64x80x80x80, .f32⟩
  | 58 => ⟨S2x64x80x80x80, .f32⟩
  | 59 => ⟨S_, .f32⟩
  | 60 => ⟨S2x80x80x80, .f32⟩
  | 61 => ⟨S2x64x80x80x80, .f32⟩
  | 62 => ⟨S2x64x80x80x80, .f32⟩
  | 63 => ⟨S_, .f32⟩
  | 64 => ⟨S2x80x80x80, .f32⟩
  | 65 => ⟨S2x64x80x80x80, .f32⟩
  | 66 => ⟨S2x64x80x80x80, .f32⟩
  | 67 => ⟨S_, .f32⟩
  | 68 => ⟨S2x80x80x80, .f32⟩
  | 69 => ⟨S2x64x80x80x80, .f32⟩
  | 70 => ⟨S2x64x80x80x80, .f32⟩
  | 71 => ⟨S_, .f32⟩
  | 72 => ⟨S2x80x80x80, .f32⟩
  | 73 => ⟨S2x64x80x80x80, .f32⟩
  | 74 => ⟨S2x64x80x80x80, .f32⟩
  | 75 => ⟨S_, .f32⟩
  | 76 => ⟨S2x80x80x80, .f32⟩
  | 77 => ⟨S2x64x80x80x80, .f32⟩
  | 78 => ⟨S2x64x80x80x80, .f32⟩
  | 79 => ⟨S_, .f32⟩
  | 80 => ⟨S2x80x80x80, .f32⟩
  | 81 => ⟨S2x64x80x80x80, .f32⟩
  | 82 => ⟨S2x64x80x80x80, .f32⟩
  | 83 => ⟨S_, .f32⟩
  | 84 => ⟨S2x80x80x80, .f32⟩
  | 85 => ⟨S2x64x80x80x80, .f32⟩
  | 86 => ⟨S2x64x80x80x80, .f32⟩
  | 87 => ⟨S_, .f32⟩
  | 88 => ⟨S2x80x80x80, .f32⟩
  | 89 => ⟨S2x64x80x80x80, .f32⟩
  | 90 => ⟨S2x64x80x80x80, .f32⟩
  | 91 => ⟨S_, .f32⟩
  | 92 => ⟨S2x80x80x80, .f32⟩
  | 93 => ⟨S2x64x80x80x80, .f32⟩
  | 94 => ⟨S2x64x80x80x80, .f32⟩
  | 95 => ⟨S_, .f32⟩
  | 96 => ⟨S2x80x80x80, .f32⟩
  | 97 => ⟨S2x64x80x80x80, .f32⟩
  | 98 => ⟨S2x64x80x80x80, .f32⟩
  | 99 => ⟨S_, .f32⟩
  | 100 => ⟨S2x80x80x80, .f32⟩
  | 101 => ⟨S2x64x80x80x80, .f32⟩
  | 102 => ⟨S2x64x80x80x80, .f32⟩
  | 103 => ⟨S_, .f32⟩
  | 104 => ⟨S2x80x80x80, .f32⟩
  | 105 => ⟨S2x64x80x80x80, .f32⟩
  | 106 => ⟨S2x64x80x80x80, .f32⟩
  | 107 => ⟨S_, .f32⟩
  | 108 => ⟨S2x80x80x80, .f32⟩
  | 109 => ⟨S2x64x80x80x80, .f32⟩
  | 110 => ⟨S2x64x80x80x80, .f32⟩
  | 111 => ⟨S_, .f32⟩
  | 112 => ⟨S2x80x80x80, .f32⟩
  | 113 => ⟨S2x1x80x80x80, .f32⟩
  | 114 => ⟨S2x1x80x80x80, .f32⟩
  | 115 => ⟨S2x1x80x80x80, .f32⟩
  | 116 => ⟨S2x1x80x80x80, .f32⟩
  | 117 => ⟨S2x1x80x80x80, .f32⟩
  | 118 => ⟨S2x1x80x80x80, .f32⟩
  | 119 => ⟨S2x1x80x80x80, .f32⟩
  | 120 => ⟨S2x1x80x80x80, .f32⟩
  | 121 => ⟨S2x1x80x80x80, .f32⟩
  | 122 => ⟨S2x1x80x80x80, .f32⟩
  | 123 => ⟨S2x1x80x80x80, .f32⟩
  | 124 => ⟨S2x1x80x80x80, .f32⟩
  | 125 => ⟨S2x1x80x80x80, .f32⟩
  | 126 => ⟨S2x1x80x80x80, .f32⟩
  | 127 => ⟨S2x1x80x80x80, .f32⟩
  | _ => ⟨S2x64x80x80x80, .f32⟩

abbrev hbmTy0_1 (i : Nat) : BufTy := match i % 128 with
  | 0 => ⟨S2x1x80x80x80, .f32⟩
  | 1 => ⟨S2x1x80x80x80, .f32⟩
  | 2 => ⟨S2x1x80x80x80, .f32⟩
  | 3 => ⟨S2x1x80x80x80, .f32⟩
  | 4 => ⟨S2x1x80x80x80, .f32⟩
  | 5 => ⟨S2x1x80x80x80, .f32⟩
  | 6 => ⟨S2x1x80x80x80, .f32⟩
  | 7 => ⟨S2x1x80x80x80, .f32⟩
  | 8 => ⟨S2x1x80x80x80, .f32⟩
  | 9 => ⟨S2x1x80x80x80, .f32⟩
  | 10 => ⟨S2x1x80x80x80, .f32⟩
  | 11 => ⟨S2x1x80x80x80, .f32⟩
  | 12 => ⟨S2x16x80x80x80, .f32⟩
  | 13 => ⟨S2x11x80x80x80, .f32⟩
  | 14 => ⟨S2x27x80x80x80, .f32⟩
  | 15 => ⟨S_, .f32⟩
  | 16 => ⟨S2x27x80x80x80, .f32⟩
  | 17 => ⟨S2x27x80x80x80, .f32⟩
  | _ => ⟨S2x64x80x80x80, .f32⟩

abbrev hbmTy (i : Nat) : BufTy := match i / 128 with
  | 0 => hbmTy0_0 i
  | 1 => hbmTy0_1 i
  | _ => ⟨S2x64x80x80x80, .f32⟩

abbrev bufTy : (tb : Table) → Fin (tcTables nBuf tb) → BufTy
  | .hbm, ⟨i, _⟩ => hbmTy i
  | _, _ => ⟨S2x64x80x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_25 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_26 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]

class Facts₀ : Prop where
  pads_S2x64x80x80x80_S2x64x82x82x82_000_000_110_110_110 : S2x64x80x80x80.Pads (![0, 0, 1, 1, 1] : Fin 5 → Nat) ![0, 0, 1, 1, 1] ![0, 0, 0, 0, 0] S2x64x82x82x82
  h_S_ : 0 < S_.numel
  slices_S2x64x82x82x82_S2x64x80x80x80_0_0_0_0_0 : S2x64x82x82x82.Slices ![0, 0, 0, 0, 0] S2x64x80x80x80
  reducesTo_S2x64x80x80x80_S2x80x80x80_d1 : S2x64x80x80x80.ReducesTo [1] S2x80x80x80
  slices_S2x64x82x82x82_S2x64x80x80x80_0_0_0_0_1 : S2x64x82x82x82.Slices ![0, 0, 0, 0, 1] S2x64x80x80x80
  slices_S2x64x82x82x82_S2x64x80x80x80_0_0_0_0_2 : S2x64x82x82x82.Slices ![0, 0, 0, 0, 2] S2x64x80x80x80
  slices_S2x64x82x82x82_S2x64x80x80x80_0_0_0_1_0 : S2x64x82x82x82.Slices ![0, 0, 0, 1, 0] S2x64x80x80x80
  slices_S2x64x82x82x82_S2x64x80x80x80_0_0_0_1_1 : S2x64x82x82x82.Slices ![0, 0, 0, 1, 1] S2x64x80x80x80
  slices_S2x64x82x82x82_S2x64x80x80x80_0_0_0_1_2 : S2x64x82x82x82.Slices ![0, 0, 0, 1, 2] S2x64x80x80x80
  slices_S2x64x82x82x82_S2x64x80x80x80_0_0_0_2_0 : S2x64x82x82x82.Slices ![0, 0, 0, 2, 0] S2x64x80x80x80
  slices_S2x64x82x82x82_S2x64x80x80x80_0_0_0_2_1 : S2x64x82x82x82.Slices ![0, 0, 0, 2, 1] S2x64x80x80x80
  slices_S2x64x82x82x82_S2x64x80x80x80_0_0_0_2_2 : S2x64x82x82x82.Slices ![0, 0, 0, 2, 2] S2x64x80x80x80
  slices_S2x64x82x82x82_S2x64x80x80x80_0_0_1_0_0 : S2x64x82x82x82.Slices ![0, 0, 1, 0, 0] S2x64x80x80x80
  slices_S2x64x82x82x82_S2x64x80x80x80_0_0_1_0_1 : S2x64x82x82x82.Slices ![0, 0, 1, 0, 1] S2x64x80x80x80
  slices_S2x64x82x82x82_S2x64x80x80x80_0_0_1_0_2 : S2x64x82x82x82.Slices ![0, 0, 1, 0, 2] S2x64x80x80x80
  slices_S2x64x82x82x82_S2x64x80x80x80_0_0_1_1_0 : S2x64x82x82x82.Slices ![0, 0, 1, 1, 0] S2x64x80x80x80
  slices_S2x64x82x82x82_S2x64x80x80x80_0_0_1_1_1 : S2x64x82x82x82.Slices ![0, 0, 1, 1, 1] S2x64x80x80x80
  slices_S2x64x82x82x82_S2x64x80x80x80_0_0_1_1_2 : S2x64x82x82x82.Slices ![0, 0, 1, 1, 2] S2x64x80x80x80
  slices_S2x64x82x82x82_S2x64x80x80x80_0_0_1_2_0 : S2x64x82x82x82.Slices ![0, 0, 1, 2, 0] S2x64x80x80x80
  slices_S2x64x82x82x82_S2x64x80x80x80_0_0_1_2_1 : S2x64x82x82x82.Slices ![0, 0, 1, 2, 1] S2x64x80x80x80
  slices_S2x64x82x82x82_S2x64x80x80x80_0_0_1_2_2 : S2x64x82x82x82.Slices ![0, 0, 1, 2, 2] S2x64x80x80x80
  slices_S2x64x82x82x82_S2x64x80x80x80_0_0_2_0_0 : S2x64x82x82x82.Slices ![0, 0, 2, 0, 0] S2x64x80x80x80
  slices_S2x64x82x82x82_S2x64x80x80x80_0_0_2_0_1 : S2x64x82x82x82.Slices ![0, 0, 2, 0, 1] S2x64x80x80x80
  slices_S2x64x82x82x82_S2x64x80x80x80_0_0_2_0_2 : S2x64x82x82x82.Slices ![0, 0, 2, 0, 2] S2x64x80x80x80
  slices_S2x64x82x82x82_S2x64x80x80x80_0_0_2_1_0 : S2x64x82x82x82.Slices ![0, 0, 2, 1, 0] S2x64x80x80x80
  slices_S2x64x82x82x82_S2x64x80x80x80_0_0_2_1_1 : S2x64x82x82x82.Slices ![0, 0, 2, 1, 1] S2x64x80x80x80
  slices_S2x64x82x82x82_S2x64x80x80x80_0_0_2_1_2 : S2x64x82x82x82.Slices ![0, 0, 2, 1, 2] S2x64x80x80x80
  slices_S2x64x82x82x82_S2x64x80x80x80_0_0_2_2_0 : S2x64x82x82x82.Slices ![0, 0, 2, 2, 0] S2x64x80x80x80
  slices_S2x64x82x82x82_S2x64x80x80x80_0_0_2_2_1 : S2x64x82x82x82.Slices ![0, 0, 2, 2, 1] S2x64x80x80x80
  slices_S2x64x82x82x82_S2x64x80x80x80_0_0_2_2_2 : S2x64x82x82x82.Slices ![0, 0, 2, 2, 2] S2x64x80x80x80
  bcast_S2x80x80x80_S2x1x80x80x80_0_2_3_4 : S2x80x80x80.BroadcastsInDim S2x1x80x80x80 (![0, 2, 3, 4] : Fin 4 → Fin S2x1x80x80x80.rank)
  concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x16x80x80x80_d1 : Shape.Concatenates [S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80, S2x1x80x80x80] S2x16x80x80x80 1
  concatenates_S2x1x80x80x80_S2x1x80x80x80_S2x1x80x80x80_S2x1x80x80x80_S2x1x80x80x80_S2x1x80x80x80_S2x1x80x80x80_S2x1x80x80x80_S2x1x80x80x80_S2x1x80x80x80_S2x1x80x80x80_S2x11x80x80x80_d1 : Shape.Concatenates [S2x1x80x80x80, S2x1x80x80x80, S2x1x80x80x80, S2x1x80x80x80, S2x1x80x80x80, S2x1x80x80x80, S2x1x80x80x80, S2x1x80x80x80, S2x1x80x80x80, S2x1x80x80x80, S2x1x80x80x80] S2x11x80x80x80 1
  concatenates_S2x16x80x80x80_S2x11x80x80x80_S2x27x80x80x80_d1 : Shape.Concatenates [S2x16x80x80x80, S2x11x80x80x80] S2x27x80x80x80 1
  bcast_S_S2x27x80x80x80 : S_.BroadcastsInDim S2x27x80x80x80 (![] : Fin 0 → Fin S2x27x80x80x80.rank)

variable [Facts₀]

class Facts : Prop extends Facts₀ where

variable [Facts]
-- ==== Proof.KernelRing.lean ====
/-
  The depth-window ring of the correlation kernel.

  The padded second operand stays in HBM. At grid point `t`, read as a batch element `t / 80` and a depth
  `δ = t % 80`, the body waits for the three-plane depth window `δ … δ + 2` of that batch element in slot `δ % 2`
  of a two-slot scratch, and, unless `δ` is the last depth, starts the next window `δ + 1 … δ + 3` into the other
  slot; at `δ = 0` it first starts its own window. So every batch element runs one ring of 80 steps, one window
  ahead, and nothing is in flight when a batch element ends: the next one starts from two free slots again.
  Consecutive windows overlap in two planes, so no window of the operand is set apart: each slot borrows from its
  own half-share copy of the whole operand.

  This module names the slots, the windows and the semaphore cells, states the ring before each point, splits what
  the region is handed into the ring before the first point and joins it back after the last, and identifies the
  offsets the body computes at a point with the ring's names.
-/
import proofs.«131693_j81647328297400_1_alg».proof.Proof.Gen.Kernel.Frame
import proofs.«131693_j81647328297400_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry, at the algebra of a body that moves data itself -/

/-- The program up to its one region: the two stretches of host operations (the zero, the padding), then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The first operand's staging buffer holds its block at every point, whatever the proof data's other fields. -/
theorem before_x_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run to the pipeline's frame post leaves both argument arrays as they were launched. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The two branches of the body, decided over the grid -/

/-- The body starts its own window: exactly at depth 0 of a batch element. -/
abbrev condFirst (i : grid0.Coords) : Prop := k0_cond1 i = 1#1
theorem hcondFirst : ∀ t : Fin cfg0.N, condFirst (grid0.coords t) ↔ t.val % 80 = 0 :=
  (by decide +kernel : ∀ t : Fin grid0.N, condFirst (grid0.coords t) ↔ t.val % 80 = 0)
/-- The body starts the next window: at every depth but the last. -/
abbrev condMore (i : grid0.Coords) : Prop := k0_cond2 i = 1#1
theorem hcondMore : ∀ t : Fin cfg0.N, condMore (grid0.coords t) ↔ t.val % 80 + 1 < 80 :=
  (by decide +kernel : ∀ t : Fin grid0.N, condMore (grid0.coords t) ↔ t.val % 80 + 1 < 80)

/-! ## The memrefs the body is called with -/

/-- One staging buffer of the result window, through which its contents are stated. -/
abbrev VO : View sig .tc .vmem S1x27x1x80x80 .f32 := (Memref.whole cc0_stg1_0 : Memref sig .tc .vmem S1x27x1x80x80 .f32).view
abbrev msX (t : Fin cfg0.N) : Memref sig .tc .vmem S1x64x1x80x80 .f32 := win0_0.stage (cfg0.slots t 0)
abbrev hsX (t : Fin cfg0.N) : (msX t).IsWhole := hstage0_0 ((cfg0.slots t 0).cast nbuf0_0)
abbrev msO (t : Fin cfg0.N) : Memref sig .tc .vmem S1x27x1x80x80 .f32 := win0_1.stage (cfg0.slots t 1)
abbrev hsO (t : Fin cfg0.N) : (msO t).IsWhole := hstage0_1 ((cfg0.slots t 1).cast nbuf0_1)
/-- The two-slot scratch and the padded operand, whole. -/
abbrev scM : Memref sig .tc .vmem S2x64x3x82x82 .f32 := Memref.whole cc0_scratch0
abbrev hbM : Memref sig .tc .hbm S2x64x82x82x82 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own two semaphore cells. -/
abbrev osem : Fin 2 → SemLoc sig := fun j => (![SemLoc.dma 4, SemLoc.dma 5] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
/-- The operand the body moves: the padded array, which no window stages. -/
def H0 : Finset (Ref sig .tc) := {main_v0}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c hbM (V m c main_v0)) := by
  rw [BI.bigSep_eq_bigSepL_of_eq [main_v0] (by decide) (by decide)]; rfl

/-- What the region hands the body and takes back, conjunct by conjunct: the scratch at some contents, the generator
    register, the two cells at zero, the padded operand at its contents. -/
theorem PhiD_eq (c : Dev nD) :
    (Pipeline.ΦD osem spec0 H0 (V m) c : sProp 𝕄)
      = iprop(iprop((∃ d, owns (c : Thread nD τ) scM fullShare d)) ∗ (∃ r, prngReg c r) ∗ iprop(semVal ((c : Thread nD τ), SemLoc.dma 4) 0 ∗ semVal ((c : Thread nD τ), SemLoc.dma 5) 0) ∗ iprop(hbPt c hbM (V m c main_v0))) := by
  rw [Pipeline.ΦD_eq, scopedRest0_eq, ownSems_eq, hbmPts_eq]; simp only [scM, owns_whole]; try rfl

/-! ## Slots, depth windows, cells -/

theorem inb_slot (s : Fin 2) : ∀ a, (![s.val, 0, 0, 0, 0] : Fin 5 → Nat) a + S1x64x3x82x82.size a ≤ S2x64x3x82x82.size a := by
  have := s.isLt; intro a; fin_cases a <;> simp <;> omega
theorem inb_win (b : Fin 2) (d : Fin 80) : ∀ a, (![b.val, 0, d.val, 0, 0] : Fin 5 → Nat) a + S1x64x3x82x82.size a ≤ S2x64x82x82x82.size a := by
  have := b.isLt; have := d.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch. -/
def rslot (s : Fin 2) : Memref sig .tc .vmem S64x3x82x82 .f32 :=
  (scM.slice (Rect.unit (s := S2x64x3x82x82) ![s.val, 0, 0, 0, 0] S1x64x3x82x82.size (inb_slot s)) (fun _ => rfl)).squeeze S64x3x82x82 squeezes_S1x64x3x82x82_S64x3x82x82
/-- The depth window `d … d + 2` of batch element `b` of the padded operand. -/
def srcW (b : Fin 2) (d : Fin 80) : Memref sig .tc .hbm S64x3x82x82 .f32 :=
  (hbM.slice (Rect.unit (s := S2x64x82x82x82) ![b.val, 0, d.val, 0, 0] S1x64x3x82x82.size (inb_win b d)) (fun _ => rfl)).squeeze S64x3x82x82 squeezes_S1x64x3x82x82_S64x3x82x82
/-- Cell `s` of the semaphore pair; its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section Ring
variable (c : Dev nD) (W : HbBuf (F := F) c hbM)
/-- Each slot borrows from its own half-share copy of the operand. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 2) (d : Fin 80) : sProp 𝕄 := (srcW b d).view.loc (c : Thread nD τ) ↦[(srcW b d).view.set]{qs s} W
def restP (s : Fin 2) (b : Fin 2) (d : Fin 80) : sProp 𝕄 := ((c : Thread nD τ).loc main_v0) ↦[Finset.univ \ (srcW b d).view.set]{qs s} W
abbrev wholeP (s : Fin 2) : sProp 𝕄 := ((c : Thread nD τ).loc main_v0) ↦[Finset.univ]{qs s} W
/-- A slot's contents once window `d` of batch element `b` has landed in it whole. -/
abbrev landed (b : Fin 2) (s : Fin 2) (d : Fin 80) (f : HbBuf (F := F) c (rslot s)) : HbBuf (F := F) c (rslot s) :=
  (rslot s).view.writes (Elt F) f [⟨Rect.whole S64x3x82x82, ReadAs.same.apply ((srcW b d).view.read (Elt F) W)⟩]
abbrev flightP (b : Fin 2) (s : Fin 2) (d : Fin 80) (f : HbBuf (F := F) c (rslot s)) : sProp 𝕄 :=
  Transfers.Flight countersEmb (c : Thread nD τ) (cellR s) default ((rslot s).view.amount (cellR s))
    iprop(slotP c s (landed c W b s d f) ∗ srcP c W s b d)
abbrev slotW (s : Fin 2) (f : HbBuf (F := F) c (rslot s)) : sProp 𝕄 := iprop(slotP c s f ∗ wholeP c W s)
abbrev flightW (b : Fin 2) (s : Fin 2) (d : Fin 80) (f : HbBuf (F := F) c (rslot s)) : sProp 𝕄 := iprop(flightP c W b s d f ∗ restP c W s b d)
abbrev noHome (d : Fin 80) : sProp 𝕄 := iprop(emp)
/-- The ring before the point of batch element `q` and depth `d`: two free slots at depth 0; afterwards window `d` in
    flight into slot `d % 2` and the other slot keeping window `d - 1`. -/
def ringAt (q d : ℕ) : sProp 𝕄 :=
  if d = 0 then Ring.At₀ (cellP c) (slotW c W) noHome
  else Ring.AtK 1 (cellP c) (slotW c W) noHome (flightW c W (Fin.ofNat 2 q)) (landed c W (Fin.ofNat 2 q)) d
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end Ring

/-! ### The slots are disjoint and cover the scratch -/

abbrev slotSet (s : Fin 2) : Finset S2x64x3x82x82.Idx := (Rect.unit (s := S2x64x3x82x82) ![s.val, 0, 0, 0, 0] S1x64x3x82x82.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x64x3x82x82) (0 : Fin 5) 1 (fun s : Fin 2 => (![s.val, 0, 0, 0, 0] : Fin 5 → Nat)) S1x64x3x82x82.size inb_slot (fun s => by simp) rfl s s' h
theorem slots_cover : Finset.univ.biUnion slotSet = Finset.univ :=
  Ring.lead_cover (s := S2x64x3x82x82) (0 : Fin 5) 1 (fun s : Fin 2 => (![s.val, 0, 0, 0, 0] : Fin 5 → Nat)) S1x64x3x82x82.size inb_slot (fun s => by simp)
    (fun s a ha => by fin_cases a <;> first | exact absurd rfl ha | rfl) rfl (fun a ha => by fin_cases a <;> first | exact absurd rfl ha | rfl) rfl

section InOut
variable (c : Dev nD) (W : HbBuf (F := F) c hbM)
theorem slotP_eq (s : Fin 2) (f) : slotP (F := F) c s f = (((c : Thread nD τ).loc cc0_scratch0) ↦[slotSet s]{fullShare} f : sProp 𝕄) := by
  unfold slotP; rw [slotSet_eq]; rfl
/-- A slot's copy of the operand is any one window's elements and the rest. -/
theorem src_split (s : Fin 2) (b : Fin 2) (d : Fin 80) : wholeP (F := F) c W s ⊣⊢ iprop(srcP c W s b d ∗ restP c W s b d) := by
  unfold restP; exact pointsTo_split_subset (Finset.subset_univ _)
/-- The operand at the full share is the two copies. -/
theorem whole_split : (hbPt c hbM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-- Two free slots from the region's pieces: the scratch whole, the cells at zero, the operand whole. -/
theorem free_in :
    iprop((∃ d, owns (c : Thread nD τ) scM fullShare d) ∗ (semVal ((c : Thread nD τ), SemLoc.dma 4) 0 ∗ semVal ((c : Thread nD τ), SemLoc.dma 5) 0) ∗ hbPt c hbM W)
      ⊢ Ring.At₀ (cellP (F := F) c) (slotW c W) noHome := by
  unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and back. -/
theorem free_out :
    Ring.At₀ (cellP (F := F) c) (slotW c W) noHome
      ⊢ iprop((∃ d, owns (c : Thread nD τ) scM fullShare d) ∗ (semVal ((c : Thread nD τ), SemLoc.dma 4) 0 ∗ semVal ((c : Thread nD τ), SemLoc.dma 5) 0) ∗ hbPt c hbM W) := by
  unfold Ring.At₀
  rw [Ring.bigSep_fin2]
  simp only [Ring.free, cellP_0, cellP_1]
  iintro ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1
end InOut

/-! ### The body's offsets at a point are the ring's names -/

section Canon
omit [FloatOps F]
set_option synthInstance.maxSize 4096 in
theorem off_slotFirst : ∀ t : Fin grid0.N, condFirst (grid0.coords t) → (![0, 0, 0, 0, 0] : Fin 5 → Nat) = ![(Ring.sl 2 (t.val % 80)).val, 0, 0, 0, 0] := by decide +kernel
@[sl_canon] theorem canon_slotFirst (t : Fin grid0.N) (h0 : condFirst (grid0.coords t)) :
    (scM.slice (Rect.unit (s := S2x64x3x82x82) ![0, 0, 0, 0, 0] S1x64x3x82x82.size inb_S2x64x3x82x82_S1x64x3x82x82_0_0_0_0_0) (fun _ => rfl)).squeeze S64x3x82x82 squeezes_S1x64x3x82x82_S64x3x82x82 = rslot (Ring.sl 2 (t.val % 80)) :=
  congrArg (fun M : Memref sig .tc .vmem S1x64x3x82x82 .f32 => M.squeeze S64x3x82x82 squeezes_S1x64x3x82x82_S64x3x82x82) (Memref.slice_unit_congr _ (off_slotFirst t h0) _ _ (fun _ => rfl) (fun _ => rfl))
set_option synthInstance.maxSize 4096 in
theorem off_cellFirst : ∀ t : Fin grid0.N, condFirst (grid0.coords t) → (![0] : Fin 1 → Nat) = ![(Ring.sl 2 (t.val % 80)).val] := by decide +kernel
@[sl_canon] theorem canon_cellFirst (t : Fin grid0.N) (h0 : condFirst (grid0.coords t)) :
    (cc0_scratch1.slice (Rect.unit (s := S2) ![0] S1.size inb_S2_S1_0)).squeeze S_ squeezes_S1_S_ = cellA (Ring.sl 2 (t.val % 80)) :=
  congrArg (fun A : DmaSems sig S1 => A.squeeze S_ squeezes_S1_S_) (SemArray.slice_unit_congr _ (off_cellFirst t h0) _ _)
set_option synthInstance.maxSize 4096 in
theorem off_winFirst : ∀ t : Fin grid0.N, condFirst (grid0.coords t) → k0_off1 (grid0.coords t) = ![(Fin.ofNat 2 (t.val / 80)).val, 0, (Ring.bk 80 (t.val % 80)).val, 0, 0] := by decide +kernel
@[sl_canon] theorem canon_winFirst (t : Fin grid0.N) (h0 : condFirst (grid0.coords t)) :
    (hbM.slice (Rect.unit (s := S2x64x82x82x82) (k0_off1 (grid0.coords t)) S1x64x3x82x82.size (k0_off1_inb (grid0.coords t) h0)) (fun _ => rfl)).squeeze S64x3x82x82 squeezes_S1x64x3x82x82_S64x3x82x82 = srcW (Fin.ofNat 2 (t.val / 80)) (Ring.bk 80 (t.val % 80)) :=
  congrArg (fun M : Memref sig .tc .hbm S1x64x3x82x82 .f32 => M.squeeze S64x3x82x82 squeezes_S1x64x3x82x82_S64x3x82x82) (Memref.slice_unit_congr _ (off_winFirst t h0) _ _ (fun _ => rfl) (fun _ => rfl))
set_option synthInstance.maxSize 4096 in
theorem off_cellCur : ∀ t : Fin grid0.N, k0_off2 (grid0.coords t) = ![(Ring.sl 2 (t.val % 80)).val] := by decide +kernel
@[sl_canon] theorem canon_cellCur (t : Fin grid0.N) :
    (cc0_scratch1.slice (Rect.unit (s := S2) (k0_off2 (grid0.coords t)) S1.size (k0_off2_inb (grid0.coords t)))).squeeze S_ squeezes_S1_S_ = cellA (Ring.sl 2 (t.val % 80)) :=
  congrArg (fun A : DmaSems sig S1 => A.squeeze S_ squeezes_S1_S_) (SemArray.slice_unit_congr _ (off_cellCur t) _ _)
set_option synthInstance.maxSize 4096 in
theorem off_slotCur : ∀ t : Fin grid0.N, k0_off3 (grid0.coords t) = ![(Ring.sl 2 (t.val % 80)).val, 0, 0, 0, 0] := by decide +kernel
@[sl_canon] theorem canon_slotCur (t : Fin grid0.N) :
    (scM.slice (Rect.unit (s := S2x64x3x82x82) (k0_off3 (grid0.coords t)) S1x64x3x82x82.size (k0_off3_inb (grid0.coords t))) (fun _ => rfl)).squeeze S64x3x82x82 squeezes_S1x64x3x82x82_S64x3x82x82 = rslot (Ring.sl 2 (t.val % 80)) :=
  congrArg (fun M : Memref sig .tc .vmem S1x64x3x82x82 .f32 => M.squeeze S64x3x82x82 squeezes_S1x64x3x82x82_S64x3x82x82) (Memref.slice_unit_congr _ (off_slotCur t) _ _ (fun _ => rfl) (fun _ => rfl))
set_option synthInstance.maxSize 4096 in
theorem off_winCur : ∀ t : Fin grid0.N, k0_off4 (grid0.coords t) = ![(Fin.ofNat 2 (t.val / 80)).val, 0, (Ring.bk 80 (t.val % 80)).val, 0, 0] := by decide +kernel
@[sl_canon] theorem canon_winCur (t : Fin grid0.N) :
    (hbM.slice (Rect.unit (s := S2x64x82x82x82) (k0_off4 (grid0.coords t)) S1x64x3x82x82.size (k0_off4_inb (grid0.coords t))) (fun _ => rfl)).squeeze S64x3x82x82 squeezes_S1x64x3x82x82_S64x3x82x82 = srcW (Fin.ofNat 2 (t.val / 80)) (Ring.bk 80 (t.val % 80)) :=
  congrArg (fun M : Memref sig .tc .hbm S1x64x3x82x82 .f32 => M.squeeze S64x3x82x82 squeezes_S1x64x3x82x82_S64x3x82x82) (Memref.slice_unit_congr _ (off_winCur t) _ _ (fun _ => rfl) (fun _ => rfl))
set_option synthInstance.maxSize 4096 in
theorem off_cellNext : ∀ t : Fin grid0.N, condMore (grid0.coords t) → k0_off5 (grid0.coords t) = ![(Ring.sl 2 (t.val % 80 + 1)).val] := by decide +kernel
@[sl_canon] theorem canon_cellNext (t : Fin grid0.N) (h1 : condMore (grid0.coords t)) :
    (cc0_scratch1.slice (Rect.unit (s := S2) (k0_off5 (grid0.coords t)) S1.size (k0_off5_inb (grid0.coords t) h1))).squeeze S_ squeezes_S1_S_ = cellA (Ring.sl 2 (t.val % 80 + 1)) :=
  congrArg (fun A : DmaSems sig S1 => A.squeeze S_ squeezes_S1_S_) (SemArray.slice_unit_congr _ (off_cellNext t h1) _ _)
set_option synthInstance.maxSize 4096 in
theorem off_slotNext : ∀ t : Fin grid0.N, condMore (grid0.coords t) → k0_off6 (grid0.coords t) = ![(Ring.sl 2 (t.val % 80 + 1)).val, 0, 0, 0, 0] := by decide +kernel
@[sl_canon] theorem canon_slotNext (t : Fin grid0.N) (h1 : condMore (grid0.coords t)) :
    (scM.slice (Rect.unit (s := S2x64x3x82x82) (k0_off6 (grid0.coords t)) S1x64x3x82x82.size (k0_off6_inb (grid0.coords t) h1)) (fun _ => rfl)).squeeze S64x3x82x82 squeezes_S1x64x3x82x82_S64x3x82x82 = rslot (Ring.sl 2 (t.val % 80 + 1)) :=
  congrArg (fun M : Memref sig .tc .vmem S1x64x3x82x82 .f32 => M.squeeze S64x3x82x82 squeezes_S1x64x3x82x82_S64x3x82x82) (Memref.slice_unit_congr _ (off_slotNext t h1) _ _ (fun _ => rfl) (fun _ => rfl))
set_option synthInstance.maxSize 4096 in
theorem off_winNext : ∀ t : Fin grid0.N, condMore (grid0.coords t) → k0_off7 (grid0.coords t) = ![(Fin.ofNat 2 (t.val / 80)).val, 0, (Ring.bk 80 (t.val % 80 + 1)).val, 0, 0] := by decide +kernel
@[sl_canon] theorem canon_winNext (t : Fin grid0.N) (h1 : condMore (grid0.coords t)) :
    (hbM.slice (Rect.unit (s := S2x64x82x82x82) (k0_off7 (grid0.coords t)) S1x64x3x82x82.size (k0_off7_inb (grid0.coords t) h1)) (fun _ => rfl)).squeeze S64x3x82x82 squeezes_S1x64x3x82x82_S64x3x82x82 = srcW (Fin.ofNat 2 (t.val / 80)) (Ring.bk 80 (t.val % 80 + 1)) :=
  congrArg (fun M : Memref sig .tc .hbm S1x64x3x82x82 .f32 => M.squeeze S64x3x82x82 squeezes_S1x64x3x82x82_S64x3x82x82) (Memref.slice_unit_congr _ (off_winNext t h1) _ _ (fun _ => rfl) (fun _ => rfl))
set_option synthInstance.maxSize 4096 in
theorem off_load : ∀ t : Fin grid0.N, k0_off8 (grid0.coords t) = ![(Ring.sl 2 (t.val % 80)).val, 0, 0, 0, 0] := by decide +kernel
/-- The load of the waited slot, boxed in the slot's own spelling. -/
instance (priority := high) closedOff_load (t : Fin grid0.N) : ClosedOff (k0_off8 (grid0.coords t)) := ⟨![(Ring.sl 2 (t.val % 80)).val, 0, 0, 0, 0], off_load t⟩
end Canon

end Cert.Kernel.Halo

end
-- ==== Proof.KernelRunA.lean ====
/-
  The body at the first depth of a batch element.

  Handed the x block, the result's staging buffer at anything and two free slots, the body starts this depth's
  window into its slot, waits for it, starts the next window into the other slot, loads the x block and the landed
  slot, and stores the 27 scaled channel sums. It returns the x block as it was, the result's buffer with those 27
  pieces written, the next window in flight and this depth's window kept. The pieces are found by running the
  body; they are the first component.
-/
import proofs.«131693_j81647328297400_1_alg».proof.Proof.KernelRing

set_option maxRecDepth 16384

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.free (cellP c) (slotW c W) (Ring.sl 2 (t.val % 80))
            ∗ Ring.free (cellP c) (slotW c W) (Ring.sl 2 (t.val % 80 + 1))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.inflight (flightW c W (Fin.ofNat 2 (t.val / 80))) (Ring.sl 2 (t.val % 80 + 1)) (Ring.bk 80 (t.val % 80 + 1))
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (condFirst (grid0.coords t)) := ⟨hc0⟩
    haveI : Fact (condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hcanon0 := canon_slotFirst t hc0
    have hcanon1 := canon_cellFirst t hc0
    have hcanon2 := canon_winFirst t hc0
    unfold owns Ring.free Ring.inflight Ring.kept
    iintro ⟨⟨%f0, %hf0, H0⟩, ⟨%d1, %f1, -, H1⟩, ⟨Hcc, ⟨%fsc, Hsc, Hwc⟩⟩, ⟨Hcn, ⟨%fsn, Hsn, Hwn⟩⟩, HW, Hk⟩
    ihave Hspc := (src_split c W (Ring.sl 2 (t.val % 80)) (Fin.ofNat 2 (t.val / 80)) (Ring.bk 80 (t.val % 80))).1 $$ Hwc
    icases Hspc with ⟨Hhc, Hrc⟩
    ihave Hspn := (src_split c W (Ring.sl 2 (t.val % 80 + 1)) (Fin.ofNat 2 (t.val / 80)) (Ring.bk 80 (t.val % 80 + 1))).1 $$ Hwn
    icases Hspn with ⟨Hhn, Hrn⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hcn Hrn]
    · iexists _; isplitl [Hcn]; · iexact Hcn
      iexact Hrn
    isplitl [Hcc Hsc Hhc Hrc]
    · isplitl [Hcc]; · iexact Hcc
      iexists _; isplitl [Hsc]; · iexact Hsc
      iapply (src_split c W (Ring.sl 2 (t.val % 80)) (Fin.ofNat 2 (t.val / 80)) (Ring.bk 80 (t.val % 80))).2; isplitl [Hhc]; · iexact Hhc
      iexact Hrc
    iexists _; iexact HW

end Cert.Kernel.Halo

end
-- ==== Proof.KernelRunB.lean ====
/-
  The body at a point that is neither the first nor the last depth of its batch element.

  Handed the x block in its staging buffer, the result's staging buffer at anything, the window of this depth in
  flight into its slot and the other slot keeping the previous window, the body waits for its window (which lands
  whole, its source elements returned to the slot's copy of the operand), starts the next window over the kept
  slot, loads the x block and the landed slot, and stores the 27 scaled channel sums. It returns the x block as it
  was, the result's buffer with those 27 pieces written, the next window in flight and this depth's window kept.
  The pieces are found by running the body; they are the first component.
-/
import proofs.«131693_j81647328297400_1_alg».proof.Proof.KernelRing

set_option maxRecDepth 16384

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.inflight (flightW c W (Fin.ofNat 2 (t.val / 80))) (Ring.sl 2 (t.val % 80)) (Ring.bk 80 (t.val % 80))
            ∗ Ring.kept (cellP c) (slotW c W) (landed c W (Fin.ofNat 2 (t.val / 80))) (Ring.sl 2 (t.val % 80 + 1)) (Ring.bk 80 (t.val % 80 - 1))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.inflight (flightW c W (Fin.ofNat 2 (t.val / 80))) (Ring.sl 2 (t.val % 80 + 1)) (Ring.bk 80 (t.val % 80 + 1))
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (¬condFirst (grid0.coords t)) := ⟨hc0⟩
    haveI : Fact (condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff, Hfl, Hrf⟩, ⟨Hcn, ⟨%fsn, Hsn, Hwn⟩⟩, HW, Hk⟩
    ihave Hsp := (src_split c W (Ring.sl 2 (t.val % 80 + 1)) (Fin.ofNat 2 (t.val / 80)) (Ring.bk 80 (t.val % 80 + 1))).1 $$ Hwn
    icases Hsp with ⟨Hhn, Hrn⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hcn Hrn]
    · iexists _; isplitl [Hcn]; · iexact Hcn
      iexact Hrn
    isplitl [Hfl Hfl_dst Hfl_src Hrf]
    · isplitl [Hfl]; · iexact Hfl
      iexists _; isplitl [Hfl_dst]; · iexact Hfl_dst
      iapply (src_split c W (Ring.sl 2 (t.val % 80)) (Fin.ofNat 2 (t.val / 80)) (Ring.bk 80 (t.val % 80))).2; isplitl [Hfl_src]; · iexact Hfl_src
      iexact Hrf
    iexists _; iexact HW

end Cert.Kernel.Halo

end
-- ==== Proof.KernelRunC.lean ====
/-
  The body at the last depth of a batch element.

  Handed the x block, the result's staging buffer at anything and this depth's window in flight, the body waits
  for the window, starts nothing, loads the x block and the landed slot, and stores the 27 scaled channel sums. It
  returns the x block as it was, the result's buffer with those 27 pieces written and this depth's window kept; the
  other slot is not touched. The pieces are found by running the body; they are the first component.
-/
import proofs.«131693_j81647328297400_1_alg».proof.Proof.KernelRing

set_option maxRecDepth 16384

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.inflight (flightW c W (Fin.ofNat 2 (t.val / 80))) (Ring.sl 2 (t.val % 80)) (Ring.bk 80 (t.val % 80))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (¬condFirst (grid0.coords t)) := ⟨hc0⟩
    haveI : Fact (¬condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff, Hfl, Hrf⟩, HW, Hk⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hfl Hfl_dst Hfl_src Hrf]
    · isplitl [Hfl]; · iexact Hfl
      iexists _; isplitl [Hfl_dst]; · iexact Hfl_dst
      iapply (src_split c W (Ring.sl 2 (t.val % 80)) (Fin.ofNat 2 (t.val / 80)) (Ring.bk 80 (t.val % 80))).2; isplitl [Hfl_src]; · iexact Hfl_src
      iexact Hrf
    iexists _; iexact HW

end Cert.Kernel.Halo

end
-- ==== Proof.KernelFrame.lean ====
/-
  The frame of the correlation kernel: every execution terminates, nothing faults, both arguments end unchanged.

  The invariant carried from point to point is the ring of depth windows (the ring module): before the point of
  batch element `q` and depth `δ`, two free slots if `δ = 0`, else window `δ` in flight and window `δ - 1` kept.
  A point is of one of three kinds — first depth, a middle depth, last depth — and each kind's run of the body
  takes the ring's pieces for that kind and returns the pieces of the next point; after the last depth both kept
  slots are forgotten into free ones, which is the invariant before the next batch element (or what the region
  takes back). The result's staging buffer after a point holds the 27 pieces the run found, which tile it.
-/
import proofs.«131693_j81647328297400_1_alg».proof.Proof.KernelRunA
import proofs.«131693_j81647328297400_1_alg».proof.Proof.KernelRunB
import proofs.«131693_j81647328297400_1_alg».proof.Proof.KernelRunC

set_option maxRecDepth 16384

noncomputable section

namespace Cert.Kernel.Halo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The 27 pieces of a point of kind A tile the result's block, so they cover it. -/
theorem cover_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) (y : S1x27x1x80x80.Idx) :
    ∃ pc ∈ (kernelRun_A c t argX hargX argO hargO hc0 hc1 x0 W).1, y ∈ pc.1.set :=
  View.cover_of_tiledL (kernelRun_A c t argX hargX argO hargO hc0 hc1 x0 W).1 S1x1x1x80x80.size (by sl_kernel_rfl) y

/-- What a point of kind A leaves in the result's staging buffer: its pieces read back. -/
def out_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) : Vec F S1x27x1x80x80 .f32 :=
  VO.read (Elt F) (VO.writes (Elt F) VO.junk (kernelRun_A c t argX hargX argO hargO hc0 hc1 x0 W).1)

/-- The 27 pieces of a point of kind B tile the result's block, so they cover it. -/
theorem cover_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) (y : S1x27x1x80x80.Idx) :
    ∃ pc ∈ (kernelRun_B c t argX hargX argO hargO hc0 hc1 x0 W).1, y ∈ pc.1.set :=
  View.cover_of_tiledL (kernelRun_B c t argX hargX argO hargO hc0 hc1 x0 W).1 S1x1x1x80x80.size (by sl_kernel_rfl) y

/-- What a point of kind B leaves in the result's staging buffer: its pieces read back. -/
def out_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) : Vec F S1x27x1x80x80 .f32 :=
  VO.read (Elt F) (VO.writes (Elt F) VO.junk (kernelRun_B c t argX hargX argO hargO hc0 hc1 x0 W).1)

/-- The 27 pieces of a point of kind C tile the result's block, so they cover it. -/
theorem cover_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) (y : S1x27x1x80x80.Idx) :
    ∃ pc ∈ (kernelRun_C c t argX hargX argO hargO hc0 hc1 x0 W).1, y ∈ pc.1.set :=
  View.cover_of_tiledL (kernelRun_C c t argX hargX argO hargO hc0 hc1 x0 W).1 S1x1x1x80x80.size (by sl_kernel_rfl) y

/-- What a point of kind C leaves in the result's staging buffer: its pieces read back. -/
def out_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) : Vec F S1x27x1x80x80 .f32 :=
  VO.read (Elt F) (VO.writes (Elt F) VO.junk (kernelRun_C c t argX hargX argO hargO hc0 hc1 x0 W).1)

/-! ## What the result's buffer holds after each point -/

/-- By the point's kind: first depth, a middle depth, last depth. -/
def outsAt (c : Dev nD) (n : ℕ) (hn : n < cfg0.N) : Vec F S1x27x1x80x80 .f32 :=
  if h0 : n % 80 = 0 then
    out_A c ⟨n, hn⟩ (msX ⟨n, hn⟩) (hsX ⟨n, hn⟩) (msO ⟨n, hn⟩) (hsO ⟨n, hn⟩) ((hcondFirst ⟨n, hn⟩).mpr h0) ((hcondMore ⟨n, hn⟩).mpr (by (try dsimp only); omega)) (iblk m c 0 ⟨n, hn⟩) (V m c main_v0)
  else if h1 : n % 80 + 1 < 80 then
    out_B c ⟨n, hn⟩ (msX ⟨n, hn⟩) (hsX ⟨n, hn⟩) (msO ⟨n, hn⟩) (hsO ⟨n, hn⟩) (fun h => h0 ((hcondFirst ⟨n, hn⟩).mp h)) ((hcondMore ⟨n, hn⟩).mpr h1) (iblk m c 0 ⟨n, hn⟩) (V m c main_v0)
  else
    out_C c ⟨n, hn⟩ (msX ⟨n, hn⟩) (hsX ⟨n, hn⟩) (msO ⟨n, hn⟩) (hsO ⟨n, hn⟩) (fun h => h0 ((hcondFirst ⟨n, hn⟩).mp h)) (fun h => h1 ((hcondMore ⟨n, hn⟩).mp h)) (iblk m c 0 ⟨n, hn⟩) (V m c main_v0)

theorem outsAt_A (c : Dev nD) (t : Fin cfg0.N) (h0 : t.val % 80 = 0) (h1 : t.val % 80 + 1 < 80) :
    outsAt m c t.val t.isLt = out_A c t (msX t) (hsX t) (msO t) (hsO t) ((hcondFirst t).mpr h0) ((hcondMore t).mpr h1) (iblk m c 0 t) (V m c main_v0) := by
  obtain ⟨n, hn⟩ := t; exact dif_pos h0
theorem outsAt_B (c : Dev nD) (t : Fin cfg0.N) (h0 : ¬t.val % 80 = 0) (h1 : t.val % 80 + 1 < 80) :
    outsAt m c t.val t.isLt = out_B c t (msX t) (hsX t) (msO t) (hsO t) (fun h => h0 ((hcondFirst t).mp h)) ((hcondMore t).mpr h1) (iblk m c 0 t) (V m c main_v0) := by
  obtain ⟨n, hn⟩ := t; exact (dif_neg h0).trans (dif_pos h1)
theorem outsAt_C (c : Dev nD) (t : Fin cfg0.N) (h0 : ¬t.val % 80 = 0) (h1 : ¬t.val % 80 + 1 < 80) :
    outsAt m c t.val t.isLt = out_C c t (msX t) (hsX t) (msO t) (hsO t) (fun h => h0 ((hcondFirst t).mp h)) (fun h => h1 ((hcondMore t).mp h)) (iblk m c 0 t) (V m c main_v0) := by
  obtain ⟨n, hn⟩ := t; exact (dif_neg h0).trans (dif_neg h1)

/-! ## The proof data -/

/-- The invariant before point `k`: the generator register at some state, and the ring before that point. -/
def PhiR (c : Dev nD) (k : ℕ) : sProp 𝕄 := iprop((∃ r, prngReg c r) ∗ ringAt c (V m c main_v0) (k / 80) (k % 80))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t.val t.isLt)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_x (c : Dev nD) (t : Fin cfg0.N) : (dats m 0 c).after 0 t = iblk m c 0 t := by dsimp only [dats]
theorem after_out (c : Dev nD) (t : Fin cfg0.N) : (dats m 0 c).after 1 t = (outsAt m c t.val t.isLt) := by dsimp only [dats]
theorem before_x (c : Dev nD) (t : Fin cfg0.N) (d) : (dats m 0 c).before 0 t d = iblk m c 0 t :=
  before_x_of m (dats m 0 c) (A_eq m c 0) (after_x m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msO t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (msX t) fullShare ((dats m 0 c).after 0 t)
    ∗ owns (c : Thread nD τ) (msO t) fullShare ((dats m 0 c).after 1 t))

/-- After the last depth both slots keep a window; forgotten, they are two free slots. -/
theorem free_of_kept2 (c : Dev nD) (W : HbBuf (F := F) c hbM) (q : Fin 2) (d : ℕ) (hd : d = 79) (b0 b1 : Fin 80) :
    iprop(Ring.kept (cellP c) (slotW c W) (landed c W q) (Ring.sl 2 (d + 1)) b0 ∗ Ring.kept (cellP c) (slotW c W) (landed c W q) (Ring.sl 2 d) b1)
      ⊢ Ring.At₀ (cellP (F := F) c) (slotW c W) noHome := by
  subst hd
  unfold Ring.At₀
  rw [Ring.bigSep_fin2]
  have e0 : Ring.sl 2 (79 + 1) = (0 : Fin 2) := rfl
  have e1 : Ring.sl 2 79 = (1 : Fin 2) := rfl
  rw [e0, e1]
  iintro ⟨H0, H1⟩
  iapply Ring.with_homes₀
  isplitl [H0]
  · iapply (Ring.free_of_kept (cellP c) (slotW c W) (landed c W q) 0 b0); iexact H0
  · iapply (Ring.free_of_kept (cellP c) (slotW c W) (landed c W q) 1 b1); iexact H1

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x]
  rw [after_x, after_out]
  rw [PhiR_castSucc m c t, PhiR_succ m c t]
  unfold Dat.owesAt Pipeline.owesWithin
  rw [show (dats m 0 c).owed t.castSucc = 0 from rfl, show (dats m 0 c).owed t.succ = 0 from rfl]
  unfold PhiR
  have hN : t.val < 160 := lt_of_lt_of_eq t.isLt (show cfg0.N = 160 from N_0)
  by_cases h0 : t.val % 80 = 0
  · have h1 : t.val % 80 + 1 < 80 := by omega
    have e1 : (t.val + 1) % 80 = t.val % 80 + 1 := by omega
    have e2 : (t.val + 1) / 80 = t.val / 80 := by omega
    rw [e1, e2, outsAt_A m c t h0 h1]
    unfold out_A ringAt
    rw [if_pos h0, if_neg (show ¬t.val % 80 + 1 = 0 by omega)]
    rw [Ring.At₀_eq2' _ _ _ (t.val % 80) h0 (by decide : 2 ≤ 80), Ring.AtK2_one' _ _ _ _ _ (t.val % 80) h0 (by decide : 1 < 80)]
    iintro ⟨⟨Hg, ⟨-, Hfr0, Hfr1⟩⟩, ⟨%Wt, -, HW⟩, ⟨%d0, H0⟩, ⟨%d1, H1⟩⟩
    iapply ((kernelRun_A c t _ _ _ _ ((hcondFirst t).mpr h0) ((hcondMore t).mpr h1) (iblk m c 0 t) (V m c main_v0)).2 Wt _)
    isplitl [H0]; · iexact H0
    isplitl [H1]; · iexists _; iexact H1
    isplitl [Hfr0]; · iexact Hfr0
    isplitl [Hfr1]; · iexact Hfr1
    isplitl [HW]; · iexact HW
    iintro ⟨H0, ⟨%e1', H1⟩, Hfl', Hkp', ⟨%W', HW'⟩⟩
    isplitl [Hg Hfl' Hkp']
    · isplitl [Hg]; · iexact Hg
      iapply Ring.with_homes₀
      isplitl [Hfl']; · iexact Hfl'
      iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (cover_A c _ _ _ _ _ _ _ _ _)
  · by_cases h1 : t.val % 80 + 1 < 80
    · have e1 : (t.val + 1) % 80 = t.val % 80 + 1 := by omega
      have e2 : (t.val + 1) / 80 = t.val / 80 := by omega
      rw [e1, e2, outsAt_B m c t h0 h1]
      unfold out_B ringAt
      rw [if_neg h0, if_neg (show ¬t.val % 80 + 1 = 0 by omega)]
      rw [Ring.AtK2_here _ _ _ _ _ (t.val % 80) (by omega) h1, Ring.AtK2_next _ _ _ _ _ (t.val % 80) (by omega) h1]
      iintro ⟨⟨Hg, ⟨-, Hfl, Hkp⟩⟩, ⟨%Wt, -, HW⟩, ⟨%d0, H0⟩, ⟨%d1, H1⟩⟩
      iapply ((kernelRun_B c t _ _ _ _ (fun h => h0 ((hcondFirst t).mp h)) ((hcondMore t).mpr h1) (iblk m c 0 t) (V m c main_v0)).2 Wt _)
      isplitl [H0]; · iexact H0
      isplitl [H1]; · iexists _; iexact H1
      isplitl [Hfl]; · iexact Hfl
      isplitl [Hkp]; · iexact Hkp
      isplitl [HW]; · iexact HW
      iintro ⟨H0, ⟨%e1', H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover_B c _ _ _ _ _ _ _ _ _)
    · have hd : t.val % 80 = 79 := by omega
      have e1 : (t.val + 1) % 80 = 0 := by omega
      rw [e1, outsAt_C m c t h0 h1]
      unfold out_C ringAt
      rw [if_neg h0, if_pos rfl]
      rw [Ring.AtK2_here_last _ _ _ _ _ (t.val % 80) (by omega) (by omega)]
      iintro ⟨⟨Hg, ⟨-, Hfl, Hkp⟩⟩, ⟨%Wt, -, HW⟩, ⟨%d0, H0⟩, ⟨%d1, H1⟩⟩
      iapply ((kernelRun_C c t _ _ _ _ (fun h => h0 ((hcondFirst t).mp h)) (fun h => h1 ((hcondMore t).mp h)) (iblk m c 0 t) (V m c main_v0)).2 Wt _)
      isplitl [H0]; · iexact H0
      isplitl [H1]; · iexists _; iexact H1
      isplitl [Hfl]; · iexact Hfl
      isplitl [HW]; · iexact HW
      iintro ⟨H0, ⟨%e1', H1⟩, Hkp', ⟨%W', HW'⟩⟩
      isplitl [Hg Hkp Hkp']
      · isplitl [Hg]; · iexact Hg
        iapply (free_of_kept2 c (V m c main_v0) (Fin.ofNat 2 (t.val / 80)) (t.val % 80) hd _ _)
        isplitl [Hkp]; · iexact Hkp
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover_C c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Entry and exit -/

theorem hin (c : Dev nD) : Pipeline.ΦD osem spec0 H0 (V m) c ⊢ (dats m 0 c).Φ 0 := by
  rw [PhiD_eq, show (dats m 0 c).Φ 0 = PhiR m c 0 from rfl]
  unfold PhiR
  rw [show (0 : ℕ) / 80 = 0 from rfl, show (0 : ℕ) % 80 = 0 from rfl]
  unfold ringAt; rw [if_pos rfl]
  iintro ⟨HS, Hg, Hq, Hh⟩
  isplitl [Hg]; · iexact Hg
  iapply (free_in (F := F) c (V m c main_v0))
  isplitl [HS]; · iexact HS
  isplitl [Hq]; · iexact Hq
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 160 by rw [N_0]]
  rw [show (160 : ℕ) / 80 = 2 from rfl, show (160 : ℕ) % 80 = 0 from rfl]
  unfold ringAt; rw [if_pos rfl]
  iintro ⟨Hg, HR⟩
  ihave HX := (free_out (F := F) c (V m c main_v0)) $$ HR
  icases HX with ⟨HS, Hq, Hh⟩
  isplitl [HS]; · iexact HS
  isplitl [Hg]; · iexact Hg
  isplitl [Hq]; · iexact Hq
  iexact Hh

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.Kernel.Halo

end
-- ==== Proof.KernelIdealRing.lean ====
/-
  The depth-window ring of the correlation kernel.

  The padded second operand stays in HBM. At grid point `t`, read as a batch element `t / 80` and a depth
  `δ = t % 80`, the body waits for the three-plane depth window `δ … δ + 2` of that batch element in slot `δ % 2`
  of a two-slot scratch, and, unless `δ` is the last depth, starts the next window `δ + 1 … δ + 3` into the other
  slot; at `δ = 0` it first starts its own window. So every batch element runs one ring of 80 steps, one window
  ahead, and nothing is in flight when a batch element ends: the next one starts from two free slots again.
  Consecutive windows overlap in two planes, so no window of the operand is set apart: each slot borrows from its
  own half-share copy of the whole operand.

  This module names the slots, the windows and the semaphore cells, states the ring before each point, splits what
  the region is handed into the ring before the first point and joins it back after the last, and identifies the
  offsets the body computes at a point with the ring's names.
-/
import proofs.«131693_j81647328297400_1_alg».proof.Proof.Gen.KernelIdeal.Frame
import proofs.«131693_j81647328297400_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry, at the algebra of a body that moves data itself -/

/-- The program up to its one region: the two stretches of host operations (the zero, the padding), then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The first operand's staging buffer holds its block at every point, whatever the proof data's other fields. -/
theorem before_x_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- A run to the pipeline's frame post leaves both argument arrays as they were launched. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The two branches of the body, decided over the grid -/

/-- The body starts its own window: exactly at depth 0 of a batch element. -/
abbrev condFirst (i : grid0.Coords) : Prop := k0_cond1 i = 1#1
theorem hcondFirst : ∀ t : Fin cfg0.N, condFirst (grid0.coords t) ↔ t.val % 80 = 0 :=
  (by decide +kernel : ∀ t : Fin grid0.N, condFirst (grid0.coords t) ↔ t.val % 80 = 0)
/-- The body starts the next window: at every depth but the last. -/
abbrev condMore (i : grid0.Coords) : Prop := k0_cond2 i = 1#1
theorem hcondMore : ∀ t : Fin cfg0.N, condMore (grid0.coords t) ↔ t.val % 80 + 1 < 80 :=
  (by decide +kernel : ∀ t : Fin grid0.N, condMore (grid0.coords t) ↔ t.val % 80 + 1 < 80)

/-! ## The memrefs the body is called with -/

/-- One staging buffer of the result window, through which its contents are stated. -/
abbrev VO : View sig .tc .vmem S1x27x1x80x80 .f32 := (Memref.whole cc0_stg1_0 : Memref sig .tc .vmem S1x27x1x80x80 .f32).view
abbrev msX (t : Fin cfg0.N) : Memref sig .tc .vmem S1x64x1x80x80 .f32 := win0_0.stage (cfg0.slots t 0)
abbrev hsX (t : Fin cfg0.N) : (msX t).IsWhole := hstage0_0 ((cfg0.slots t 0).cast nbuf0_0)
abbrev msO (t : Fin cfg0.N) : Memref sig .tc .vmem S1x27x1x80x80 .f32 := win0_1.stage (cfg0.slots t 1)
abbrev hsO (t : Fin cfg0.N) : (msO t).IsWhole := hstage0_1 ((cfg0.slots t 1).cast nbuf0_1)
/-- The two-slot scratch and the padded operand, whole. -/
abbrev scM : Memref sig .tc .vmem S2x64x3x82x82 .f32 := Memref.whole cc0_scratch0
abbrev hbM : Memref sig .tc .hbm S2x64x82x82x82 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own two semaphore cells. -/
abbrev osem : Fin 2 → SemLoc sig := fun j => (![SemLoc.dma 4, SemLoc.dma 5] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
/-- The operand the body moves: the padded array, which no window stages. -/
def H0 : Finset (Ref sig .tc) := {main_v0}
theorem H0_sub : H0 ⊆ Pipeline.restRefs sig spec0 := by decide
theorem hbmPts_eq (c : Dev nD) :
    (bigSep H0 (fun b => ((c : Thread nD τ).loc b) ↦{fullShare} V m c b) : sProp 𝕄) = iprop(hbPt c hbM (V m c main_v0)) := by
  rw [BI.bigSep_eq_bigSepL_of_eq [main_v0] (by decide) (by decide)]; rfl

/-- What the region hands the body and takes back, conjunct by conjunct: the scratch at some contents, the generator
    register, the two cells at zero, the padded operand at its contents. -/
theorem PhiD_eq (c : Dev nD) :
    (Pipeline.ΦD osem spec0 H0 (V m) c : sProp 𝕄)
      = iprop(iprop((∃ d, owns (c : Thread nD τ) scM fullShare d)) ∗ (∃ r, prngReg c r) ∗ iprop(semVal ((c : Thread nD τ), SemLoc.dma 4) 0 ∗ semVal ((c : Thread nD τ), SemLoc.dma 5) 0) ∗ iprop(hbPt c hbM (V m c main_v0))) := by
  rw [Pipeline.ΦD_eq, scopedRest0_eq, ownSems_eq, hbmPts_eq]; simp only [scM, owns_whole]; try rfl

/-! ## Slots, depth windows, cells -/

theorem inb_slot (s : Fin 2) : ∀ a, (![s.val, 0, 0, 0, 0] : Fin 5 → Nat) a + S1x64x3x82x82.size a ≤ S2x64x3x82x82.size a := by
  have := s.isLt; intro a; fin_cases a <;> simp <;> omega
theorem inb_win (b : Fin 2) (d : Fin 80) : ∀ a, (![b.val, 0, d.val, 0, 0] : Fin 5 → Nat) a + S1x64x3x82x82.size a ≤ S2x64x82x82x82.size a := by
  have := b.isLt; have := d.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch. -/
def rslot (s : Fin 2) : Memref sig .tc .vmem S64x3x82x82 .f32 :=
  (scM.slice (Rect.unit (s := S2x64x3x82x82) ![s.val, 0, 0, 0, 0] S1x64x3x82x82.size (inb_slot s)) (fun _ => rfl)).squeeze S64x3x82x82 squeezes_S1x64x3x82x82_S64x3x82x82
/-- The depth window `d … d + 2` of batch element `b` of the padded operand. -/
def srcW (b : Fin 2) (d : Fin 80) : Memref sig .tc .hbm S64x3x82x82 .f32 :=
  (hbM.slice (Rect.unit (s := S2x64x82x82x82) ![b.val, 0, d.val, 0, 0] S1x64x3x82x82.size (inb_win b d)) (fun _ => rfl)).squeeze S64x3x82x82 squeezes_S1x64x3x82x82_S64x3x82x82
/-- Cell `s` of the semaphore pair; its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section Ring
variable (c : Dev nD) (W : HbBuf (F := F) c hbM)
/-- Each slot borrows from its own half-share copy of the operand. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 2) (d : Fin 80) : sProp 𝕄 := (srcW b d).view.loc (c : Thread nD τ) ↦[(srcW b d).view.set]{qs s} W
def restP (s : Fin 2) (b : Fin 2) (d : Fin 80) : sProp 𝕄 := ((c : Thread nD τ).loc main_v0) ↦[Finset.univ \ (srcW b d).view.set]{qs s} W
abbrev wholeP (s : Fin 2) : sProp 𝕄 := ((c : Thread nD τ).loc main_v0) ↦[Finset.univ]{qs s} W
/-- A slot's contents once window `d` of batch element `b` has landed in it whole. -/
abbrev landed (b : Fin 2) (s : Fin 2) (d : Fin 80) (f : HbBuf (F := F) c (rslot s)) : HbBuf (F := F) c (rslot s) :=
  (rslot s).view.writes (Elt F) f [⟨Rect.whole S64x3x82x82, ReadAs.same.apply ((srcW b d).view.read (Elt F) W)⟩]
abbrev flightP (b : Fin 2) (s : Fin 2) (d : Fin 80) (f : HbBuf (F := F) c (rslot s)) : sProp 𝕄 :=
  Transfers.Flight countersEmb (c : Thread nD τ) (cellR s) default ((rslot s).view.amount (cellR s))
    iprop(slotP c s (landed c W b s d f) ∗ srcP c W s b d)
abbrev slotW (s : Fin 2) (f : HbBuf (F := F) c (rslot s)) : sProp 𝕄 := iprop(slotP c s f ∗ wholeP c W s)
abbrev flightW (b : Fin 2) (s : Fin 2) (d : Fin 80) (f : HbBuf (F := F) c (rslot s)) : sProp 𝕄 := iprop(flightP c W b s d f ∗ restP c W s b d)
abbrev noHome (d : Fin 80) : sProp 𝕄 := iprop(emp)
/-- The ring before the point of batch element `q` and depth `d`: two free slots at depth 0; afterwards window `d` in
    flight into slot `d % 2` and the other slot keeping window `d - 1`. -/
def ringAt (q d : ℕ) : sProp 𝕄 :=
  if d = 0 then Ring.At₀ (cellP c) (slotW c W) noHome
  else Ring.AtK 1 (cellP c) (slotW c W) noHome (flightW c W (Fin.ofNat 2 q)) (landed c W (Fin.ofNat 2 q)) d
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end Ring

/-! ### The slots are disjoint and cover the scratch -/

abbrev slotSet (s : Fin 2) : Finset S2x64x3x82x82.Idx := (Rect.unit (s := S2x64x3x82x82) ![s.val, 0, 0, 0, 0] S1x64x3x82x82.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x64x3x82x82) (0 : Fin 5) 1 (fun s : Fin 2 => (![s.val, 0, 0, 0, 0] : Fin 5 → Nat)) S1x64x3x82x82.size inb_slot (fun s => by simp) rfl s s' h
theorem slots_cover : Finset.univ.biUnion slotSet = Finset.univ :=
  Ring.lead_cover (s := S2x64x3x82x82) (0 : Fin 5) 1 (fun s : Fin 2 => (![s.val, 0, 0, 0, 0] : Fin 5 → Nat)) S1x64x3x82x82.size inb_slot (fun s => by simp)
    (fun s a ha => by fin_cases a <;> first | exact absurd rfl ha | rfl) rfl (fun a ha => by fin_cases a <;> first | exact absurd rfl ha | rfl) rfl

section InOut
variable (c : Dev nD) (W : HbBuf (F := F) c hbM)
theorem slotP_eq (s : Fin 2) (f) : slotP (F := F) c s f = (((c : Thread nD τ).loc cc0_scratch0) ↦[slotSet s]{fullShare} f : sProp 𝕄) := by
  unfold slotP; rw [slotSet_eq]; rfl
/-- A slot's copy of the operand is any one window's elements and the rest. -/
theorem src_split (s : Fin 2) (b : Fin 2) (d : Fin 80) : wholeP (F := F) c W s ⊣⊢ iprop(srcP c W s b d ∗ restP c W s b d) := by
  unfold restP; exact pointsTo_split_subset (Finset.subset_univ _)
/-- The operand at the full share is the two copies. -/
theorem whole_split : (hbPt c hbM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)

/-- Two free slots from the region's pieces: the scratch whole, the cells at zero, the operand whole. -/
theorem free_in :
    iprop((∃ d, owns (c : Thread nD τ) scM fullShare d) ∗ (semVal ((c : Thread nD τ), SemLoc.dma 4) 0 ∗ semVal ((c : Thread nD τ), SemLoc.dma 5) 0) ∗ hbPt c hbM W)
      ⊢ Ring.At₀ (cellP (F := F) c) (slotW c W) noHome := by
  unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and back. -/
theorem free_out :
    Ring.At₀ (cellP (F := F) c) (slotW c W) noHome
      ⊢ iprop((∃ d, owns (c : Thread nD τ) scM fullShare d) ∗ (semVal ((c : Thread nD τ), SemLoc.dma 4) 0 ∗ semVal ((c : Thread nD τ), SemLoc.dma 5) 0) ∗ hbPt c hbM W) := by
  unfold Ring.At₀
  rw [Ring.bigSep_fin2]
  simp only [Ring.free, cellP_0, cellP_1]
  iintro ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1
end InOut

/-! ### The body's offsets at a point are the ring's names -/

section Canon
omit [FloatOps F]
set_option synthInstance.maxSize 4096 in
theorem off_slotFirst : ∀ t : Fin grid0.N, condFirst (grid0.coords t) → (![0, 0, 0, 0, 0] : Fin 5 → Nat) = ![(Ring.sl 2 (t.val % 80)).val, 0, 0, 0, 0] := by decide +kernel
@[sl_canon] theorem canon_slotFirst (t : Fin grid0.N) (h0 : condFirst (grid0.coords t)) :
    (scM.slice (Rect.unit (s := S2x64x3x82x82) ![0, 0, 0, 0, 0] S1x64x3x82x82.size inb_S2x64x3x82x82_S1x64x3x82x82_0_0_0_0_0) (fun _ => rfl)).squeeze S64x3x82x82 squeezes_S1x64x3x82x82_S64x3x82x82 = rslot (Ring.sl 2 (t.val % 80)) :=
  congrArg (fun M : Memref sig .tc .vmem S1x64x3x82x82 .f32 => M.squeeze S64x3x82x82 squeezes_S1x64x3x82x82_S64x3x82x82) (Memref.slice_unit_congr _ (off_slotFirst t h0) _ _ (fun _ => rfl) (fun _ => rfl))
set_option synthInstance.maxSize 4096 in
theorem off_cellFirst : ∀ t : Fin grid0.N, condFirst (grid0.coords t) → (![0] : Fin 1 → Nat) = ![(Ring.sl 2 (t.val % 80)).val] := by decide +kernel
@[sl_canon] theorem canon_cellFirst (t : Fin grid0.N) (h0 : condFirst (grid0.coords t)) :
    (cc0_scratch1.slice (Rect.unit (s := S2) ![0] S1.size inb_S2_S1_0)).squeeze S_ squeezes_S1_S_ = cellA (Ring.sl 2 (t.val % 80)) :=
  congrArg (fun A : DmaSems sig S1 => A.squeeze S_ squeezes_S1_S_) (SemArray.slice_unit_congr _ (off_cellFirst t h0) _ _)
set_option synthInstance.maxSize 4096 in
theorem off_winFirst : ∀ t : Fin grid0.N, condFirst (grid0.coords t) → k0_off1 (grid0.coords t) = ![(Fin.ofNat 2 (t.val / 80)).val, 0, (Ring.bk 80 (t.val % 80)).val, 0, 0] := by decide +kernel
@[sl_canon] theorem canon_winFirst (t : Fin grid0.N) (h0 : condFirst (grid0.coords t)) :
    (hbM.slice (Rect.unit (s := S2x64x82x82x82) (k0_off1 (grid0.coords t)) S1x64x3x82x82.size (k0_off1_inb (grid0.coords t) h0)) (fun _ => rfl)).squeeze S64x3x82x82 squeezes_S1x64x3x82x82_S64x3x82x82 = srcW (Fin.ofNat 2 (t.val / 80)) (Ring.bk 80 (t.val % 80)) :=
  congrArg (fun M : Memref sig .tc .hbm S1x64x3x82x82 .f32 => M.squeeze S64x3x82x82 squeezes_S1x64x3x82x82_S64x3x82x82) (Memref.slice_unit_congr _ (off_winFirst t h0) _ _ (fun _ => rfl) (fun _ => rfl))
set_option synthInstance.maxSize 4096 in
theorem off_cellCur : ∀ t : Fin grid0.N, k0_off2 (grid0.coords t) = ![(Ring.sl 2 (t.val % 80)).val] := by decide +kernel
@[sl_canon] theorem canon_cellCur (t : Fin grid0.N) :
    (cc0_scratch1.slice (Rect.unit (s := S2) (k0_off2 (grid0.coords t)) S1.size (k0_off2_inb (grid0.coords t)))).squeeze S_ squeezes_S1_S_ = cellA (Ring.sl 2 (t.val % 80)) :=
  congrArg (fun A : DmaSems sig S1 => A.squeeze S_ squeezes_S1_S_) (SemArray.slice_unit_congr _ (off_cellCur t) _ _)
set_option synthInstance.maxSize 4096 in
theorem off_slotCur : ∀ t : Fin grid0.N, k0_off3 (grid0.coords t) = ![(Ring.sl 2 (t.val % 80)).val, 0, 0, 0, 0] := by decide +kernel
@[sl_canon] theorem canon_slotCur (t : Fin grid0.N) :
    (scM.slice (Rect.unit (s := S2x64x3x82x82) (k0_off3 (grid0.coords t)) S1x64x3x82x82.size (k0_off3_inb (grid0.coords t))) (fun _ => rfl)).squeeze S64x3x82x82 squeezes_S1x64x3x82x82_S64x3x82x82 = rslot (Ring.sl 2 (t.val % 80)) :=
  congrArg (fun M : Memref sig .tc .vmem S1x64x3x82x82 .f32 => M.squeeze S64x3x82x82 squeezes_S1x64x3x82x82_S64x3x82x82) (Memref.slice_unit_congr _ (off_slotCur t) _ _ (fun _ => rfl) (fun _ => rfl))
set_option synthInstance.maxSize 4096 in
theorem off_winCur : ∀ t : Fin grid0.N, k0_off4 (grid0.coords t) = ![(Fin.ofNat 2 (t.val / 80)).val, 0, (Ring.bk 80 (t.val % 80)).val, 0, 0] := by decide +kernel
@[sl_canon] theorem canon_winCur (t : Fin grid0.N) :
    (hbM.slice (Rect.unit (s := S2x64x82x82x82) (k0_off4 (grid0.coords t)) S1x64x3x82x82.size (k0_off4_inb (grid0.coords t))) (fun _ => rfl)).squeeze S64x3x82x82 squeezes_S1x64x3x82x82_S64x3x82x82 = srcW (Fin.ofNat 2 (t.val / 80)) (Ring.bk 80 (t.val % 80)) :=
  congrArg (fun M : Memref sig .tc .hbm S1x64x3x82x82 .f32 => M.squeeze S64x3x82x82 squeezes_S1x64x3x82x82_S64x3x82x82) (Memref.slice_unit_congr _ (off_winCur t) _ _ (fun _ => rfl) (fun _ => rfl))
set_option synthInstance.maxSize 4096 in
theorem off_cellNext : ∀ t : Fin grid0.N, condMore (grid0.coords t) → k0_off5 (grid0.coords t) = ![(Ring.sl 2 (t.val % 80 + 1)).val] := by decide +kernel
@[sl_canon] theorem canon_cellNext (t : Fin grid0.N) (h1 : condMore (grid0.coords t)) :
    (cc0_scratch1.slice (Rect.unit (s := S2) (k0_off5 (grid0.coords t)) S1.size (k0_off5_inb (grid0.coords t) h1))).squeeze S_ squeezes_S1_S_ = cellA (Ring.sl 2 (t.val % 80 + 1)) :=
  congrArg (fun A : DmaSems sig S1 => A.squeeze S_ squeezes_S1_S_) (SemArray.slice_unit_congr _ (off_cellNext t h1) _ _)
set_option synthInstance.maxSize 4096 in
theorem off_slotNext : ∀ t : Fin grid0.N, condMore (grid0.coords t) → k0_off6 (grid0.coords t) = ![(Ring.sl 2 (t.val % 80 + 1)).val, 0, 0, 0, 0] := by decide +kernel
@[sl_canon] theorem canon_slotNext (t : Fin grid0.N) (h1 : condMore (grid0.coords t)) :
    (scM.slice (Rect.unit (s := S2x64x3x82x82) (k0_off6 (grid0.coords t)) S1x64x3x82x82.size (k0_off6_inb (grid0.coords t) h1)) (fun _ => rfl)).squeeze S64x3x82x82 squeezes_S1x64x3x82x82_S64x3x82x82 = rslot (Ring.sl 2 (t.val % 80 + 1)) :=
  congrArg (fun M : Memref sig .tc .vmem S1x64x3x82x82 .f32 => M.squeeze S64x3x82x82 squeezes_S1x64x3x82x82_S64x3x82x82) (Memref.slice_unit_congr _ (off_slotNext t h1) _ _ (fun _ => rfl) (fun _ => rfl))
set_option synthInstance.maxSize 4096 in
theorem off_winNext : ∀ t : Fin grid0.N, condMore (grid0.coords t) → k0_off7 (grid0.coords t) = ![(Fin.ofNat 2 (t.val / 80)).val, 0, (Ring.bk 80 (t.val % 80 + 1)).val, 0, 0] := by decide +kernel
@[sl_canon] theorem canon_winNext (t : Fin grid0.N) (h1 : condMore (grid0.coords t)) :
    (hbM.slice (Rect.unit (s := S2x64x82x82x82) (k0_off7 (grid0.coords t)) S1x64x3x82x82.size (k0_off7_inb (grid0.coords t) h1)) (fun _ => rfl)).squeeze S64x3x82x82 squeezes_S1x64x3x82x82_S64x3x82x82 = srcW (Fin.ofNat 2 (t.val / 80)) (Ring.bk 80 (t.val % 80 + 1)) :=
  congrArg (fun M : Memref sig .tc .hbm S1x64x3x82x82 .f32 => M.squeeze S64x3x82x82 squeezes_S1x64x3x82x82_S64x3x82x82) (Memref.slice_unit_congr _ (off_winNext t h1) _ _ (fun _ => rfl) (fun _ => rfl))
set_option synthInstance.maxSize 4096 in
theorem off_load : ∀ t : Fin grid0.N, k0_off8 (grid0.coords t) = ![(Ring.sl 2 (t.val % 80)).val, 0, 0, 0, 0] := by decide +kernel
/-- The load of the waited slot, boxed in the slot's own spelling. -/
instance (priority := high) closedOff_load (t : Fin grid0.N) : ClosedOff (k0_off8 (grid0.coords t)) := ⟨![(Ring.sl 2 (t.val % 80)).val, 0, 0, 0, 0], off_load t⟩
end Canon

end Cert.KernelIdeal.Halo

end
-- ==== Proof.KernelIdealRunA.lean ====
/-
  The body at the first depth of a batch element.

  Handed the x block, the result's staging buffer at anything and two free slots, the body starts this depth's
  window into its slot, waits for it, starts the next window into the other slot, loads the x block and the landed
  slot, and stores the 27 scaled channel sums. It returns the x block as it was, the result's buffer with those 27
  pieces written, the next window in flight and this depth's window kept. The pieces are found by running the
  body; they are the first component.
-/
import proofs.«131693_j81647328297400_1_alg».proof.Proof.KernelIdealRing

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.free (cellP c) (slotW c W) (Ring.sl 2 (t.val % 80))
            ∗ Ring.free (cellP c) (slotW c W) (Ring.sl 2 (t.val % 80 + 1))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.inflight (flightW c W (Fin.ofNat 2 (t.val / 80))) (Ring.sl 2 (t.val % 80 + 1)) (Ring.bk 80 (t.val % 80 + 1))
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (condFirst (grid0.coords t)) := ⟨hc0⟩
    haveI : Fact (condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    have hcanon0 := canon_slotFirst t hc0
    have hcanon1 := canon_cellFirst t hc0
    have hcanon2 := canon_winFirst t hc0
    unfold owns Ring.free Ring.inflight Ring.kept
    iintro ⟨⟨%f0, %hf0, H0⟩, ⟨%d1, %f1, -, H1⟩, ⟨Hcc, ⟨%fsc, Hsc, Hwc⟩⟩, ⟨Hcn, ⟨%fsn, Hsn, Hwn⟩⟩, HW, Hk⟩
    ihave Hspc := (src_split c W (Ring.sl 2 (t.val % 80)) (Fin.ofNat 2 (t.val / 80)) (Ring.bk 80 (t.val % 80))).1 $$ Hwc
    icases Hspc with ⟨Hhc, Hrc⟩
    ihave Hspn := (src_split c W (Ring.sl 2 (t.val % 80 + 1)) (Fin.ofNat 2 (t.val / 80)) (Ring.bk 80 (t.val % 80 + 1))).1 $$ Hwn
    icases Hspn with ⟨Hhn, Hrn⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hcn Hrn]
    · iexists _; isplitl [Hcn]; · iexact Hcn
      iexact Hrn
    isplitl [Hcc Hsc Hhc Hrc]
    · isplitl [Hcc]; · iexact Hcc
      iexists _; isplitl [Hsc]; · iexact Hsc
      iapply (src_split c W (Ring.sl 2 (t.val % 80)) (Fin.ofNat 2 (t.val / 80)) (Ring.bk 80 (t.val % 80))).2; isplitl [Hhc]; · iexact Hhc
      iexact Hrc
    iexists _; iexact HW

end Cert.KernelIdeal.Halo

end
-- ==== Proof.KernelIdealRunB.lean ====
/-
  The body at a point that is neither the first nor the last depth of its batch element.

  Handed the x block in its staging buffer, the result's staging buffer at anything, the window of this depth in
  flight into its slot and the other slot keeping the previous window, the body waits for its window (which lands
  whole, its source elements returned to the slot's copy of the operand), starts the next window over the kept
  slot, loads the x block and the landed slot, and stores the 27 scaled channel sums. It returns the x block as it
  was, the result's buffer with those 27 pieces written, the next window in flight and this depth's window kept.
  The pieces are found by running the body; they are the first component.
-/
import proofs.«131693_j81647328297400_1_alg».proof.Proof.KernelIdealRing

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.inflight (flightW c W (Fin.ofNat 2 (t.val / 80))) (Ring.sl 2 (t.val % 80)) (Ring.bk 80 (t.val % 80))
            ∗ Ring.kept (cellP c) (slotW c W) (landed c W (Fin.ofNat 2 (t.val / 80))) (Ring.sl 2 (t.val % 80 + 1)) (Ring.bk 80 (t.val % 80 - 1))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.inflight (flightW c W (Fin.ofNat 2 (t.val / 80))) (Ring.sl 2 (t.val % 80 + 1)) (Ring.bk 80 (t.val % 80 + 1))
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (¬condFirst (grid0.coords t)) := ⟨hc0⟩
    haveI : Fact (condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff, Hfl, Hrf⟩, ⟨Hcn, ⟨%fsn, Hsn, Hwn⟩⟩, HW, Hk⟩
    ihave Hsp := (src_split c W (Ring.sl 2 (t.val % 80 + 1)) (Fin.ofNat 2 (t.val / 80)) (Ring.bk 80 (t.val % 80 + 1))).1 $$ Hwn
    icases Hsp with ⟨Hhn, Hrn⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hcn Hrn]
    · iexists _; isplitl [Hcn]; · iexact Hcn
      iexact Hrn
    isplitl [Hfl Hfl_dst Hfl_src Hrf]
    · isplitl [Hfl]; · iexact Hfl
      iexists _; isplitl [Hfl_dst]; · iexact Hfl_dst
      iapply (src_split c W (Ring.sl 2 (t.val % 80)) (Fin.ofNat 2 (t.val / 80)) (Ring.bk 80 (t.val % 80))).2; isplitl [Hfl_src]; · iexact Hfl_src
      iexact Hrf
    iexists _; iexact HW

end Cert.KernelIdeal.Halo

end
-- ==== Proof.KernelIdealRunC.lean ====
/-
  The body at the last depth of a batch element.

  Handed the x block, the result's staging buffer at anything and this depth's window in flight, the body waits
  for the window, starts nothing, loads the x block and the landed slot, and stores the 27 scaled channel sums. It
  returns the x block as it was, the result's buffer with those 27 pieces written and this depth's window kept; the
  other slot is not touched. The pieces are found by running the body; they are the first component.
-/
import proofs.«131693_j81647328297400_1_alg».proof.Proof.KernelIdealRing

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def kernelRun_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) :
    { L : List (View.Piece (Elt F) S1x27x1x80x80 .f32) //
      ∀ (Wt : Waits sig Unit) (K : PUnit → sProp 𝕄),
        iprop(owns (c : Thread nD τ) argX fullShare x0 ∗ (∃ d, owns (c : Thread nD τ) argO fullShare d)
            ∗ Ring.inflight (flightW c W (Fin.ofNat 2 (t.val / 80))) (Ring.sl 2 (t.val % 80)) (Ring.bk 80 (t.val % 80))
            ∗ owes (c : Thread nD τ) 0 Wt
            ∗ (iprop(owns (c : Thread nD τ) argX fullShare x0 ∗ (∃ f, argO.view.loc (c : Thread nD τ) ↦[argO.view.set]{fullShare} argO.view.writes (Elt F) f L)
                ∗ Ring.kept (cellP c) (slotW c W) (landed c W (Fin.ofNat 2 (t.val / 80))) (Ring.sl 2 (t.val % 80)) (Ring.bk 80 (t.val % 80))
                ∗ (∃ W', owes (c : Thread nD τ) 0 W')) -∗ K ⟨⟩))
          ⊢ wp frame (wpE (defs₀ (F := F)) Variants.none c none) Set.univ (cc0__corr_kernel (grid0.coords t) argX hargX (Memref.whole main_v0) (Memref.isWhole_whole _) argO hargO scM (Memref.isWhole_whole _) cc0_scratch1) K } := by
  refine ⟨?_, fun Wt K => ?run⟩
  case run =>
    haveI : Fact (¬condFirst (grid0.coords t)) := ⟨hc0⟩
    haveI : Fact (¬condMore (grid0.coords t)) := ⟨hc1⟩
    simp only [cc0__corr_kernel_eq_skeleton]; unfold cc0__corr_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns Ring.inflight Ring.kept
    iintro ⟨⟨%f0, %hf0, H0⟩, ⟨%d1, %f1, -, H1⟩, ⟨%ff, Hfl, Hrf⟩, HW, Hk⟩
    obtain rfl := hargX.eq_unread hf0
    sl_exec (disch := first | exact hc0 | exact hc1)
    sl_step
    iapply Hk
    isplitl [H0]
    · iexists _; isplitr; · ipureintro; exact hargX.read_unread _
      iexact H0
    isplitl [H1]; · iexists _; iexact H1
    isplitl [Hfl Hfl_dst Hfl_src Hrf]
    · isplitl [Hfl]; · iexact Hfl
      iexists _; isplitl [Hfl_dst]; · iexact Hfl_dst
      iapply (src_split c W (Ring.sl 2 (t.val % 80)) (Fin.ofNat 2 (t.val / 80)) (Ring.bk 80 (t.val % 80))).2; isplitl [Hfl_src]; · iexact Hfl_src
      iexact Hrf
    iexists _; iexact HW

end Cert.KernelIdeal.Halo

end
-- ==== Proof.KernelIdealFrame.lean ====
/-
  The frame of the correlation kernel: every execution terminates, nothing faults, both arguments end unchanged.

  The invariant carried from point to point is the ring of depth windows (the ring module): before the point of
  batch element `q` and depth `δ`, two free slots if `δ = 0`, else window `δ` in flight and window `δ - 1` kept.
  A point is of one of three kinds — first depth, a middle depth, last depth — and each kind's run of the body
  takes the ring's pieces for that kind and returns the pieces of the next point; after the last depth both kept
  slots are forgotten into free ones, which is the invariant before the next batch element (or what the region
  takes back). The result's staging buffer after a point holds the 27 pieces the run found, which tile it.
-/
import proofs.«131693_j81647328297400_1_alg».proof.Proof.KernelIdealRunA
import proofs.«131693_j81647328297400_1_alg».proof.Proof.KernelIdealRunB
import proofs.«131693_j81647328297400_1_alg».proof.Proof.KernelIdealRunC

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The 27 pieces of a point of kind A tile the result's block, so they cover it. -/
theorem cover_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) (y : S1x27x1x80x80.Idx) :
    ∃ pc ∈ (kernelRun_A c t argX hargX argO hargO hc0 hc1 x0 W).1, y ∈ pc.1.set :=
  View.cover_of_tiledL (kernelRun_A c t argX hargX argO hargO hc0 hc1 x0 W).1 S1x1x1x80x80.size (by sl_kernel_rfl) y

/-- What a point of kind A leaves in the result's staging buffer: its pieces read back. -/
def out_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) : Vec F S1x27x1x80x80 .f32 :=
  VO.read (Elt F) (VO.writes (Elt F) VO.junk (kernelRun_A c t argX hargX argO hargO hc0 hc1 x0 W).1)

/-- The 27 pieces of a point of kind B tile the result's block, so they cover it. -/
theorem cover_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) (y : S1x27x1x80x80.Idx) :
    ∃ pc ∈ (kernelRun_B c t argX hargX argO hargO hc0 hc1 x0 W).1, y ∈ pc.1.set :=
  View.cover_of_tiledL (kernelRun_B c t argX hargX argO hargO hc0 hc1 x0 W).1 S1x1x1x80x80.size (by sl_kernel_rfl) y

/-- What a point of kind B leaves in the result's staging buffer: its pieces read back. -/
def out_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) : Vec F S1x27x1x80x80 .f32 :=
  VO.read (Elt F) (VO.writes (Elt F) VO.junk (kernelRun_B c t argX hargX argO hargO hc0 hc1 x0 W).1)

/-- The 27 pieces of a point of kind C tile the result's block, so they cover it. -/
theorem cover_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) (y : S1x27x1x80x80.Idx) :
    ∃ pc ∈ (kernelRun_C c t argX hargX argO hargO hc0 hc1 x0 W).1, y ∈ pc.1.set :=
  View.cover_of_tiledL (kernelRun_C c t argX hargX argO hargO hc0 hc1 x0 W).1 S1x1x1x80x80.size (by sl_kernel_rfl) y

/-- What a point of kind C leaves in the result's staging buffer: its pieces read back. -/
def out_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) : Vec F S1x27x1x80x80 .f32 :=
  VO.read (Elt F) (VO.writes (Elt F) VO.junk (kernelRun_C c t argX hargX argO hargO hc0 hc1 x0 W).1)

/-! ## What the result's buffer holds after each point -/

/-- By the point's kind: first depth, a middle depth, last depth. -/
def outsAt (c : Dev nD) (n : ℕ) (hn : n < cfg0.N) : Vec F S1x27x1x80x80 .f32 :=
  if h0 : n % 80 = 0 then
    out_A c ⟨n, hn⟩ (msX ⟨n, hn⟩) (hsX ⟨n, hn⟩) (msO ⟨n, hn⟩) (hsO ⟨n, hn⟩) ((hcondFirst ⟨n, hn⟩).mpr h0) ((hcondMore ⟨n, hn⟩).mpr (by (try dsimp only); omega)) (iblk m c 0 ⟨n, hn⟩) (V m c main_v0)
  else if h1 : n % 80 + 1 < 80 then
    out_B c ⟨n, hn⟩ (msX ⟨n, hn⟩) (hsX ⟨n, hn⟩) (msO ⟨n, hn⟩) (hsO ⟨n, hn⟩) (fun h => h0 ((hcondFirst ⟨n, hn⟩).mp h)) ((hcondMore ⟨n, hn⟩).mpr h1) (iblk m c 0 ⟨n, hn⟩) (V m c main_v0)
  else
    out_C c ⟨n, hn⟩ (msX ⟨n, hn⟩) (hsX ⟨n, hn⟩) (msO ⟨n, hn⟩) (hsO ⟨n, hn⟩) (fun h => h0 ((hcondFirst ⟨n, hn⟩).mp h)) (fun h => h1 ((hcondMore ⟨n, hn⟩).mp h)) (iblk m c 0 ⟨n, hn⟩) (V m c main_v0)

theorem outsAt_A (c : Dev nD) (t : Fin cfg0.N) (h0 : t.val % 80 = 0) (h1 : t.val % 80 + 1 < 80) :
    outsAt m c t.val t.isLt = out_A c t (msX t) (hsX t) (msO t) (hsO t) ((hcondFirst t).mpr h0) ((hcondMore t).mpr h1) (iblk m c 0 t) (V m c main_v0) := by
  obtain ⟨n, hn⟩ := t; exact dif_pos h0
theorem outsAt_B (c : Dev nD) (t : Fin cfg0.N) (h0 : ¬t.val % 80 = 0) (h1 : t.val % 80 + 1 < 80) :
    outsAt m c t.val t.isLt = out_B c t (msX t) (hsX t) (msO t) (hsO t) (fun h => h0 ((hcondFirst t).mp h)) ((hcondMore t).mpr h1) (iblk m c 0 t) (V m c main_v0) := by
  obtain ⟨n, hn⟩ := t; exact (dif_neg h0).trans (dif_pos h1)
theorem outsAt_C (c : Dev nD) (t : Fin cfg0.N) (h0 : ¬t.val % 80 = 0) (h1 : ¬t.val % 80 + 1 < 80) :
    outsAt m c t.val t.isLt = out_C c t (msX t) (hsX t) (msO t) (hsO t) (fun h => h0 ((hcondFirst t).mp h)) (fun h => h1 ((hcondMore t).mp h)) (iblk m c 0 t) (V m c main_v0) := by
  obtain ⟨n, hn⟩ := t; exact (dif_neg h0).trans (dif_neg h1)

/-! ## The proof data -/

/-- The invariant before point `k`: the generator register at some state, and the ring before that point. -/
def PhiR (c : Dev nD) (k : ℕ) : sProp 𝕄 := iprop((∃ r, prngReg c r) ∗ ringAt c (V m c main_v0) (k / 80) (k % 80))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t.val t.isLt)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_x (c : Dev nD) (t : Fin cfg0.N) : (dats m 0 c).after 0 t = iblk m c 0 t := by dsimp only [dats]
theorem after_out (c : Dev nD) (t : Fin cfg0.N) : (dats m 0 c).after 1 t = (outsAt m c t.val t.isLt) := by dsimp only [dats]
theorem before_x (c : Dev nD) (t : Fin cfg0.N) (d) : (dats m 0 c).before 0 t d = iblk m c 0 t :=
  before_x_of m (dats m 0 c) (A_eq m c 0) (after_x m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msO t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (msX t) fullShare ((dats m 0 c).after 0 t)
    ∗ owns (c : Thread nD τ) (msO t) fullShare ((dats m 0 c).after 1 t))

/-- After the last depth both slots keep a window; forgotten, they are two free slots. -/
theorem free_of_kept2 (c : Dev nD) (W : HbBuf (F := F) c hbM) (q : Fin 2) (d : ℕ) (hd : d = 79) (b0 b1 : Fin 80) :
    iprop(Ring.kept (cellP c) (slotW c W) (landed c W q) (Ring.sl 2 (d + 1)) b0 ∗ Ring.kept (cellP c) (slotW c W) (landed c W q) (Ring.sl 2 d) b1)
      ⊢ Ring.At₀ (cellP (F := F) c) (slotW c W) noHome := by
  subst hd
  unfold Ring.At₀
  rw [Ring.bigSep_fin2]
  have e0 : Ring.sl 2 (79 + 1) = (0 : Fin 2) := rfl
  have e1 : Ring.sl 2 79 = (1 : Fin 2) := rfl
  rw [e0, e1]
  iintro ⟨H0, H1⟩
  iapply Ring.with_homes₀
  isplitl [H0]
  · iapply (Ring.free_of_kept (cellP c) (slotW c W) (landed c W q) 0 b0); iexact H0
  · iapply (Ring.free_of_kept (cellP c) (slotW c W) (landed c W q) 1 b1); iexact H1

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x]
  rw [after_x, after_out]
  rw [PhiR_castSucc m c t, PhiR_succ m c t]
  unfold Dat.owesAt Pipeline.owesWithin
  rw [show (dats m 0 c).owed t.castSucc = 0 from rfl, show (dats m 0 c).owed t.succ = 0 from rfl]
  unfold PhiR
  have hN : t.val < 160 := lt_of_lt_of_eq t.isLt (show cfg0.N = 160 from N_0)
  by_cases h0 : t.val % 80 = 0
  · have h1 : t.val % 80 + 1 < 80 := by omega
    have e1 : (t.val + 1) % 80 = t.val % 80 + 1 := by omega
    have e2 : (t.val + 1) / 80 = t.val / 80 := by omega
    rw [e1, e2, outsAt_A m c t h0 h1]
    unfold out_A ringAt
    rw [if_pos h0, if_neg (show ¬t.val % 80 + 1 = 0 by omega)]
    rw [Ring.At₀_eq2' _ _ _ (t.val % 80) h0 (by decide : 2 ≤ 80), Ring.AtK2_one' _ _ _ _ _ (t.val % 80) h0 (by decide : 1 < 80)]
    iintro ⟨⟨Hg, ⟨-, Hfr0, Hfr1⟩⟩, ⟨%Wt, -, HW⟩, ⟨%d0, H0⟩, ⟨%d1, H1⟩⟩
    iapply ((kernelRun_A c t _ _ _ _ ((hcondFirst t).mpr h0) ((hcondMore t).mpr h1) (iblk m c 0 t) (V m c main_v0)).2 Wt _)
    isplitl [H0]; · iexact H0
    isplitl [H1]; · iexists _; iexact H1
    isplitl [Hfr0]; · iexact Hfr0
    isplitl [Hfr1]; · iexact Hfr1
    isplitl [HW]; · iexact HW
    iintro ⟨H0, ⟨%e1', H1⟩, Hfl', Hkp', ⟨%W', HW'⟩⟩
    isplitl [Hg Hfl' Hkp']
    · isplitl [Hg]; · iexact Hg
      iapply Ring.with_homes₀
      isplitl [Hfl']; · iexact Hfl'
      iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (cover_A c _ _ _ _ _ _ _ _ _)
  · by_cases h1 : t.val % 80 + 1 < 80
    · have e1 : (t.val + 1) % 80 = t.val % 80 + 1 := by omega
      have e2 : (t.val + 1) / 80 = t.val / 80 := by omega
      rw [e1, e2, outsAt_B m c t h0 h1]
      unfold out_B ringAt
      rw [if_neg h0, if_neg (show ¬t.val % 80 + 1 = 0 by omega)]
      rw [Ring.AtK2_here _ _ _ _ _ (t.val % 80) (by omega) h1, Ring.AtK2_next _ _ _ _ _ (t.val % 80) (by omega) h1]
      iintro ⟨⟨Hg, ⟨-, Hfl, Hkp⟩⟩, ⟨%Wt, -, HW⟩, ⟨%d0, H0⟩, ⟨%d1, H1⟩⟩
      iapply ((kernelRun_B c t _ _ _ _ (fun h => h0 ((hcondFirst t).mp h)) ((hcondMore t).mpr h1) (iblk m c 0 t) (V m c main_v0)).2 Wt _)
      isplitl [H0]; · iexact H0
      isplitl [H1]; · iexists _; iexact H1
      isplitl [Hfl]; · iexact Hfl
      isplitl [Hkp]; · iexact Hkp
      isplitl [HW]; · iexact HW
      iintro ⟨H0, ⟨%e1', H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover_B c _ _ _ _ _ _ _ _ _)
    · have hd : t.val % 80 = 79 := by omega
      have e1 : (t.val + 1) % 80 = 0 := by omega
      rw [e1, outsAt_C m c t h0 h1]
      unfold out_C ringAt
      rw [if_neg h0, if_pos rfl]
      rw [Ring.AtK2_here_last _ _ _ _ _ (t.val % 80) (by omega) (by omega)]
      iintro ⟨⟨Hg, ⟨-, Hfl, Hkp⟩⟩, ⟨%Wt, -, HW⟩, ⟨%d0, H0⟩, ⟨%d1, H1⟩⟩
      iapply ((kernelRun_C c t _ _ _ _ (fun h => h0 ((hcondFirst t).mp h)) (fun h => h1 ((hcondMore t).mp h)) (iblk m c 0 t) (V m c main_v0)).2 Wt _)
      isplitl [H0]; · iexact H0
      isplitl [H1]; · iexists _; iexact H1
      isplitl [Hfl]; · iexact Hfl
      isplitl [HW]; · iexact HW
      iintro ⟨H0, ⟨%e1', H1⟩, Hkp', ⟨%W', HW'⟩⟩
      isplitl [Hg Hkp Hkp']
      · isplitl [Hg]; · iexact Hg
        iapply (free_of_kept2 c (V m c main_v0) (Fin.ofNat 2 (t.val / 80)) (t.val % 80) hd _ _)
        isplitl [Hkp]; · iexact Hkp
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (cover_C c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Entry and exit -/

theorem hin (c : Dev nD) : Pipeline.ΦD osem spec0 H0 (V m) c ⊢ (dats m 0 c).Φ 0 := by
  rw [PhiD_eq, show (dats m 0 c).Φ 0 = PhiR m c 0 from rfl]
  unfold PhiR
  rw [show (0 : ℕ) / 80 = 0 from rfl, show (0 : ℕ) % 80 = 0 from rfl]
  unfold ringAt; rw [if_pos rfl]
  iintro ⟨HS, Hg, Hq, Hh⟩
  isplitl [Hg]; · iexact Hg
  iapply (free_in (F := F) c (V m c main_v0))
  isplitl [HS]; · iexact HS
  isplitl [Hq]; · iexact Hq
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 160 by rw [N_0]]
  rw [show (160 : ℕ) / 80 = 2 from rfl, show (160 : ℕ) % 80 = 0 from rfl]
  unfold ringAt; rw [if_pos rfl]
  iintro ⟨Hg, HR⟩
  ihave HX := (free_out (F := F) c (V m c main_v0)) $$ HR
  icases HX with ⟨HS, Hq, Hh⟩
  isplitl [HS]; · iexact HS
  isplitl [Hg]; · iexact Hg
  isplitl [Hq]; · iexact Hq
  iexact Hh

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmainD m Variants.none) (hA := A_eq m)
    (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.KernelIdeal.Halo

end
-- ==== Proof.Spec.lean ====
/-
  The windowed channel correlation, as one function of the arrays.

  For a batch element `b`, a window offset `o < 27` read as three shifts `(o / 9, o / 3 % 3, o % 3)` in depth,
  row and column, and a voxel `(d, h, w)`, the value is the sum over the 64 channels `c` of
  `x[b, c, d, h, w] · yp[b, c, d + o/9, h + o/3%3, w + o%3]`, scaled by one eighth (the dyadic `64^(-1/2)`), where
  `yp` is `y` with one plane of zeros added on each side of its three spatial axes, so that every shifted
  coordinate lies inside `yp`'s extent 82. Both programs form `yp` by the same padding operation, so the function is
  stated over `yp` itself and never opens the padding.
-/
import Idealize.ShloMosaic.PureOps.Ideal
import Idealize.ShloMosaic.Lib.ValueIdx

noncomputable section

namespace Cert.WinCorr

open Idealize.ShloMosaic Idealize.ShloMosaic.ValueIdx

/-- The shapes of `x`, of the padded `y`, and of the result. -/
abbrev SX : Shape := ⟨5, ![2, 64, 80, 80, 80]⟩
abbrev SP : Shape := ⟨5, ![2, 64, 82, 82, 82]⟩
abbrev SO : Shape := ⟨5, ![2, 27, 80, 80, 80]⟩

/-- The depth, row and column shift of window offset `o`: its three base-3 digits, most significant first. -/
def dz (o : Fin 27) : ℕ := o.val / 9
def dy (o : Fin 27) : ℕ := o.val / 3 % 3
def dx (o : Fin 27) : ℕ := o.val % 3

theorem dz_lt (o : Fin 27) : dz o < 3 := by unfold dz; omega
theorem dy_lt (o : Fin 27) : dy o < 3 := by unfold dy; omega
theorem dx_lt (o : Fin 27) : dx o < 3 := by unfold dx; omega
/-- The offset is its digits. -/
theorem digits (o : Fin 27) : o.val = 9 * dz o + 3 * dy o + dx o := by unfold dz dy dx; omega

/-- A coordinate below 80 moved by a shift below 3 stays below 82. -/
def shift (p : Fin 80) (k : ℕ) (hk : k < 3) : Fin 82 := ⟨p.val + k, by omega⟩

@[simp] theorem shift_val (p : Fin 80) (k : ℕ) (hk : k < 3) : (shift p k hk).val = p.val + k := rfl

/-- The correlation at explicit coordinates. -/
def corrAt (x : SX.Idx → EReal) (yp : SP.Idx → EReal) (b : Fin 2) (o : Fin 27) (d h w : Fin 80) : EReal :=
  (∑ c : Fin 64, x (ix5 b c d h w) * yp (ix5 b c (shift d (dz o) (dz_lt o)) (shift h (dy o) (dy_lt o)) (shift w (dx o) (dx_lt o))))
    * Ideal.ofBits .f32 0x3E000000#32

/-- The result array: the correlation at each index's coordinates. -/
def corr (x : SX.Idx → EReal) (yp : SP.Idx → EReal) : SO.Idx → EReal :=
  fun i => corrAt x yp (i 0) (i 1) (i 2) (i 3) (i 4)

theorem corr_ix5 (x : SX.Idx → EReal) (yp : SP.Idx → EReal) (b : Fin 2) (o : Fin 27) (d h w : Fin 80) :
    corr x yp (ix5 b o d h w) = corrAt x yp b o d h w := rfl

end Cert.WinCorr

end
-- ==== Proof.KernelPiece.lean ====
/-
  The value each of the 27 stores of the windowed channel correlation writes, read at one index.

  At one grid point the body holds the block of `x` as `xb[c, 0, h, w]` (64 channels, one depth plane) and a slab of
  three consecutive depth planes of the padded `y` as `yb[c, a, h', w']`. For window offset `o` with digits
  `(a, b, e)` (depth, row, column shift) it multiplies `xb` pointwise with the window
  `yb[c, a, h + b, w + e]`, sums over the channel axis and scales by one eighth. Read at `(h, w)` that is
  `(∑ c, xb[c, 0, h, w] · yb[c, a, h + b, w + e]) · 1/8`: the correlation's value at shift `(a, b, e)`.
-/
import proofs.«131693_j81647328297400_1_alg».proof.Proof.Spec
import proofs.«131693_j81647328297400_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Halo

open Cert.KernelIdeal Cert.KernelIdeal.Gen Cert.WinCorr Idealize.ShloMosaic Idealize.ShloMosaic.ValueIdx

/-- The index of the channel sum's term `c` at `(0, h, w)`: the channel put back on the reduced axis. -/
theorem lift_chan (hr : S64x1x80x80.Reduces [0] S1x80x80) (h w : Fin 80) (c : Fin 64) :
    hr.lift (ix3 (0 : Fin 1) h w) c = ix4 c (0 : Fin 1) h w :=
  funext fun a => Fin.ext (match a with | ⟨0, _⟩ => rfl | ⟨1, _⟩ => rfl | ⟨2, _⟩ => rfl | ⟨3, _⟩ => rfl)

/-- One window of the slab, multiplied with the block of `x`, summed over the channels and scaled, read at `(h, w)`:
    the shape cast keeps the row-major position, the scaling and the product are pointwise, the channel reduction
    is the sum over the 64 channels, and the window at `(c, 0, h, w)` is the slab at `(c, a, h + b, w + e)`. -/
theorem window_apply (a b e : ℕ) (ha : a < 3) (hb : b < 3) (he : e < 3) (hs : S64x3x82x82.Slices ![0, a, b, e] S64x1x80x80)
    (xb : FVec Ideal S64x1x80x80 .f32) (yb : FVec Ideal S64x3x82x82 .f32) (h w : Fin 80) :
    shapeCast S1x1x1x80x80 (mulf (multiReduction .add [0] S1x80x80 (mulf xb (extractStridedSlice S64x1x80x80 ![0, a, b, e] yb hs)) 0x00000000#32 reduces_S64x1x80x80_S1x80x80 (.inl rfl) rfl) (broadcast S1x80x80 (Scalar.ofBits (F := Ideal) .f32 0x3E000000#32))) shapeCasts_S1x80x80_S1x1x1x80x80 (ix5 (0 : Fin 1) (0 : Fin 1) (0 : Fin 1) h w)
      = (∑ c : Fin 64, xb (ix4 c (0 : Fin 1) h w) * yb (ix4 c (⟨a, ha⟩ : Fin 3) (shift h b hb) (shift w e he))) * Ideal.ofBits .f32 0x3E000000#32 := by
  refine (shapeCast_apply _ shapeCasts_S1x80x80_S1x1x1x80x80 (ix5 (0 : Fin 1) (0 : Fin 1) (0 : Fin 1) h w) (ix3 (0 : Fin 1) h w) ?_).trans ?_
  · rw [Shape.rowMajor_val_three, Shape.rowMajor_val_five]
    show ((0 * 80 + h.val) * 80 + w.val) = ((((0 * 1 + 0) * 1 + 0) * 80 + h.val) * 80 + w.val)
    omega
  · refine congrArg (· * Ideal.ofBits .f32 0x3E000000#32) ?_
    refine (Ideal.multiReduction_add_single (mulf xb (extractStridedSlice S64x1x80x80 ![0, a, b, e] yb hs)) 0x00000000#32
      reduces_S64x1x80x80_S1x80x80 (.inl rfl) rfl (ix3 (0 : Fin 1) h w)).trans ?_
    show (∑ c : Fin 64, mulf xb (extractStridedSlice S64x1x80x80 ![0, a, b, e] yb hs) (reduces_S64x1x80x80_S1x80x80.lift (ix3 (0 : Fin 1) h w) c)) = _
    refine Finset.sum_congr rfl fun (c : Fin 64) _ => ?_
    refine (congrArg (mulf xb (extractStridedSlice S64x1x80x80 ![0, a, b, e] yb hs)) (lift_chan reduces_S64x1x80x80_S1x80x80 h w c)).trans ?_
    refine congrArg (xb (ix4 c (0 : Fin 1) h w) * ·) ?_
    refine extractStridedSlice_apply ![0, a, b, e] yb hs (ix4 c (0 : Fin 1) h w) (ix4 c (⟨a, ha⟩ : Fin 3) (shift h b hb) (shift w e he)) fun ax => ?_
    match ax with
    | ⟨0, _⟩ => show c.val = 0 + c.val; omega
    | ⟨1, _⟩ => show a = a + 0; omega
    | ⟨2, _⟩ => show h.val + b = b + h.val; omega
    | ⟨3, _⟩ => show w.val + e = e + w.val; omega

/-- The slab as the body holds it, its leading unit axis dropped, reads the loaded slab at the same channel, plane, row
    and column behind a leading `0`: the two indices have the same row-major position. -/
theorem slab_apply (v28 : Vec Ideal S1x64x3x82x82 .f32) (c : Fin 64) (a : Fin 3) (p q : Fin 82) :
    k0_pay3 v28 (ix4 c a p q) = v28 (ix5 (0 : Fin 1) c a p q) := by
  refine shapeCast_apply v28 shapeCasts_S1x64x3x82x82_S64x3x82x82 (ix4 c a p q) (ix5 (0 : Fin 1) c a p q) ?_
  rw [Shape.rowMajor_val_five, Shape.rowMajor_val_four]
  show ((((0 * 64 + c.val) * 3 + a.val) * 82 + p.val) * 82 + q.val) = (((c.val * 3 + a.val) * 82 + p.val) * 82 + q.val)
  omega

/-- The window at shift `(a, b, e)` of the loaded slab: the value of `window_apply`, with the slab read where it was loaded. -/
theorem slab_window (a b e : ℕ) (ha : a < 3) (hb : b < 3) (he : e < 3) (hs : S64x3x82x82.Slices ![0, a, b, e] S64x1x80x80)
    (v26 : FVec Ideal S64x1x80x80 .f32) (v28 : Vec Ideal S1x64x3x82x82 .f32) (h w : Fin 80) :
    shapeCast S1x1x1x80x80 (mulf (multiReduction .add [0] S1x80x80 (mulf v26 (extractStridedSlice S64x1x80x80 ![0, a, b, e] (k0_pay3 v28) hs)) 0x00000000#32 reduces_S64x1x80x80_S1x80x80 (.inl rfl) rfl) (broadcast S1x80x80 (Scalar.ofBits (F := Ideal) .f32 0x3E000000#32))) shapeCasts_S1x80x80_S1x1x1x80x80 (ix5 (0 : Fin 1) (0 : Fin 1) (0 : Fin 1) h w)
      = (∑ c : Fin 64, v26 (ix4 c (0 : Fin 1) h w) * v28 (ix5 (0 : Fin 1) c (⟨a, ha⟩ : Fin 3) (shift h b hb) (shift w e he))) * Ideal.ofBits .f32 0x3E000000#32 := by
  refine (window_apply a b e ha hb he hs v26 (k0_pay3 v28) h w).trans ?_
  refine congrArg (· * Ideal.ofBits .f32 0x3E000000#32) (Finset.sum_congr rfl fun c _ => ?_)
  exact congrArg (v26 (ix4 c (0 : Fin 1) h w) * ·) (slab_apply v28 c ⟨a, ha⟩ (shift h b hb) (shift w e he))

/-- What store `o` of the body writes, as a function of the block of `x` (its leading unit axis dropped) and the loaded
    slab: for each of the 27 offsets the body's own term, whose window is the one at `o`'s digits. -/
def storePay {F : FTy → Type} [FloatOps F] (o : Fin 27) (v26 : FVec F S64x1x80x80 .f32) (v28 : Vec F S1x64x3x82x82 .f32) :
    FVec F S1x1x1x80x80 .f32 :=
  match o with
  | ⟨0, _⟩ => k0_pay4 v26 v28
  | ⟨1, _⟩ => k0_pay5 v26 v28
  | ⟨2, _⟩ => k0_pay6 v26 v28
  | ⟨3, _⟩ => k0_pay8 (k0_pay7 v26 v28)
  | ⟨4, _⟩ => k0_pay9 v26 (k0_pay3 v28)
  | ⟨5, _⟩ => k0_pay10 v26 (k0_pay3 v28)
  | ⟨6, _⟩ => k0_pay11 v26 (k0_pay3 v28)
  | ⟨7, _⟩ => k0_pay13 (k0_pay12 v26 (k0_pay3 v28)) (Scalar.ofBits .f32 0x3E000000#32)
  | ⟨8, _⟩ => k0_pay14 v26 (k0_pay3 v28)
  | ⟨9, _⟩ => k0_pay15 v26 (k0_pay3 v28)
  | ⟨10, _⟩ => k0_pay16 v26 (k0_pay3 v28)
  | ⟨11, _⟩ => k0_pay18 v26 (k0_pay17 (k0_pay3 v28))
  | ⟨12, _⟩ => k0_pay19 v26 (k0_pay3 v28)
  | ⟨13, _⟩ => k0_pay20 v26 (k0_pay3 v28)
  | ⟨14, _⟩ => k0_pay22 (k0_pay21 v26 (k0_pay3 v28))
  | ⟨15, _⟩ => k0_pay23 v26 (k0_pay3 v28)
  | ⟨16, _⟩ => k0_pay24 v26 (k0_pay3 v28)
  | ⟨17, _⟩ => k0_pay25 v26 (k0_pay3 v28)
  | ⟨18, _⟩ => k0_pay27 (k0_pay26 v26 (k0_pay3 v28))
  | ⟨19, _⟩ => k0_pay28 v26 (k0_pay3 v28)
  | ⟨20, _⟩ => k0_pay29 v26 (k0_pay3 v28)
  | ⟨21, _⟩ => k0_pay30 v26 (k0_pay3 v28)
  | ⟨22, _⟩ => k0_pay32 (k0_pay31 v26 (k0_pay3 v28)) (Scalar.ofBits .f32 0x3E000000#32)
  | ⟨23, _⟩ => k0_pay33 v26 (k0_pay3 v28)
  | ⟨24, _⟩ => k0_pay34 v26 (k0_pay3 v28)
  | ⟨25, _⟩ => k0_pay35 v26 (k0_pay3 v28)
  | ⟨26, _⟩ => k0_pay1 v26 (k0_pay36 (k0_pay3 v28))
  | ⟨n + 27, hn⟩ => absurd hn (by omega)

/-- If offset `k` has digits `(a, b, e)`, a reading of store `k` at the shifts `(a, b, e)` is its reading at the shifts the
    offset's digit functions name: the three digit equations are substituted, nothing is computed. -/
theorem storePay_apply_of (k : ℕ) (hk : k < 27) (a b e : ℕ) (ha : a < 3) (hb : b < 3) (he : e < 3)
    (hz : k / 9 = a) (hy : k / 3 % 3 = b) (hx : k % 3 = e)
    (v26 : FVec Ideal S64x1x80x80 .f32) (v28 : Vec Ideal S1x64x3x82x82 .f32) (h w : Fin 80)
    (H : storePay (F := Ideal) ⟨k, hk⟩ v26 v28 (ix5 0 0 0 h w)
      = (∑ c : Fin 64, v26 (ix4 c 0 h w) * v28 (ix5 0 c (⟨a, ha⟩ : Fin 3) (shift h b hb) (shift w e he))) * Ideal.ofBits .f32 0x3E000000#32) :
    storePay (F := Ideal) ⟨k, hk⟩ v26 v28 (ix5 0 0 0 h w)
      = (∑ c : Fin 64, v26 (ix4 c 0 h w) * v28 (ix5 0 c ⟨dz ⟨k, hk⟩, dz_lt _⟩ (shift h (dy ⟨k, hk⟩) (dy_lt _)) (shift w (dx ⟨k, hk⟩) (dx_lt _)))) * Ideal.ofBits .f32 0x3E000000#32 := by
  subst hz hy hx
  exact H

/-- Store `o`'s value at `(h, w)`: the channel sum of `x` times the slab shifted by `o`'s digits, scaled by one eighth.
    Each of the 27 terms is the window term of `slab_window` at the digits of its offset. -/
theorem storePay_apply (o : Fin 27) (v26 : FVec Ideal S64x1x80x80 .f32) (v28 : Vec Ideal S1x64x3x82x82 .f32) (h w : Fin 80) :
    storePay (F := Ideal) o v26 v28 (ix5 0 0 0 h w)
      = (∑ c : Fin 64, v26 (ix4 c 0 h w) * v28 (ix5 0 c ⟨dz o, dz_lt o⟩ (shift h (dy o) (dy_lt o)) (shift w (dx o) (dx_lt o)))) * Ideal.ofBits .f32 0x3E000000#32 :=
  match o with
  | ⟨0, hk⟩ => storePay_apply_of 0 hk 0 0 0 (by omega) (by omega) (by omega) rfl rfl rfl v26 v28 h w
      (slab_window 0 0 0 _ _ _ slices_S64x3x82x82_o0_0_0_0_S64x1x80x80 v26 v28 h w)
  | ⟨1, hk⟩ => storePay_apply_of 1 hk 0 0 1 (by omega) (by omega) (by omega) rfl rfl rfl v26 v28 h w
      (slab_window 0 0 1 _ _ _ slices_S64x3x82x82_o0_0_0_1_S64x1x80x80 v26 v28 h w)
  | ⟨2, hk⟩ => storePay_apply_of 2 hk 0 0 2 (by omega) (by omega) (by omega) rfl rfl rfl v26 v28 h w
      (slab_window 0 0 2 _ _ _ slices_S64x3x82x82_o0_0_0_2_S64x1x80x80 v26 v28 h w)
  | ⟨3, hk⟩ => storePay_apply_of 3 hk 0 1 0 (by omega) (by omega) (by omega) rfl rfl rfl v26 v28 h w
      (slab_window 0 1 0 _ _ _ slices_S64x3x82x82_o0_0_1_0_S64x1x80x80 v26 v28 h w)
  | ⟨4, hk⟩ => storePay_apply_of 4 hk 0 1 1 (by omega) (by omega) (by omega) rfl rfl rfl v26 v28 h w
      (slab_window 0 1 1 _ _ _ slices_S64x3x82x82_o0_0_1_1_S64x1x80x80 v26 v28 h w)
  | ⟨5, hk⟩ => storePay_apply_of 5 hk 0 1 2 (by omega) (by omega) (by omega) rfl rfl rfl v26 v28 h w
      (slab_window 0 1 2 _ _ _ slices_S64x3x82x82_o0_0_1_2_S64x1x80x80 v26 v28 h w)
  | ⟨6, hk⟩ => storePay_apply_of 6 hk 0 2 0 (by omega) (by omega) (by omega) rfl rfl rfl v26 v28 h w
      (slab_window 0 2 0 _ _ _ slices_S64x3x82x82_o0_0_2_0_S64x1x80x80 v26 v28 h w)
  | ⟨7, hk⟩ => storePay_apply_of 7 hk 0 2 1 (by omega) (by omega) (by omega) rfl rfl rfl v26 v28 h w
      (slab_window 0 2 1 _ _ _ slices_S64x3x82x82_o0_0_2_1_S64x1x80x80 v26 v28 h w)
  | ⟨8, hk⟩ => storePay_apply_of 8 hk 0 2 2 (by omega) (by omega) (by omega) rfl rfl rfl v26 v28 h w
      (slab_window 0 2 2 _ _ _ slices_S64x3x82x82_o0_0_2_2_S64x1x80x80 v26 v28 h w)
  | ⟨9, hk⟩ => storePay_apply_of 9 hk 1 0 0 (by omega) (by omega) (by omega) rfl rfl rfl v26 v28 h w
      (slab_window 1 0 0 _ _ _ slices_S64x3x82x82_o0_1_0_0_S64x1x80x80 v26 v28 h w)
  | ⟨10, hk⟩ => storePay_apply_of 10 hk 1 0 1 (by omega) (by omega) (by omega) rfl rfl rfl v26 v28 h w
      (slab_window 1 0 1 _ _ _ slices_S64x3x82x82_o0_1_0_1_S64x1x80x80 v26 v28 h w)
  | ⟨11, hk⟩ => storePay_apply_of 11 hk 1 0 2 (by omega) (by omega) (by omega) rfl rfl rfl v26 v28 h w
      (slab_window 1 0 2 _ _ _ slices_S64x3x82x82_o0_1_0_2_S64x1x80x80 v26 v28 h w)
  | ⟨12, hk⟩ => storePay_apply_of 12 hk 1 1 0 (by omega) (by omega) (by omega) rfl rfl rfl v26 v28 h w
      (slab_window 1 1 0 _ _ _ slices_S64x3x82x82_o0_1_1_0_S64x1x80x80 v26 v28 h w)
  | ⟨13, hk⟩ => storePay_apply_of 13 hk 1 1 1 (by omega) (by omega) (by omega) rfl rfl rfl v26 v28 h w
      (slab_window 1 1 1 _ _ _ slices_S64x3x82x82_o0_1_1_1_S64x1x80x80 v26 v28 h w)
  | ⟨14, hk⟩ => storePay_apply_of 14 hk 1 1 2 (by omega) (by omega) (by omega) rfl rfl rfl v26 v28 h w
      (slab_window 1 1 2 _ _ _ slices_S64x3x82x82_o0_1_1_2_S64x1x80x80 v26 v28 h w)
  | ⟨15, hk⟩ => storePay_apply_of 15 hk 1 2 0 (by omega) (by omega) (by omega) rfl rfl rfl v26 v28 h w
      (slab_window 1 2 0 _ _ _ slices_S64x3x82x82_o0_1_2_0_S64x1x80x80 v26 v28 h w)
  | ⟨16, hk⟩ => storePay_apply_of 16 hk 1 2 1 (by omega) (by omega) (by omega) rfl rfl rfl v26 v28 h w
      (slab_window 1 2 1 _ _ _ slices_S64x3x82x82_o0_1_2_1_S64x1x80x80 v26 v28 h w)
  | ⟨17, hk⟩ => storePay_apply_of 17 hk 1 2 2 (by omega) (by omega) (by omega) rfl rfl rfl v26 v28 h w
      (slab_window 1 2 2 _ _ _ slices_S64x3x82x82_o0_1_2_2_S64x1x80x80 v26 v28 h w)
  | ⟨18, hk⟩ => storePay_apply_of 18 hk 2 0 0 (by omega) (by omega) (by omega) rfl rfl rfl v26 v28 h w
      (slab_window 2 0 0 _ _ _ slices_S64x3x82x82_o0_2_0_0_S64x1x80x80 v26 v28 h w)
  | ⟨19, hk⟩ => storePay_apply_of 19 hk 2 0 1 (by omega) (by omega) (by omega) rfl rfl rfl v26 v28 h w
      (slab_window 2 0 1 _ _ _ slices_S64x3x82x82_o0_2_0_1_S64x1x80x80 v26 v28 h w)
  | ⟨20, hk⟩ => storePay_apply_of 20 hk 2 0 2 (by omega) (by omega) (by omega) rfl rfl rfl v26 v28 h w
      (slab_window 2 0 2 _ _ _ slices_S64x3x82x82_o0_2_0_2_S64x1x80x80 v26 v28 h w)
  | ⟨21, hk⟩ => storePay_apply_of 21 hk 2 1 0 (by omega) (by omega) (by omega) rfl rfl rfl v26 v28 h w
      (slab_window 2 1 0 _ _ _ slices_S64x3x82x82_o0_2_1_0_S64x1x80x80 v26 v28 h w)
  | ⟨22, hk⟩ => storePay_apply_of 22 hk 2 1 1 (by omega) (by omega) (by omega) rfl rfl rfl v26 v28 h w
      (slab_window 2 1 1 _ _ _ slices_S64x3x82x82_o0_2_1_1_S64x1x80x80 v26 v28 h w)
  | ⟨23, hk⟩ => storePay_apply_of 23 hk 2 1 2 (by omega) (by omega) (by omega) rfl rfl rfl v26 v28 h w
      (slab_window 2 1 2 _ _ _ slices_S64x3x82x82_o0_2_1_2_S64x1x80x80 v26 v28 h w)
  | ⟨24, hk⟩ => storePay_apply_of 24 hk 2 2 0 (by omega) (by omega) (by omega) rfl rfl rfl v26 v28 h w
      (slab_window 2 2 0 _ _ _ slices_S64x3x82x82_o0_2_2_0_S64x1x80x80 v26 v28 h w)
  | ⟨25, hk⟩ => storePay_apply_of 25 hk 2 2 1 (by omega) (by omega) (by omega) rfl rfl rfl v26 v28 h w
      (slab_window 2 2 1 _ _ _ slices_S64x3x82x82_o0_2_2_1_S64x1x80x80 v26 v28 h w)
  | ⟨26, hk⟩ => storePay_apply_of 26 hk 2 2 2 (by omega) (by omega) (by omega) rfl rfl rfl v26 v28 h w
      (slab_window 2 2 2 _ _ _ slices_S64x3x82x82_o0_2_2_2_S64x1x80x80 v26 v28 h w)
  | ⟨n + 27, hn⟩ => absurd hn (by omega)

end Cert.KernelIdeal.Halo

end
-- ==== Proof.KernelIdealBlock.lean ====
/-
  The 27 pieces a grid point stores, as one list over what the body loads.

  Whatever the point's kind (first depth, a middle depth, last depth), the body loads the block of `x` through the
  whole box of its staging buffer and the landed depth window through its slot's box of the two-slot scratch, and
  stores, for each window offset `o`, the payload of offset `o` over these two loads into row `o` of the result's
  block. The three kinds differ only in which windows they start and wait for; the pieces they leave are this list.
-/
import proofs.«131693_j81647328297400_1_alg».proof.Proof.KernelIdealFrame
import proofs.«131693_j81647328297400_1_alg».proof.Proof.KernelPiece

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The x block as the body loads it: the staging buffer read through its whole box. -/
def xLoad (argX : Memref sig .tc .vmem S1x64x1x80x80 .f32) (hargX : argX.IsWhole) (x0 : Vec F S1x64x1x80x80 .f32) : Vec F S1x64x1x80x80 .f32 :=
  View.readAt (Elt F) argX.view (Rect.unit (s := S1x64x1x80x80) ![0, 0, 0, 0, 0] S1x64x1x80x80.size inb_S1x64x1x80x80_S1x64x1x80x80_0_0_0_0_0).toLoadRect (hargX.unread x0)

/-- The slot as the body loads it at point `t`: the scratch read through the slot's box once the point's depth window has landed in it. -/
def slotLoad (c : Dev nD) (t : Fin cfg0.N) (W : HbBuf (F := F) c hbM) : Vec F S1x64x3x82x82 .f32 :=
  View.readAt (Elt F) scM.view (Rect.unit (s := S2x64x3x82x82) (k0_off8 (grid0.coords t)) S1x64x3x82x82.size (k0_off8_inb (grid0.coords t))).toLoadRect
    ((rslot (Fin.ofNat 2 (t.val % 80))).view.writes (Elt F) (rslot (Fin.ofNat 2 (t.val % 80))).view.junk
      [⟨Rect.whole S64x3x82x82, ReadAs.same.apply ((srcW (Fin.ofNat 2 (t.val / 80)) (Ring.bk 80 (t.val % 80))).view.read (Elt F) W)⟩])

/-- The 27 stores of a point, last first: store `o` writes row `o` of the result's block. -/
def pieceList (XL : Vec F S1x64x1x80x80 .f32) (SL : Vec F S1x64x3x82x82 .f32) : List (View.Piece (Elt F) S1x27x1x80x80 .f32) :=
  [
    ⟨Rect.unit (s := S1x27x1x80x80) ![0, 26, 0, 0, 0] S1x1x1x80x80.size inb_S1x27x1x80x80_S1x1x1x80x80_0_26_0_0_0, storePay ⟨26, by omega⟩ (k0_pay2 XL) SL⟩,
    ⟨Rect.unit (s := S1x27x1x80x80) ![0, 25, 0, 0, 0] S1x1x1x80x80.size inb_S1x27x1x80x80_S1x1x1x80x80_0_25_0_0_0, storePay ⟨25, by omega⟩ (k0_pay2 XL) SL⟩,
    ⟨Rect.unit (s := S1x27x1x80x80) ![0, 24, 0, 0, 0] S1x1x1x80x80.size inb_S1x27x1x80x80_S1x1x1x80x80_0_24_0_0_0, storePay ⟨24, by omega⟩ (k0_pay2 XL) SL⟩,
    ⟨Rect.unit (s := S1x27x1x80x80) ![0, 23, 0, 0, 0] S1x1x1x80x80.size inb_S1x27x1x80x80_S1x1x1x80x80_0_23_0_0_0, storePay ⟨23, by omega⟩ (k0_pay2 XL) SL⟩,
    ⟨Rect.unit (s := S1x27x1x80x80) ![0, 22, 0, 0, 0] S1x1x1x80x80.size inb_S1x27x1x80x80_S1x1x1x80x80_0_22_0_0_0, storePay ⟨22, by omega⟩ (k0_pay2 XL) SL⟩,
    ⟨Rect.unit (s := S1x27x1x80x80) ![0, 21, 0, 0, 0] S1x1x1x80x80.size inb_S1x27x1x80x80_S1x1x1x80x80_0_21_0_0_0, storePay ⟨21, by omega⟩ (k0_pay2 XL) SL⟩,
    ⟨Rect.unit (s := S1x27x1x80x80) ![0, 20, 0, 0, 0] S1x1x1x80x80.size inb_S1x27x1x80x80_S1x1x1x80x80_0_20_0_0_0, storePay ⟨20, by omega⟩ (k0_pay2 XL) SL⟩,
    ⟨Rect.unit (s := S1x27x1x80x80) ![0, 19, 0, 0, 0] S1x1x1x80x80.size inb_S1x27x1x80x80_S1x1x1x80x80_0_19_0_0_0, storePay ⟨19, by omega⟩ (k0_pay2 XL) SL⟩,
    ⟨Rect.unit (s := S1x27x1x80x80) ![0, 18, 0, 0, 0] S1x1x1x80x80.size inb_S1x27x1x80x80_S1x1x1x80x80_0_18_0_0_0, storePay ⟨18, by omega⟩ (k0_pay2 XL) SL⟩,
    ⟨Rect.unit (s := S1x27x1x80x80) ![0, 17, 0, 0, 0] S1x1x1x80x80.size inb_S1x27x1x80x80_S1x1x1x80x80_0_17_0_0_0, storePay ⟨17, by omega⟩ (k0_pay2 XL) SL⟩,
    ⟨Rect.unit (s := S1x27x1x80x80) ![0, 16, 0, 0, 0] S1x1x1x80x80.size inb_S1x27x1x80x80_S1x1x1x80x80_0_16_0_0_0, storePay ⟨16, by omega⟩ (k0_pay2 XL) SL⟩,
    ⟨Rect.unit (s := S1x27x1x80x80) ![0, 15, 0, 0, 0] S1x1x1x80x80.size inb_S1x27x1x80x80_S1x1x1x80x80_0_15_0_0_0, storePay ⟨15, by omega⟩ (k0_pay2 XL) SL⟩,
    ⟨Rect.unit (s := S1x27x1x80x80) ![0, 14, 0, 0, 0] S1x1x1x80x80.size inb_S1x27x1x80x80_S1x1x1x80x80_0_14_0_0_0, storePay ⟨14, by omega⟩ (k0_pay2 XL) SL⟩,
    ⟨Rect.unit (s := S1x27x1x80x80) ![0, 13, 0, 0, 0] S1x1x1x80x80.size inb_S1x27x1x80x80_S1x1x1x80x80_0_13_0_0_0, storePay ⟨13, by omega⟩ (k0_pay2 XL) SL⟩,
    ⟨Rect.unit (s := S1x27x1x80x80) ![0, 12, 0, 0, 0] S1x1x1x80x80.size inb_S1x27x1x80x80_S1x1x1x80x80_0_12_0_0_0, storePay ⟨12, by omega⟩ (k0_pay2 XL) SL⟩,
    ⟨Rect.unit (s := S1x27x1x80x80) ![0, 11, 0, 0, 0] S1x1x1x80x80.size inb_S1x27x1x80x80_S1x1x1x80x80_0_11_0_0_0, storePay ⟨11, by omega⟩ (k0_pay2 XL) SL⟩,
    ⟨Rect.unit (s := S1x27x1x80x80) ![0, 10, 0, 0, 0] S1x1x1x80x80.size inb_S1x27x1x80x80_S1x1x1x80x80_0_10_0_0_0, storePay ⟨10, by omega⟩ (k0_pay2 XL) SL⟩,
    ⟨Rect.unit (s := S1x27x1x80x80) ![0, 9, 0, 0, 0] S1x1x1x80x80.size inb_S1x27x1x80x80_S1x1x1x80x80_0_9_0_0_0, storePay ⟨9, by omega⟩ (k0_pay2 XL) SL⟩,
    ⟨Rect.unit (s := S1x27x1x80x80) ![0, 8, 0, 0, 0] S1x1x1x80x80.size inb_S1x27x1x80x80_S1x1x1x80x80_0_8_0_0_0, storePay ⟨8, by omega⟩ (k0_pay2 XL) SL⟩,
    ⟨Rect.unit (s := S1x27x1x80x80) ![0, 7, 0, 0, 0] S1x1x1x80x80.size inb_S1x27x1x80x80_S1x1x1x80x80_0_7_0_0_0, storePay ⟨7, by omega⟩ (k0_pay2 XL) SL⟩,
    ⟨Rect.unit (s := S1x27x1x80x80) ![0, 6, 0, 0, 0] S1x1x1x80x80.size inb_S1x27x1x80x80_S1x1x1x80x80_0_6_0_0_0, storePay ⟨6, by omega⟩ (k0_pay2 XL) SL⟩,
    ⟨Rect.unit (s := S1x27x1x80x80) ![0, 5, 0, 0, 0] S1x1x1x80x80.size inb_S1x27x1x80x80_S1x1x1x80x80_0_5_0_0_0, storePay ⟨5, by omega⟩ (k0_pay2 XL) SL⟩,
    ⟨Rect.unit (s := S1x27x1x80x80) ![0, 4, 0, 0, 0] S1x1x1x80x80.size inb_S1x27x1x80x80_S1x1x1x80x80_0_4_0_0_0, storePay ⟨4, by omega⟩ (k0_pay2 XL) SL⟩,
    ⟨Rect.unit (s := S1x27x1x80x80) ![0, 3, 0, 0, 0] S1x1x1x80x80.size inb_S1x27x1x80x80_S1x1x1x80x80_0_3_0_0_0, storePay ⟨3, by omega⟩ (k0_pay2 XL) SL⟩,
    ⟨Rect.unit (s := S1x27x1x80x80) ![0, 2, 0, 0, 0] S1x1x1x80x80.size inb_S1x27x1x80x80_S1x1x1x80x80_0_2_0_0_0, storePay ⟨2, by omega⟩ (k0_pay2 XL) SL⟩,
    ⟨Rect.unit (s := S1x27x1x80x80) ![0, 1, 0, 0, 0] S1x1x1x80x80.size inb_S1x27x1x80x80_S1x1x1x80x80_0_1_0_0_0, storePay ⟨1, by omega⟩ (k0_pay2 XL) SL⟩,
    ⟨Rect.unit (s := S1x27x1x80x80) ![0, 0, 0, 0, 0] S1x1x1x80x80.size inb_S1x27x1x80x80_S1x1x1x80x80_0_0_0_0_0, storePay ⟨0, by omega⟩ (k0_pay2 XL) SL⟩]

theorem pieces_A (c : Dev nD) (t : Fin cfg0.N) (argX : Memref sig .tc .vmem S1x64x1x80x80 .f32) (hargX : argX.IsWhole) (argO : Memref sig .tc .vmem S1x27x1x80x80 .f32) (hargO : argO.IsWhole) (hc0 : condFirst (grid0.coords t)) (hc1 : condMore (grid0.coords t))
    (x0 : Vec F S1x64x1x80x80 .f32) (W : HbBuf (F := F) c hbM) :
    (kernelRun_A c t argX hargX argO hargO hc0 hc1 x0 W).1 = pieceList (xLoad argX hargX x0) (slotLoad c t W) := by
  unfold kernelRun_A
  dsimp only
  sl_unfold_run_names
  rfl
theorem pieces_B (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : condMore (grid0.coords t))
    (x0 : Vec F S1x64x1x80x80 .f32) (W : HbBuf (F := F) c hbM) :
    (kernelRun_B c t argX hargX argO hargO hc0 hc1 x0 W).1 = pieceList (xLoad argX hargX x0) (slotLoad c t W) := by
  unfold kernelRun_B
  dsimp only
  sl_unfold_run_names
  rfl
theorem pieces_C (c : Dev nD) (t : Fin cfg0.N) (argX : Memref sig .tc .vmem S1x64x1x80x80 .f32) (hargX : argX.IsWhole) (argO : Memref sig .tc .vmem S1x27x1x80x80 .f32) (hargO : argO.IsWhole) (hc0 : ¬condFirst (grid0.coords t)) (hc1 : ¬condMore (grid0.coords t))
    (x0 : Vec F S1x64x1x80x80 .f32) (W : HbBuf (F := F) c hbM) :
    (kernelRun_C c t argX hargX argO hargO hc0 hc1 x0 W).1 = pieceList (xLoad argX hargX x0) (slotLoad c t W) := by
  unfold kernelRun_C
  dsimp only
  sl_unfold_run_names
  rfl

end Cert.KernelIdeal.Halo

end
-- ==== Proof.KernelIdealValue.lean ====
/-
  What the result's staging buffer holds after a grid point, as a block of the windowed correlation.

  At the point of batch element `b` and depth `δ` the body has loaded the x block (channels × one depth × 80 × 80)
  and the landed depth window `δ … δ + 2` of the padded operand, and stored, for each of the 27 window offsets, the
  scaled channel sum of x times the shifted window. Read back, the 27 pieces are exactly the block `(b, :, δ, :, :)`
  of the correlation of the two arrays.
-/
import proofs.«131693_j81647328297400_1_alg».proof.Proof.KernelIdealFrame
import proofs.«131693_j81647328297400_1_alg».proof.Proof.Spec
import proofs.«131693_j81647328297400_1_alg».proof.Proof.KernelPiece
import proofs.«131693_j81647328297400_1_alg».proof.Proof.KernelIdealBlock
import Idealize.ShloMosaic.Lib.Pipeline.Value
import Idealize.ShloMosaic.Lib.ValueIdx

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-! ## A point is a batch element and a depth -/

/-- Block indices of the `x` window at point `t`: batch element `t / 80`, depth `t % 80`, every other axis whole. -/
theorem idx_x : ∀ t : Fin cfg0.N, win0_0.index t 0 = t.val / 80 ∧ win0_0.index t 1 = 0 ∧ win0_0.index t 2 = t.val % 80 ∧ win0_0.index t 3 = 0 ∧ win0_0.index t 4 = 0 :=
  (by decide +kernel : ∀ t : Fin grid0.N, win0_0.index t 0 = t.val / 80 ∧ win0_0.index t 1 = 0 ∧ win0_0.index t 2 = t.val % 80 ∧ win0_0.index t 3 = 0 ∧ win0_0.index t 4 = 0)
/-- and of the result window, the same. -/
theorem idx_o : ∀ t : Fin cfg0.N, win0_1.index t 0 = t.val / 80 ∧ win0_1.index t 1 = 0 ∧ win0_1.index t 2 = t.val % 80 ∧ win0_1.index t 3 = 0 ∧ win0_1.index t 4 = 0 :=
  (by decide +kernel : ∀ t : Fin grid0.N, win0_1.index t 0 = t.val / 80 ∧ win0_1.index t 1 = 0 ∧ win0_1.index t 2 = t.val % 80 ∧ win0_1.index t 3 = 0 ∧ win0_1.index t 4 = 0)

/-- The block of `x` at point `t`, at channel `ch` and voxel `(h, w)`, is `x` at that point's batch element and depth. -/
theorem xblock_apply (c : Dev nD) (t : Fin cfg0.N) (ch : Fin 64) (h w : Fin 80) :
    (iblk m c 0 t : Vec Ideal S1x64x1x80x80 .f32) (ix5 0 ch 0 h w)
      = (V m c main_arg0 : Cert.WinCorr.SX.Idx → EReal) (ix5 (Fin.ofNat 2 (t.val / 80)) ch (Fin.ofNat 80 (t.val % 80)) h w) := by
  have hN : t.val < 160 := lt_of_lt_of_eq t.isLt N_0
  obtain ⟨i0, i1, i2, i3, i4⟩ := idx_x t
  unfold iblk
  rw [View.read_apply]
  show V m c main_arg0 _ = V m c main_arg0 _
  congr 1
  funext a
  apply Fin.ext
  match a with
  | ⟨0, _⟩ => show win0_0.index t 0 * 1 + 1 * 0 = t.val / 80 % 2; rw [i0]; omega
  | ⟨1, _⟩ => show win0_0.index t 1 * 64 + 1 * ch.val = ch.val; rw [i1]; omega
  | ⟨2, _⟩ => show win0_0.index t 2 * 1 + 1 * 0 = t.val % 80 % 80; rw [i2]; omega
  | ⟨3, _⟩ => show win0_0.index t 3 * 80 + 1 * h.val = h.val; rw [i3]; omega
  | ⟨4, _⟩ => show win0_0.index t 4 * 80 + 1 * w.val = w.val; rw [i4]; omega

/-- Block `t` of a result array, at row `o` and voxel `(h, w)`, is the array at that point's batch element and depth. -/
theorem oblock_apply (t : Fin cfg0.N) (G : Cert.WinCorr.SO.Idx → EReal) (o : Fin 27) (h w : Fin 80) :
    (((cfg0.win 1).blk t).view.read (Elt Ideal) G : Vec Ideal S1x27x1x80x80 .f32) (ix5 0 o 0 h w)
      = G (ix5 (Fin.ofNat 2 (t.val / 80)) o (Fin.ofNat 80 (t.val % 80)) h w) := by
  have hN : t.val < 160 := lt_of_lt_of_eq t.isLt N_0
  obtain ⟨i0, i1, i2, i3, i4⟩ := idx_o t
  rw [View.read_apply]
  show G _ = G _
  congr 1
  funext a
  apply Fin.ext
  match a with
  | ⟨0, _⟩ => show win0_1.index t 0 * 1 + 1 * 0 = t.val / 80 % 2; rw [i0]; omega
  | ⟨1, _⟩ => show win0_1.index t 1 * 27 + 1 * o.val = o.val; rw [i1]; omega
  | ⟨2, _⟩ => show win0_1.index t 2 * 1 + 1 * 0 = t.val % 80 % 80; rw [i2]; omega
  | ⟨3, _⟩ => show win0_1.index t 3 * 80 + 1 * h.val = h.val; rw [i3]; omega
  | ⟨4, _⟩ => show win0_1.index t 4 * 80 + 1 * w.val = w.val; rw [i4]; omega

/-- The depth window `d … d + 2` of batch element `b` of the padded operand, at channel `ch`, plane `a`, row `p`, column `q`,
    is the operand at depth `d + a`: the window drops a leading unit axis of the slice at offsets `(b, 0, d, 0, 0)`. -/
theorem src_apply (c : Dev nD) (W : HbBuf (F := Ideal) c hbM) (b : Fin 2) (d : Fin 80) (ch : Fin 64) (a : ℕ) (ha : a < 3) (p q : Fin 82) :
    ((srcW b d).view.read (Elt Ideal) W : Vec Ideal S64x3x82x82 .f32) (ix4 ch (⟨a, ha⟩ : Fin 3) p q)
      = (W : Cert.WinCorr.SP.Idx → EReal) (ix5 b ch (Cert.WinCorr.shift d a ha) p q) := by
  have e : (srcW b d).view.read (Elt Ideal) W
      = shapeCast S64x3x82x82 (hbM.view.readAt (Elt Ideal) (Rect.unit (s := S2x64x82x82x82) ![b.val, 0, d.val, 0, 0] S1x64x3x82x82.size (inb_win b d)).toLoadRect W) shapeCasts_S1x64x3x82x82_S64x3x82x82 := rfl
  refine (congrFun e _).trans ?_
  refine (shapeCast_apply _ shapeCasts_S1x64x3x82x82_S64x3x82x82 (ix4 ch (⟨a, ha⟩ : Fin 3) p q) (ix5 (0 : Fin 1) ch (⟨a, ha⟩ : Fin 3) p q) ?_).trans ?_
  · rw [Shape.rowMajor_val_five, Shape.rowMajor_val_four]
    show ((((0 * 64 + ch.val) * 3 + a) * 82 + p.val) * 82 + q.val) = (((ch.val * 3 + a) * 82 + p.val) * 82 + q.val)
    omega
  · show W _ = W _
    congr 1
    funext ax
    apply Fin.ext
    match ax with
    | ⟨0, _⟩ => show b.val + 1 * 0 = b.val; omega
    | ⟨1, _⟩ => show 0 + 1 * ch.val = ch.val; omega
    | ⟨2, _⟩ => show d.val + 1 * a = d.val + a; omega
    | ⟨3, _⟩ => show 0 + 1 * p.val = p.val; omega
    | ⟨4, _⟩ => show 0 + 1 * q.val = q.val; omega

/-- The scratch loaded through a box at slot `s`'s offsets, its leading unit axis dropped, is slot `s` read. -/
theorem slot_read_aux (s : Fin 2) (f : scM.view.ty.Contents (Elt Ideal)) (off : Fin 5 → ℕ) (hoff : off = ![s.val, 0, 0, 0, 0])
    (inb : ∀ a, off a + S1x64x3x82x82.size a ≤ S2x64x3x82x82.size a) :
    shapeCast S64x3x82x82 (scM.view.readAt (Elt Ideal) (Rect.unit (s := S2x64x3x82x82) off S1x64x3x82x82.size inb).toLoadRect f) shapeCasts_S1x64x3x82x82_S64x3x82x82
      = (rslot s).view.read (Elt Ideal) f := by
  subst hoff; rfl

/-- The slot the body loads at point `t`, its leading unit axis dropped, is the point's depth window of the padded operand:
    the load's box is the slot's own, the landed window was written over the whole slot, and a whole write reads back. -/
theorem slot_read (c : Dev nD) (t : Fin cfg0.N) (W : HbBuf (F := Ideal) c hbM) :
    k0_pay3 (slotLoad c t W) = (srcW (Fin.ofNat 2 (t.val / 80)) (Ring.bk 80 (t.val % 80))).view.read (Elt Ideal) W := by
  have e1 := slot_read_aux (Ring.sl 2 (t.val % 80))
    ((rslot (Fin.ofNat 2 (t.val % 80))).view.writes (Elt Ideal) (rslot (Fin.ofNat 2 (t.val % 80))).view.junk
      [⟨Rect.whole S64x3x82x82, ReadAs.same.apply ((srcW (Fin.ofNat 2 (t.val / 80)) (Ring.bk 80 (t.val % 80))).view.read (Elt Ideal) W)⟩])
    (k0_off8 (grid0.coords t)) (off_load t) (k0_off8_inb (grid0.coords t))
  have e2 := View.read_writes_junk_eq_canon (rslot (Fin.ofNat 2 (t.val % 80))).view
    [(⟨Rect.whole S64x3x82x82, ReadAs.same.apply ((srcW (Fin.ofNat 2 (t.val / 80)) (Ring.bk 80 (t.val % 80))).view.read (Elt Ideal) W)⟩ : View.Piece (Elt Ideal) S64x3x82x82 .f32)]
  have e3 : View.canon [(⟨Rect.whole S64x3x82x82, ReadAs.same.apply ((srcW (Fin.ofNat 2 (t.val / 80)) (Ring.bk 80 (t.val % 80))).view.read (Elt Ideal) W)⟩ : View.Piece (Elt Ideal) S64x3x82x82 .f32)]
      = (srcW (Fin.ofNat 2 (t.val / 80)) (Ring.bk 80 (t.val % 80))).view.read (Elt Ideal) W :=
    View.canon_unit_zero (S := S64x3x82x82) rfl _ _
  exact e1.trans (e2.trans e3)

theorem hz5 : (![0, 0, 0, 0, 0] : Fin 5 → Nat) = fun _ => 0 := funext fun a => by fin_cases a <;> rfl

/-- The block of `x` the body loads is the block its staging buffer holds. -/
theorem xLoad_eq (argX : Memref sig .tc .vmem S1x64x1x80x80 .f32) (hargX : argX.IsWhole) (x0 : Vec Ideal S1x64x1x80x80 .f32) :
    xLoad argX hargX x0 = x0 := by
  unfold xLoad
  simp only [View.readAt_eq_ld, hargX.read_unread, View.ld_unit_zero (S := S1x64x1x80x80) hz5]

/-- The loaded block with its leading unit axis dropped reads the block at the same channel and voxel. -/
theorem xcast_apply (XL : Vec Ideal S1x64x1x80x80 .f32) (ch : Fin 64) (h w : Fin 80) :
    k0_pay2 XL (ix4 ch (0 : Fin 1) h w) = XL (ix5 (0 : Fin 1) ch (0 : Fin 1) h w) := by
  refine shapeCast_apply XL shapeCasts_S1x64x1x80x80_S64x1x80x80 (ix4 ch (0 : Fin 1) h w) (ix5 (0 : Fin 1) ch (0 : Fin 1) h w) ?_
  rw [Shape.rowMajor_val_five, Shape.rowMajor_val_four]
  show ((((0 * 64 + ch.val) * 1 + 0) * 80 + h.val) * 80 + w.val) = (((ch.val * 1 + 0) * 80 + h.val) * 80 + w.val)
  omega

/-! ## One piece, and the list -/

/-- Store `o`'s value at `(h, w)` is block `t` of the correlation at row `o` and `(h, w)`: both are the channel sum of
    `x` at the point's batch element and depth times the padded operand shifted by `o`'s digits, scaled by one eighth;
    the loaded block is the block of `x`, the loaded slot the point's depth window. -/
theorem pay_block (c : Dev nD) (t : Fin cfg0.N) (argX : Memref sig .tc .vmem S1x64x1x80x80 .f32) (hargX : argX.IsWhole)
    (o : Fin 27) (h w : Fin 80) :
    storePay (F := Ideal) o (k0_pay2 (xLoad argX hargX (iblk m c 0 t))) (slotLoad c t (V m c main_v0)) (ix5 0 0 0 h w)
      = (((cfg0.win 1).blk t).view.read (Elt Ideal) (Cert.WinCorr.corr (V m c main_arg0) (V m c main_v0)) : Vec Ideal S1x27x1x80x80 .f32) (ix5 0 o 0 h w) := by
  refine (storePay_apply o _ _ h w).trans ?_
  refine Eq.trans ?_ (oblock_apply t (Cert.WinCorr.corr (V m c main_arg0) (V m c main_v0)) o h w).symm
  rw [Cert.WinCorr.corr_ix5]
  unfold Cert.WinCorr.corrAt
  refine congrArg (· * Ideal.ofBits .f32 0x3E000000#32) (Finset.sum_congr rfl fun ch _ => ?_)
  have ex : k0_pay2 (xLoad argX hargX (iblk m c 0 t)) (ix4 ch (0 : Fin 1) h w)
      = (V m c main_arg0 : Cert.WinCorr.SX.Idx → EReal) (ix5 (Fin.ofNat 2 (t.val / 80)) ch (Fin.ofNat 80 (t.val % 80)) h w) := by
    refine (xcast_apply _ ch h w).trans ?_
    rw [xLoad_eq]
    exact xblock_apply m c t ch h w
  have ey : slotLoad c t (V m c main_v0) (ix5 (0 : Fin 1) ch (⟨Cert.WinCorr.dz o, Cert.WinCorr.dz_lt o⟩ : Fin 3) (Cert.WinCorr.shift h (Cert.WinCorr.dy o) (Cert.WinCorr.dy_lt o)) (Cert.WinCorr.shift w (Cert.WinCorr.dx o) (Cert.WinCorr.dx_lt o)))
      = (V m c main_v0 : Cert.WinCorr.SP.Idx → EReal) (ix5 (Fin.ofNat 2 (t.val / 80)) ch (Cert.WinCorr.shift (Fin.ofNat 80 (t.val % 80)) (Cert.WinCorr.dz o) (Cert.WinCorr.dz_lt o))
          (Cert.WinCorr.shift h (Cert.WinCorr.dy o) (Cert.WinCorr.dy_lt o)) (Cert.WinCorr.shift w (Cert.WinCorr.dx o) (Cert.WinCorr.dx_lt o))) := by
    refine (slab_apply _ ch _ _ _).symm.trans ?_
    refine (congrFun (slot_read c t (V m c main_v0)) _).trans ?_
    exact src_apply c (V m c main_v0) (Fin.ofNat 2 (t.val / 80)) (Ring.bk 80 (t.val % 80)) ch (Cert.WinCorr.dz o) (Cert.WinCorr.dz_lt o) _ _
  exact congrArg₂ (· * ·) ex ey

/-- A function on the row block at offset `k` that agrees with `G` at every `(0, k, 0, h, w)` is `G` under the block:
    the block's three leading axes are unit, and its index `(0, 0, 0, h, w)` sits at `(0, k, 0, h, w)`. -/
theorem piece_ok (k : ℕ) (hk : k < 27) (inb : ∀ a, (![0, k, 0, 0, 0] : Fin 5 → ℕ) a + S1x1x1x80x80.size a ≤ S1x27x1x80x80.size a)
    (P : Vec Ideal S1x1x1x80x80 .f32) (G : Vec Ideal S1x27x1x80x80 .f32)
    (hG : ∀ h w : Fin 80, P (ix5 0 0 0 h w) = G (ix5 0 (⟨k, hk⟩ : Fin 27) 0 h w)) (x : S1x1x1x80x80.Idx) :
    P x = G ((Rect.unit (s := S1x27x1x80x80) ![0, k, 0, 0, 0] S1x1x1x80x80.size inb).emb x) := by
  obtain ⟨a0, a1, a2, hh, ww, rfl⟩ : ∃ (a0 a1 a2 : Fin 1) (hh ww : Fin 80), x = ix5 a0 a1 a2 hh ww := ⟨x 0, x 1, x 2, x 3, x 4, eq_ix5 x⟩
  obtain rfl : a0 = 0 := Subsingleton.elim _ _
  obtain rfl : a1 = 0 := Subsingleton.elim _ _
  obtain rfl : a2 = 0 := Subsingleton.elim _ _
  refine (hG hh ww).trans (congrArg G ?_)
  funext a
  apply Fin.ext
  match a with
  | ⟨0, _⟩ => show 0 = 0 + 1 * 0; omega
  | ⟨1, _⟩ => show k = k + 1 * 0; omega
  | ⟨2, _⟩ => show 0 = 0 + 1 * 0; omega
  | ⟨3, _⟩ => show hh.val = 0 + 1 * hh.val; omega
  | ⟨4, _⟩ => show ww.val = 0 + 1 * ww.val; omega

/-- The 27 pieces of point `t`, read back, are block `t` of the correlation: they tile the block, and each is the
    correlation's block under its own rows. -/
theorem canon_block (c : Dev nD) (t : Fin cfg0.N) (argX : Memref sig .tc .vmem S1x64x1x80x80 .f32) (hargX : argX.IsWhole) :
    View.canon (pieceList (xLoad argX hargX (iblk m c 0 t)) (slotLoad c t (V m c main_v0)))
      = ((cfg0.win 1).blk t).view.read (Elt Ideal) (Cert.WinCorr.corr (V m c main_arg0) (V m c main_v0)) := by
  funext y
  refine View.canon_apply_of_pieces _ _ ?_ y (View.cover_of_tiledL (pieceList (xLoad argX hargX (iblk m c 0 t)) (slotLoad c t (V m c main_v0))) S1x1x1x80x80.size (by sl_kernel_rfl) y)
  intro p hp
  unfold pieceList at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact piece_ok 26 (by omega) inb_S1x27x1x80x80_S1x1x1x80x80_0_26_0_0_0 _ _ (fun h w => pay_block m c t argX hargX ⟨26, by omega⟩ h w)
  · exact piece_ok 25 (by omega) inb_S1x27x1x80x80_S1x1x1x80x80_0_25_0_0_0 _ _ (fun h w => pay_block m c t argX hargX ⟨25, by omega⟩ h w)
  · exact piece_ok 24 (by omega) inb_S1x27x1x80x80_S1x1x1x80x80_0_24_0_0_0 _ _ (fun h w => pay_block m c t argX hargX ⟨24, by omega⟩ h w)
  · exact piece_ok 23 (by omega) inb_S1x27x1x80x80_S1x1x1x80x80_0_23_0_0_0 _ _ (fun h w => pay_block m c t argX hargX ⟨23, by omega⟩ h w)
  · exact piece_ok 22 (by omega) inb_S1x27x1x80x80_S1x1x1x80x80_0_22_0_0_0 _ _ (fun h w => pay_block m c t argX hargX ⟨22, by omega⟩ h w)
  · exact piece_ok 21 (by omega) inb_S1x27x1x80x80_S1x1x1x80x80_0_21_0_0_0 _ _ (fun h w => pay_block m c t argX hargX ⟨21, by omega⟩ h w)
  · exact piece_ok 20 (by omega) inb_S1x27x1x80x80_S1x1x1x80x80_0_20_0_0_0 _ _ (fun h w => pay_block m c t argX hargX ⟨20, by omega⟩ h w)
  · exact piece_ok 19 (by omega) inb_S1x27x1x80x80_S1x1x1x80x80_0_19_0_0_0 _ _ (fun h w => pay_block m c t argX hargX ⟨19, by omega⟩ h w)
  · exact piece_ok 18 (by omega) inb_S1x27x1x80x80_S1x1x1x80x80_0_18_0_0_0 _ _ (fun h w => pay_block m c t argX hargX ⟨18, by omega⟩ h w)
  · exact piece_ok 17 (by omega) inb_S1x27x1x80x80_S1x1x1x80x80_0_17_0_0_0 _ _ (fun h w => pay_block m c t argX hargX ⟨17, by omega⟩ h w)
  · exact piece_ok 16 (by omega) inb_S1x27x1x80x80_S1x1x1x80x80_0_16_0_0_0 _ _ (fun h w => pay_block m c t argX hargX ⟨16, by omega⟩ h w)
  · exact piece_ok 15 (by omega) inb_S1x27x1x80x80_S1x1x1x80x80_0_15_0_0_0 _ _ (fun h w => pay_block m c t argX hargX ⟨15, by omega⟩ h w)
  · exact piece_ok 14 (by omega) inb_S1x27x1x80x80_S1x1x1x80x80_0_14_0_0_0 _ _ (fun h w => pay_block m c t argX hargX ⟨14, by omega⟩ h w)
  · exact piece_ok 13 (by omega) inb_S1x27x1x80x80_S1x1x1x80x80_0_13_0_0_0 _ _ (fun h w => pay_block m c t argX hargX ⟨13, by omega⟩ h w)
  · exact piece_ok 12 (by omega) inb_S1x27x1x80x80_S1x1x1x80x80_0_12_0_0_0 _ _ (fun h w => pay_block m c t argX hargX ⟨12, by omega⟩ h w)
  · exact piece_ok 11 (by omega) inb_S1x27x1x80x80_S1x1x1x80x80_0_11_0_0_0 _ _ (fun h w => pay_block m c t argX hargX ⟨11, by omega⟩ h w)
  · exact piece_ok 10 (by omega) inb_S1x27x1x80x80_S1x1x1x80x80_0_10_0_0_0 _ _ (fun h w => pay_block m c t argX hargX ⟨10, by omega⟩ h w)
  · exact piece_ok 9 (by omega) inb_S1x27x1x80x80_S1x1x1x80x80_0_9_0_0_0 _ _ (fun h w => pay_block m c t argX hargX ⟨9, by omega⟩ h w)
  · exact piece_ok 8 (by omega) inb_S1x27x1x80x80_S1x1x1x80x80_0_8_0_0_0 _ _ (fun h w => pay_block m c t argX hargX ⟨8, by omega⟩ h w)
  · exact piece_ok 7 (by omega) inb_S1x27x1x80x80_S1x1x1x80x80_0_7_0_0_0 _ _ (fun h w => pay_block m c t argX hargX ⟨7, by omega⟩ h w)
  · exact piece_ok 6 (by omega) inb_S1x27x1x80x80_S1x1x1x80x80_0_6_0_0_0 _ _ (fun h w => pay_block m c t argX hargX ⟨6, by omega⟩ h w)
  · exact piece_ok 5 (by omega) inb_S1x27x1x80x80_S1x1x1x80x80_0_5_0_0_0 _ _ (fun h w => pay_block m c t argX hargX ⟨5, by omega⟩ h w)
  · exact piece_ok 4 (by omega) inb_S1x27x1x80x80_S1x1x1x80x80_0_4_0_0_0 _ _ (fun h w => pay_block m c t argX hargX ⟨4, by omega⟩ h w)
  · exact piece_ok 3 (by omega) inb_S1x27x1x80x80_S1x1x1x80x80_0_3_0_0_0 _ _ (fun h w => pay_block m c t argX hargX ⟨3, by omega⟩ h w)
  · exact piece_ok 2 (by omega) inb_S1x27x1x80x80_S1x1x1x80x80_0_2_0_0_0 _ _ (fun h w => pay_block m c t argX hargX ⟨2, by omega⟩ h w)
  · exact piece_ok 1 (by omega) inb_S1x27x1x80x80_S1x1x1x80x80_0_1_0_0_0 _ _ (fun h w => pay_block m c t argX hargX ⟨1, by omega⟩ h w)
  · exact piece_ok 0 (by omega) inb_S1x27x1x80x80_S1x1x1x80x80_0_0_0_0_0 _ _ (fun h w => pay_block m c t argX hargX ⟨0, by omega⟩ h w)

/-- After point `t` the result's staging buffer holds block `t` of the correlation of the first argument with the
    padded second one. -/
theorem outsAt_eq (c : Dev nD) (t : Fin cfg0.N) :
    outsAt (F := Ideal) m c t.val t.isLt
      = ((cfg0.win 1).blk t).view.read (Elt Ideal) (Cert.WinCorr.corr (V m c main_arg0) (V m c main_v0)) := by
  by_cases h0 : t.val % 80 = 0
  · have h1 : t.val % 80 + 1 < 80 := by omega
    rw [outsAt_A m c t h0 h1]
    unfold out_A
    rw [pieces_A, View.read_writes_junk_eq_canon]
    exact canon_block m c t _ _
  · by_cases h1 : t.val % 80 + 1 < 80
    · rw [outsAt_B m c t h0 h1]
      unfold out_B
      rw [pieces_B, View.read_writes_junk_eq_canon]
      exact canon_block m c t _ _
    · rw [outsAt_C m c t h0 h1]
      unfold out_C
      rw [pieces_C, View.read_writes_junk_eq_canon]
      exact canon_block m c t _ _

end Cert.KernelIdeal.Halo

end
-- ==== Proof.KernelIdealFinal.lean ====
/-
  From the result's blocks to the whole result array, and the kernel's run with that array named.

  The grid has one point for each batch element `b` and depth `δ`, numbered `80·b + δ`. The result window's block
  at that point is the slab `(b, all 27 offsets, δ, all rows, all columns)` of the `[2, 27, 80, 80, 80]` result, and
  every point writes its block back. What a point leaves in the staging buffer is that slab of the windowed
  correlation of the two arrays (the per-point module), and the slabs tile the array: the index `(b, o, d, h, w)`
  lies in the slab of point `80·b + d` and in no other. So after the run the result array is the correlation of the
  first argument with the padded second one, and both arguments are as launched.
-/
import proofs.«131693_j81647328297400_1_alg».proof.Proof.KernelIdealValue
import Idealize.ShloMosaic.Lib.Pipeline.Value

set_option maxRecDepth 16384

noncomputable section

namespace Cert.KernelIdeal.Halo

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## Where a point's block sits -/

/-- The result window's block index at point `t`: batch element `t / 80`, depth `t % 80`, and the first block on the
    offset, row and column axes (which a block spans whole). -/
theorem blockIndex : ∀ t : Fin cfg0.N, win0_1.index t (0 : Fin 5) = t.val / 80
    ∧ win0_1.index t (1 : Fin 5) = 0
    ∧ win0_1.index t (2 : Fin 5) = t.val % 80
    ∧ win0_1.index t (3 : Fin 5) = 0
    ∧ win0_1.index t (4 : Fin 5) = 0 :=
  (by decide +kernel : ∀ t : Fin grid0.N, _)

/-- What point `t` writes back is slab `t` of the correlation: the whole staging buffer is written back, and the
    buffer holds that slab. -/
theorem flushed_eq (c : Dev nD) (t : Fin cfg0.N) :
    (dats (F := Ideal) m 0 c).flushed 1 t
      = ((cfg0.win 1).blk t).view.read (Elt Ideal) (Cert.WinCorr.corr (V m c main_arg0) (V m c main_v0)) := by
  show (cfg0.win 1).cut (grid0.coords t) ((dats (F := Ideal) m 0 c).after 1 t) = _
  rw [after_out, outsAt_eq]

/-- An index of the result array lies in point `t`'s slab iff each coordinate lies in the slab's range on its axis. -/
theorem mem_blk (t : Fin cfg0.N) (i : S2x27x80x80x80.Idx) :
    i ∈ ((cfg0.win 1).blk t).view.set ↔ ∀ a : Fin 5, win0_1.index t a * S1x27x1x80x80.size a ≤ (i a).val ∧ (i a).val < win0_1.index t a * S1x27x1x80x80.size a + S1x27x1x80x80.size a := by
  show i ∈ ((View.whole main_v1).slice (win0_1.rect t)).set ↔ _
  rw [View.set_slice_whole, Rect.mem_set_unit]
  exact Iff.rfl

/-- The slabs cover the array: `(b, o, d, h, w)` lies in the slab of point `80·b + d`. -/
theorem cover (i : S2x27x80x80x80.Idx) :
    ∃ t : Fin cfg0.N, (cfg0.win 1).flush t = true ∧ i ∈ ((cfg0.win 1).blk t).view.set := by
  have h0 : (i 0).val < 2 := (i 0).isLt
  have h1 : (i 1).val < 27 := (i 1).isLt
  have h2 : (i 2).val < 80 := (i 2).isLt
  have h3 : (i 3).val < 80 := (i 3).isLt
  have h4 : (i 4).val < 80 := (i 4).isLt
  have hN : cfg0.N = 160 := N_0
  obtain ⟨t, ht⟩ : ∃ t : Fin cfg0.N, t.val = 80 * (i 0).val + (i 2).val := ⟨⟨80 * (i 0).val + (i 2).val, by rw [hN]; omega⟩, rfl⟩
  refine ⟨t, flush0_1 t, ?_⟩
  rw [mem_blk]
  obtain ⟨e0, e1, e2, e3, e4⟩ := blockIndex t
  intro a
  match a with
  | ⟨0, _⟩ => show win0_1.index t (0 : Fin 5) * 1 ≤ (i 0).val ∧ (i 0).val < win0_1.index t (0 : Fin 5) * 1 + 1; rw [e0]; omega
  | ⟨1, _⟩ => show win0_1.index t (1 : Fin 5) * 27 ≤ (i 1).val ∧ (i 1).val < win0_1.index t (1 : Fin 5) * 27 + 27; rw [e1]; omega
  | ⟨2, _⟩ => show win0_1.index t (2 : Fin 5) * 1 ≤ (i 2).val ∧ (i 2).val < win0_1.index t (2 : Fin 5) * 1 + 1; rw [e2]; omega
  | ⟨3, _⟩ => show win0_1.index t (3 : Fin 5) * 80 ≤ (i 3).val ∧ (i 3).val < win0_1.index t (3 : Fin 5) * 80 + 80; rw [e3]; omega
  | ⟨4, _⟩ => show win0_1.index t (4 : Fin 5) * 80 ≤ (i 4).val ∧ (i 4).val < win0_1.index t (4 : Fin 5) * 80 + 80; rw [e4]; omega

/-! ## The result array, and the run -/

/-- After the last point the result array is the correlation of the first argument with the padded second one. -/
theorem final (c : Dev nD) :
    (dats (F := Ideal) m 0 c).arrAt 1 cfg0.N = Cert.WinCorr.corr (V m c main_arg0) (V m c main_v0) :=
  (dats (F := Ideal) m 0 c).arrAt_eq_of_cover 1 (Cert.WinCorr.corr (V m c main_arg0) (V m c main_v0))
    (fun t _ => flushed_eq m c t) cover

/-- The kernel's run: the result array ends at the correlation of the first argument as launched with the padded
    second one, and both arguments end as launched. -/
theorem value_run : θ_run defs (onTc (τ := τ) (main (F := Ideal))) ⟨m, fun _ => 0, ρ⟩ (fun r => ∀ c : Dev nD,
      r.2.mem ((c.tc : Thread nD τ).loc main_v1) = Cert.WinCorr.corr (m ((c.tc : Thread nD τ).loc main_arg0)) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(((h c).1 1).trans (final m c)).trans (congrArg (fun x => Cert.WinCorr.corr x (V m c main_v0)) (V_main_arg0 m c)),
       ((h c).1 0).trans (((dats (F := Ideal) m 0 c).arrAt_in 0 rfl _).trans ((A_eq m c 0).trans (V_main_arg0 m c))),
       ((h c).2 main_arg1 (Pipeline.mem_restRefs_of main_arg1 (by decide) (by decide))).trans (V_main_arg1 m c)⟩)
    (run_main (F := Ideal) m ρ)

end Cert.KernelIdeal.Halo

end
-- ==== Proof.KernelIdealPad.lean ====
/-
  The array the kernel's region finds in the padded buffer is the second argument with one plane of the converted
  integer zero added on each side of its three spatial axes: the two host operations before the region, read off.
-/
import proofs.«131693_j81647328297400_1_alg».proof.Proof.Gen.KernelIdeal.Frame
import Idealize.ShloMosaic.Lib.StableHlo.Run

noncomputable section

namespace Cert.KernelIdeal.Halo

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

theorem V_padded (c : Dev nD) :
    (V m c main_v0 : (⟨S2x64x82x82x82, .f32⟩ : BufTy).Contents (Elt F))
      = pad S2x64x82x82x82 ![0, 0, 1, 1, 1] ![0, 0, 1, 1, 1] ![0, 0, 0, 0, 0] (m ((c.tc : Thread nD τ).loc main_arg1))
          (sitofp (F := F) .f32 (constantI S_ 32 0#32)) Facts₀.pads_S2x64x80x80x80_S2x64x82x82x82_000_000_110_110_110 Facts₀.h_S_ := by
  dsimp only [V]
  simp only [hostOps0, hostOps0_1, List.flatten_cons, List.flatten_nil, List.append_nil, List.cons_append, List.nil_append]
  after_results
  rfl

end Cert.KernelIdeal.Halo

end
-- ==== Proof.RefValue.lean ====
/-
  The reference side of the windowed channel correlation: the idealized reference program's result, read stage by
  stage, is the specification function `corr` of `x` and the padded `y`.

  For each of the 27 window offsets `o = 9 a + 3 b' + e` the reference forms the array
  `Σ_c x[b, c, d, h, w] · yp[b, c, d + a, h + b', w + e]`: a slice of the padded array at offsets `(a, b', e)`,
  multiplied by `x` and summed over the channel axis from an initial zero. It gives each such array a unit axis,
  stacks the 27 along that axis (sixteen, then eleven, then the two stacks) and multiplies by one eighth.
  One lemma, generic in the three shifts, reads a window at an index; a stack is read by the piece its offset
  coordinate falls in; the scale is the same word on both sides. The padded array is never opened.
-/
import proofs.«131693_j81647328297400_1_alg».proof.Proof.Spec
import proofs.«131693_j81647328297400_1_alg».proof.Proof.RefRead
import Idealize.ShloMosaic.Lib.Pipeline.Value
import Idealize.ShloMosaic.PureOps.Ideal.Laws

noncomputable section

namespace Cert.WinCorr.Ref

open Idealize.ShloMosaic Idealize.ShloMosaic.ValueIdx

/-- The shape of one window's channel sums, and of the same with a unit offset axis put in. -/
abbrev SR : Shape := ⟨4, ![2, 80, 80, 80]⟩
abbrev SB : Shape := ⟨5, ![2, 1, 80, 80, 80]⟩

/-- The channel sum of one window with shifts `(a, b', e)`, at batch element `b` and voxel `(d, h, w)`. -/
def winSum (x : SX.Idx → EReal) (yp : SP.Idx → EReal) (a b' e : ℕ) (ha : a < 3) (hb : b' < 3) (he : e < 3)
    (b : Fin 2) (d h w : Fin 80) : EReal :=
  ∑ c : Fin 64, x (ix5 b c d h w) * yp (ix5 b c (shift d a ha) (shift h b' hb) (shift w e he))

/-- One window of the reference, whatever its shifts. `sl` is the padded array read at the shifted coordinates
    (`idxS` adds `(a, b', e)` to the three spatial coordinates), `pr` its product with `x`, `sm` the sum of the
    products over the channel axis (`idxR` puts the channel `k` in) started from the zero word `z`, and `bc` the
    sum with a unit axis put in (`idxB` drops it). Then `bc` at `(b, 0, d, h, w)` is the window's channel sum:
    the initial zero adds nothing. -/
theorem window (x : SX.Idx → EReal) (yp : SP.Idx → EReal) (a b' e : ℕ) (ha : a < 3) (hb : b' < 3) (he : e < 3)
    {sl pr : SX.Idx → EReal} {sm : SR.Idx → EReal} {bc : SB.Idx → EReal} {z : EReal}
    {idxS : SX.Idx → SP.Idx} {idxR : SR.Idx → Fin 64 → SX.Idx} {idxB : SB.Idx → SR.Idx}
    (hbc : ∀ j, bc j = sm (idxB j))
    (hsm : ∀ i, sm i = z + ∑ k : Fin 64, pr (idxR i k))
    (hz : z = FloatOps.ofBits (F := Ideal) .f32 0x00000000#32)
    (hpr : ∀ i, pr i = FloatOps.mulf (F := Ideal) (φ := .f32) (x i) (sl i))
    (hsl : ∀ i, sl i = yp (idxS i))
    (hB : ∀ j, ((idxB j) 0).val = (j 0).val ∧ ((idxB j) 1).val = (j 2).val ∧ ((idxB j) 2).val = (j 3).val
      ∧ ((idxB j) 3).val = (j 4).val)
    (hR : ∀ i k, ((idxR i k) 0).val = (i 0).val ∧ ((idxR i k) 1).val = k.val ∧ ((idxR i k) 2).val = (i 1).val
      ∧ ((idxR i k) 3).val = (i 2).val ∧ ((idxR i k) 4).val = (i 3).val)
    (hS : ∀ i, ((idxS i) 0).val = (i 0).val ∧ ((idxS i) 1).val = (i 1).val ∧ ((idxS i) 2).val = a + (i 2).val
      ∧ ((idxS i) 3).val = b' + (i 3).val ∧ ((idxS i) 4).val = e + (i 4).val)
    (b : Fin 2) (d h w : Fin 80) :
    bc (ix5 b (0 : Fin 1) d h w) = winSum x yp a b' e ha hb he b d h w := by
  rw [hbc, hsm, hz, Ideal.ofBits_def, Ideal.ofBits_zero_f32, zero_add]
  unfold winSum
  refine Finset.sum_congr rfl fun c _ => ?_
  have eR : idxR (idxB (ix5 b (0 : Fin 1) d h w)) c = (ix5 b c d h w : SX.Idx) := by
    obtain ⟨r0, r1, r2, r3, r4⟩ := hR (idxB (ix5 b (0 : Fin 1) d h w)) c
    obtain ⟨b0, b1, b2, b3⟩ := hB (ix5 b (0 : Fin 1) d h w)
    funext t
    match t with
    | ⟨0, _⟩ => exact Fin.ext (r0.trans b0)
    | ⟨1, _⟩ => exact Fin.ext r1
    | ⟨2, _⟩ => exact Fin.ext (r2.trans b1)
    | ⟨3, _⟩ => exact Fin.ext (r3.trans b2)
    | ⟨4, _⟩ => exact Fin.ext (r4.trans b3)
  rw [eR, hpr, hsl, Ideal.mulf_def]
  have eS : idxS (ix5 b c d h w) = (ix5 b c (shift d a ha) (shift h b' hb) (shift w e he) : SP.Idx) := by
    obtain ⟨s0, s1, s2, s3, s4⟩ := hS (ix5 b c d h w)
    funext t
    match t with
    | ⟨0, _⟩ => exact Fin.ext s0
    | ⟨1, _⟩ => exact Fin.ext s1
    | ⟨2, _⟩ => exact Fin.ext (s2.trans (by show a + d.val = d.val + a; omega))
    | ⟨3, _⟩ => exact Fin.ext (s3.trans (by show b' + h.val = h.val + b'; omega))
    | ⟨4, _⟩ => exact Fin.ext (s4.trans (by show e + w.val = w.val + e; omega))
  rw [eS]

/-- A stack of `N` arrays of extent one along the second axis, read at an index: the array its second coordinate
    names, at the same batch element and voxel. -/
theorem stack_apply {N : ℕ} (f : Fin N → (SB.Idx → EReal))
    (h : Shape.Concatenates ((List.ofFn fun n : Fin N => (⟨SB, f n⟩ : (s : Shape) × (s.Idx → EReal))).map (·.1))
      ⟨5, ![2, N, 80, 80, 80]⟩ 1)
    (b : Fin 2) (n : Fin N) (d h' w : Fin 80) :
    concatenate ⟨5, ![2, N, 80, 80, 80]⟩ 1 (List.ofFn fun n : Fin N => (⟨SB, f n⟩ : (s : Shape) × (s.Idx → EReal))) h
        (ix5 b n d h' w)
      = f n (ix5 b (0 : Fin 1) d h' w) := by
  refine concatenate_ofFn_unit_apply 1 f h rfl rfl (ix5 b n d h' w) n rfl (ix5 b (0 : Fin 1) d h' w) fun t ht => ?_
  match t with
  | ⟨0, _⟩ => rfl
  | ⟨1, _⟩ => exact absurd rfl ht
  | ⟨2, _⟩ => rfl
  | ⟨3, _⟩ => rfl
  | ⟨4, _⟩ => rfl

/-- The stack of a 16-deep and an 11-deep array along the second axis, read where the second coordinate is below 16:
    the first array at the same coordinates. -/
theorem pair_left (p : (⟨5, ![2, 16, 80, 80, 80]⟩ : Shape).Idx → EReal) (q : (⟨5, ![2, 11, 80, 80, 80]⟩ : Shape).Idx → EReal)
    (hc : Shape.Concatenates [(⟨5, ![2, 16, 80, 80, 80]⟩ : Shape), ⟨5, ![2, 11, 80, 80, 80]⟩] ⟨5, ![2, 27, 80, 80, 80]⟩ 1)
    (b : Fin 2) (o : Fin 27) (ho : o.val < 16) (d h w : Fin 80) :
    concatenate ⟨5, ![2, 27, 80, 80, 80]⟩ 1 [⟨⟨5, ![2, 16, 80, 80, 80]⟩, p⟩, ⟨⟨5, ![2, 11, 80, 80, 80]⟩, q⟩] hc (ix5 b o d h w)
      = p (ix5 b (⟨o.val, ho⟩ : Fin 16) d h w) := by
  refine concatenate_pair_apply_left 1 p q hc (ix5 b o d h w) rfl (ix5 b (⟨o.val, ho⟩ : Fin 16) d h w) fun t => ?_
  match t with
  | ⟨0, _⟩ => rfl
  | ⟨1, _⟩ => rfl
  | ⟨2, _⟩ => rfl
  | ⟨3, _⟩ => rfl
  | ⟨4, _⟩ => rfl

/-- The same stack read where the second coordinate is 16 or more: the second array, sixteen places down. -/
theorem pair_right (p : (⟨5, ![2, 16, 80, 80, 80]⟩ : Shape).Idx → EReal) (q : (⟨5, ![2, 11, 80, 80, 80]⟩ : Shape).Idx → EReal)
    (hc : Shape.Concatenates [(⟨5, ![2, 16, 80, 80, 80]⟩ : Shape), ⟨5, ![2, 11, 80, 80, 80]⟩] ⟨5, ![2, 27, 80, 80, 80]⟩ 1)
    (b : Fin 2) (o : Fin 27) (ho : 16 ≤ o.val) (d h w : Fin 80) :
    concatenate ⟨5, ![2, 27, 80, 80, 80]⟩ 1 [⟨⟨5, ![2, 16, 80, 80, 80]⟩, p⟩, ⟨⟨5, ![2, 11, 80, 80, 80]⟩, q⟩] hc (ix5 b o d h w)
      = q (ix5 b (⟨o.val - 16, by omega⟩ : Fin 11) d h w) := by
  refine concatenate_pair_apply_right 1 p q hc (ix5 b o d h w) rfl rfl (ix5 b (⟨o.val - 16, by omega⟩ : Fin 11) d h w)
    (fun t ht => ?_) (by show o.val - 16 + 16 = o.val; omega)
  match t with
  | ⟨0, _⟩ => rfl
  | ⟨1, _⟩ => exact absurd rfl ht
  | ⟨2, _⟩ => rfl
  | ⟨3, _⟩ => rfl
  | ⟨4, _⟩ => rfl

/-- Sixteen unit-deep arrays stacked along the second axis, read at an index. -/
theorem stack16 (p0 p1 p2 p3 p4 p5 p6 p7 p8 p9 p10 p11 p12 p13 p14 p15 : SB.Idx → EReal)
    (hc : Shape.Concatenates [SB, SB, SB, SB, SB, SB, SB, SB, SB, SB, SB, SB, SB, SB, SB, SB] ⟨5, ![2, 16, 80, 80, 80]⟩ 1)
    (b : Fin 2) (n : Fin 16) (d h w : Fin 80) :
    concatenate ⟨5, ![2, 16, 80, 80, 80]⟩ 1 [⟨SB, p0⟩, ⟨SB, p1⟩, ⟨SB, p2⟩, ⟨SB, p3⟩, ⟨SB, p4⟩, ⟨SB, p5⟩, ⟨SB, p6⟩, ⟨SB, p7⟩,
        ⟨SB, p8⟩, ⟨SB, p9⟩, ⟨SB, p10⟩, ⟨SB, p11⟩, ⟨SB, p12⟩, ⟨SB, p13⟩, ⟨SB, p14⟩, ⟨SB, p15⟩] hc (ix5 b n d h w)
      = (![p0, p1, p2, p3, p4, p5, p6, p7, p8, p9, p10, p11, p12, p13, p14, p15] : Fin 16 → (SB.Idx → EReal)) n
          (ix5 b (0 : Fin 1) d h w) :=
  stack_apply (N := 16) ![p0, p1, p2, p3, p4, p5, p6, p7, p8, p9, p10, p11, p12, p13, p14, p15] hc b n d h w

/-- Eleven unit-deep arrays stacked along the second axis, read at an index. -/
theorem stack11 (p0 p1 p2 p3 p4 p5 p6 p7 p8 p9 p10 : SB.Idx → EReal)
    (hc : Shape.Concatenates [SB, SB, SB, SB, SB, SB, SB, SB, SB, SB, SB] ⟨5, ![2, 11, 80, 80, 80]⟩ 1)
    (b : Fin 2) (n : Fin 11) (d h w : Fin 80) :
    concatenate ⟨5, ![2, 11, 80, 80, 80]⟩ 1 [⟨SB, p0⟩, ⟨SB, p1⟩, ⟨SB, p2⟩, ⟨SB, p3⟩, ⟨SB, p4⟩, ⟨SB, p5⟩, ⟨SB, p6⟩, ⟨SB, p7⟩,
        ⟨SB, p8⟩, ⟨SB, p9⟩, ⟨SB, p10⟩] hc (ix5 b n d h w)
      = (![p0, p1, p2, p3, p4, p5, p6, p7, p8, p9, p10] : Fin 11 → (SB.Idx → EReal)) n (ix5 b (0 : Fin 1) d h w) :=
  stack_apply (N := 11) ![p0, p1, p2, p3, p4, p5, p6, p7, p8, p9, p10] hc b n d h w

open Cert.ReferenceIdeal Cert.ReferenceIdeal.Gen Cert.ReferenceIdeal.ReadP

/-- The window's channel sum named by its offset `o`: the shifts are the offset's three base-3 digits. -/
def winAt (x : SX.Idx → EReal) (yp : SP.Idx → EReal) (o : Fin 27) (b : Fin 2) (d h w : Fin 80) : EReal :=
  winSum x yp (dz o) (dy o) (dx o) (dz_lt o) (dy_lt o) (dx_lt o) b d h w

/-- The correlation is the window's channel sum times one eighth. -/
theorem corrAt_eq (x : SX.Idx → EReal) (yp : SP.Idx → EReal) (b : Fin 2) (o : Fin 27) (d h w : Fin 80) :
    corrAt x yp b o d h w = winAt x yp o b d h w * Ideal.ofBits .f32 0x3E000000#32 := rfl

section Windows
variable (x y : (⟨S2x64x80x80x80, .f32⟩ : BufTy).Contents (Elt Ideal))

/-- What window `o`'s array (with its unit offset axis) is: the channel sum of `x` against the padded `y` moved by
    the digits of `o`. -/
abbrev Win (bc : SB.Idx → EReal) (o : Fin 27) : Prop :=
  ∀ (b : Fin 2) (d h w : Fin 80), bc (ix5 b (0 : Fin 1) d h w) = winAt x (val_main_v0 (F := Ideal) y) o b d h w

-- The coordinate facts of a window's three index maps hold by computation; a zero shift is printed without its `0 +`.
local macro "hB!" : term => `(fun _ => ⟨rfl, rfl, rfl, rfl⟩)
local macro "hR!" : term => `(fun _ _ => ⟨rfl, rfl, rfl, rfl, rfl⟩)
local macro "z!" : term => `(by first | rfl | exact (Nat.zero_add _).symm)
local macro "hS!" : term => `(fun _ => ⟨rfl, rfl, z!, z!, z!⟩)

/-! The 27 windows, in the order of the offsets: window `9 a + 3 b' + e` reads the padded array at shifts `(a, b', e)`. -/

theorem w00 : Win x y (val_main_v82 (F := Ideal) x y) 0 :=
  window x _ 0 0 0 (by decide) (by decide) (by decide) (val_main_v82_apply x y) (val_main_v3_apply x y) (val_main_cst_apply _)
    (val_main_v2_apply x y) (val_main_v1_apply y) hB! hR! hS!
theorem w01 : Win x y (val_main_v83 (F := Ideal) x y) 1 :=
  window x _ 0 0 1 (by decide) (by decide) (by decide) (val_main_v83_apply x y) (val_main_v6_apply x y) (val_main_cst_0_apply _)
    (val_main_v5_apply x y) (val_main_v4_apply y) hB! hR! hS!
theorem w02 : Win x y (val_main_v84 (F := Ideal) x y) 2 :=
  window x _ 0 0 2 (by decide) (by decide) (by decide) (val_main_v84_apply x y) (val_main_v9_apply x y) (val_main_cst_1_apply _)
    (val_main_v8_apply x y) (val_main_v7_apply y) hB! hR! hS!
theorem w03 : Win x y (val_main_v85 (F := Ideal) x y) 3 :=
  window x _ 0 1 0 (by decide) (by decide) (by decide) (val_main_v85_apply x y) (val_main_v12_apply x y) (val_main_cst_2_apply _)
    (val_main_v11_apply x y) (val_main_v10_apply y) hB! hR! hS!
theorem w04 : Win x y (val_main_v86 (F := Ideal) x y) 4 :=
  window x _ 0 1 1 (by decide) (by decide) (by decide) (val_main_v86_apply x y) (val_main_v15_apply x y) (val_main_cst_3_apply _)
    (val_main_v14_apply x y) (val_main_v13_apply y) hB! hR! hS!
theorem w05 : Win x y (val_main_v87 (F := Ideal) x y) 5 :=
  window x _ 0 1 2 (by decide) (by decide) (by decide) (val_main_v87_apply x y) (val_main_v18_apply x y) (val_main_cst_4_apply _)
    (val_main_v17_apply x y) (val_main_v16_apply y) hB! hR! hS!
theorem w06 : Win x y (val_main_v88 (F := Ideal) x y) 6 :=
  window x _ 0 2 0 (by decide) (by decide) (by decide) (val_main_v88_apply x y) (val_main_v21_apply x y) (val_main_cst_5_apply _)
    (val_main_v20_apply x y) (val_main_v19_apply y) hB! hR! hS!
theorem w07 : Win x y (val_main_v89 (F := Ideal) x y) 7 :=
  window x _ 0 2 1 (by decide) (by decide) (by decide) (val_main_v89_apply x y) (val_main_v24_apply x y) (val_main_cst_6_apply _)
    (val_main_v23_apply x y) (val_main_v22_apply y) hB! hR! hS!
theorem w08 : Win x y (val_main_v90 (F := Ideal) x y) 8 :=
  window x _ 0 2 2 (by decide) (by decide) (by decide) (val_main_v90_apply x y) (val_main_v27_apply x y) (val_main_cst_7_apply _)
    (val_main_v26_apply x y) (val_main_v25_apply y) hB! hR! hS!
theorem w09 : Win x y (val_main_v91 (F := Ideal) x y) 9 :=
  window x _ 1 0 0 (by decide) (by decide) (by decide) (val_main_v91_apply x y) (val_main_v30_apply x y) (val_main_cst_8_apply _)
    (val_main_v29_apply x y) (val_main_v28_apply y) hB! hR! hS!
theorem w10 : Win x y (val_main_v92 (F := Ideal) x y) 10 :=
  window x _ 1 0 1 (by decide) (by decide) (by decide) (val_main_v92_apply x y) (val_main_v33_apply x y) (val_main_cst_9_apply _)
    (val_main_v32_apply x y) (val_main_v31_apply y) hB! hR! hS!
theorem w11 : Win x y (val_main_v93 (F := Ideal) x y) 11 :=
  window x _ 1 0 2 (by decide) (by decide) (by decide) (val_main_v93_apply x y) (val_main_v36_apply x y) (val_main_cst_10_apply _)
    (val_main_v35_apply x y) (val_main_v34_apply y) hB! hR! hS!
theorem w12 : Win x y (val_main_v94 (F := Ideal) x y) 12 :=
  window x _ 1 1 0 (by decide) (by decide) (by decide) (val_main_v94_apply x y) (val_main_v39_apply x y) (val_main_cst_11_apply _)
    (val_main_v38_apply x y) (val_main_v37_apply y) hB! hR! hS!
theorem w13 : Win x y (val_main_v95 (F := Ideal) x y) 13 :=
  window x _ 1 1 1 (by decide) (by decide) (by decide) (val_main_v95_apply x y) (val_main_v42_apply x y) (val_main_cst_12_apply _)
    (val_main_v41_apply x y) (val_main_v40_apply y) hB! hR! hS!
theorem w14 : Win x y (val_main_v96 (F := Ideal) x y) 14 :=
  window x _ 1 1 2 (by decide) (by decide) (by decide) (val_main_v96_apply x y) (val_main_v45_apply x y) (val_main_cst_13_apply _)
    (val_main_v44_apply x y) (val_main_v43_apply y) hB! hR! hS!
theorem w15 : Win x y (val_main_v97 (F := Ideal) x y) 15 :=
  window x _ 1 2 0 (by decide) (by decide) (by decide) (val_main_v97_apply x y) (val_main_v48_apply x y) (val_main_cst_14_apply _)
    (val_main_v47_apply x y) (val_main_v46_apply y) hB! hR! hS!
theorem w16 : Win x y (val_main_v98 (F := Ideal) x y) 16 :=
  window x _ 1 2 1 (by decide) (by decide) (by decide) (val_main_v98_apply x y) (val_main_v51_apply x y) (val_main_cst_15_apply _)
    (val_main_v50_apply x y) (val_main_v49_apply y) hB! hR! hS!
theorem w17 : Win x y (val_main_v99 (F := Ideal) x y) 17 :=
  window x _ 1 2 2 (by decide) (by decide) (by decide) (val_main_v99_apply x y) (val_main_v54_apply x y) (val_main_cst_16_apply _)
    (val_main_v53_apply x y) (val_main_v52_apply y) hB! hR! hS!
theorem w18 : Win x y (val_main_v100 (F := Ideal) x y) 18 :=
  window x _ 2 0 0 (by decide) (by decide) (by decide) (val_main_v100_apply x y) (val_main_v57_apply x y) (val_main_cst_17_apply _)
    (val_main_v56_apply x y) (val_main_v55_apply y) hB! hR! hS!
theorem w19 : Win x y (val_main_v101 (F := Ideal) x y) 19 :=
  window x _ 2 0 1 (by decide) (by decide) (by decide) (val_main_v101_apply x y) (val_main_v60_apply x y) (val_main_cst_18_apply _)
    (val_main_v59_apply x y) (val_main_v58_apply y) hB! hR! hS!
theorem w20 : Win x y (val_main_v102 (F := Ideal) x y) 20 :=
  window x _ 2 0 2 (by decide) (by decide) (by decide) (val_main_v102_apply x y) (val_main_v63_apply x y) (val_main_cst_19_apply _)
    (val_main_v62_apply x y) (val_main_v61_apply y) hB! hR! hS!
theorem w21 : Win x y (val_main_v103 (F := Ideal) x y) 21 :=
  window x _ 2 1 0 (by decide) (by decide) (by decide) (val_main_v103_apply x y) (val_main_v66_apply x y) (val_main_cst_20_apply _)
    (val_main_v65_apply x y) (val_main_v64_apply y) hB! hR! hS!
theorem w22 : Win x y (val_main_v104 (F := Ideal) x y) 22 :=
  window x _ 2 1 1 (by decide) (by decide) (by decide) (val_main_v104_apply x y) (val_main_v69_apply x y) (val_main_cst_21_apply _)
    (val_main_v68_apply x y) (val_main_v67_apply y) hB! hR! hS!
theorem w23 : Win x y (val_main_v105 (F := Ideal) x y) 23 :=
  window x _ 2 1 2 (by decide) (by decide) (by decide) (val_main_v105_apply x y) (val_main_v72_apply x y) (val_main_cst_22_apply _)
    (val_main_v71_apply x y) (val_main_v70_apply y) hB! hR! hS!
theorem w24 : Win x y (val_main_v106 (F := Ideal) x y) 24 :=
  window x _ 2 2 0 (by decide) (by decide) (by decide) (val_main_v106_apply x y) (val_main_v75_apply x y) (val_main_cst_23_apply _)
    (val_main_v74_apply x y) (val_main_v73_apply y) hB! hR! hS!
theorem w25 : Win x y (val_main_v107 (F := Ideal) x y) 25 :=
  window x _ 2 2 1 (by decide) (by decide) (by decide) (val_main_v107_apply x y) (val_main_v78_apply x y) (val_main_cst_24_apply _)
    (val_main_v77_apply x y) (val_main_v76_apply y) hB! hR! hS!
theorem w26 : Win x y (val_main_v108 (F := Ideal) x y) 26 :=
  window x _ 2 2 2 (by decide) (by decide) (by decide) (val_main_v108_apply x y) (val_main_v81_apply x y) (val_main_cst_25_apply _)
    (val_main_v80_apply x y) (val_main_v79_apply y) hB! hR! hS!

/-- The first sixteen windows stacked: offset `n` below 16 reads window `n`. -/
theorem lower (n : Fin 16) (b : Fin 2) (d h w : Fin 80) :
    val_main_v109 (F := Ideal) x y (ix5 b n d h w)
      = winAt x (val_main_v0 (F := Ideal) y) ⟨n.val, by omega⟩ b d h w := by
  refine (stack16 (val_main_v82 (F := Ideal) x y) (val_main_v83 (F := Ideal) x y) (val_main_v84 (F := Ideal) x y)
    (val_main_v85 (F := Ideal) x y) (val_main_v86 (F := Ideal) x y) (val_main_v87 (F := Ideal) x y)
    (val_main_v88 (F := Ideal) x y) (val_main_v89 (F := Ideal) x y) (val_main_v90 (F := Ideal) x y)
    (val_main_v91 (F := Ideal) x y) (val_main_v92 (F := Ideal) x y) (val_main_v93 (F := Ideal) x y)
    (val_main_v94 (F := Ideal) x y) (val_main_v95 (F := Ideal) x y) (val_main_v96 (F := Ideal) x y)
    (val_main_v97 (F := Ideal) x y) _ b n d h w).trans ?_
  match n with
  | ⟨0, _⟩ => exact w00 x y b d h w
  | ⟨1, _⟩ => exact w01 x y b d h w
  | ⟨2, _⟩ => exact w02 x y b d h w
  | ⟨3, _⟩ => exact w03 x y b d h w
  | ⟨4, _⟩ => exact w04 x y b d h w
  | ⟨5, _⟩ => exact w05 x y b d h w
  | ⟨6, _⟩ => exact w06 x y b d h w
  | ⟨7, _⟩ => exact w07 x y b d h w
  | ⟨8, _⟩ => exact w08 x y b d h w
  | ⟨9, _⟩ => exact w09 x y b d h w
  | ⟨10, _⟩ => exact w10 x y b d h w
  | ⟨11, _⟩ => exact w11 x y b d h w
  | ⟨12, _⟩ => exact w12 x y b d h w
  | ⟨13, _⟩ => exact w13 x y b d h w
  | ⟨14, _⟩ => exact w14 x y b d h w
  | ⟨15, _⟩ => exact w15 x y b d h w
  | ⟨k + 16, hk⟩ => exact absurd hk (by omega)

/-- The last eleven windows stacked: offset `n` below 11 reads window `n + 16`. -/
theorem upper (n : Fin 11) (b : Fin 2) (d h w : Fin 80) :
    val_main_v110 (F := Ideal) x y (ix5 b n d h w)
      = winAt x (val_main_v0 (F := Ideal) y) ⟨n.val + 16, by omega⟩ b d h w := by
  refine (stack11 (val_main_v98 (F := Ideal) x y) (val_main_v99 (F := Ideal) x y) (val_main_v100 (F := Ideal) x y)
    (val_main_v101 (F := Ideal) x y) (val_main_v102 (F := Ideal) x y) (val_main_v103 (F := Ideal) x y)
    (val_main_v104 (F := Ideal) x y) (val_main_v105 (F := Ideal) x y) (val_main_v106 (F := Ideal) x y)
    (val_main_v107 (F := Ideal) x y) (val_main_v108 (F := Ideal) x y) _ b n d h w).trans ?_
  match n with
  | ⟨0, _⟩ => exact w16 x y b d h w
  | ⟨1, _⟩ => exact w17 x y b d h w
  | ⟨2, _⟩ => exact w18 x y b d h w
  | ⟨3, _⟩ => exact w19 x y b d h w
  | ⟨4, _⟩ => exact w20 x y b d h w
  | ⟨5, _⟩ => exact w21 x y b d h w
  | ⟨6, _⟩ => exact w22 x y b d h w
  | ⟨7, _⟩ => exact w23 x y b d h w
  | ⟨8, _⟩ => exact w24 x y b d h w
  | ⟨9, _⟩ => exact w25 x y b d h w
  | ⟨10, _⟩ => exact w26 x y b d h w
  | ⟨k + 11, hk⟩ => exact absurd hk (by omega)

/-- All 27 windows stacked: offset `o` reads window `o`. -/
theorem stacked (b : Fin 2) (o : Fin 27) (d h w : Fin 80) :
    val_main_v111 (F := Ideal) x y (ix5 b o d h w) = winAt x (val_main_v0 (F := Ideal) y) o b d h w := by
  by_cases ho : o.val < 16
  · refine (pair_left (val_main_v109 (F := Ideal) x y) (val_main_v110 (F := Ideal) x y) _ b o ho d h w).trans ?_
    exact lower x y ⟨o.val, ho⟩ b d h w
  · have ho' : 16 ≤ o.val := Nat.le_of_not_lt ho
    refine (pair_right (val_main_v109 (F := Ideal) x y) (val_main_v110 (F := Ideal) x y) _ b o ho' d h w).trans ?_
    refine (upper x y ⟨o.val - 16, by omega⟩ b d h w).trans ?_
    exact congrArg (fun o' => winAt x (val_main_v0 (F := Ideal) y) o' b d h w)
      (Fin.ext (by show o.val - 16 + 16 = o.val; omega))

end Windows

/-- **The reference is the specification**: its result stage is the windowed correlation of `x` with the padded `y`,
    index by index. The scale is the same word on both sides and is never evaluated. -/
theorem ref_eq (x y : (⟨Cert.ReferenceIdeal.S2x64x80x80x80, .f32⟩ : BufTy).Contents (Elt Ideal)) :
    Cert.ReferenceIdeal.ReadP.val_main_v113 (F := Ideal) x y
      = Cert.WinCorr.corr x (Cert.ReferenceIdeal.ReadP.val_main_v0 (F := Ideal) y) := by
  funext i
  obtain ⟨b, o, d, h, w, rfl⟩ : ∃ (b : Fin 2) (o : Fin 27) (d h w : Fin 80), i = ix5 b o d h w :=
    ⟨i 0, i 1, i 2, i 3, i 4, eq_ix5 i⟩
  rw [corr_ix5, corrAt_eq, val_main_v113_apply, val_main_v112_apply, val_main_cst_26_apply, Ideal.mulf_def,
    Ideal.ofBits_def, stacked]

end Cert.WinCorr.Ref

end
-- ==== Proof.lean ====
/-
  The windowed channel-correlation kernel against its reference.

  Both programs pad the second argument by one plane of zeros on each side of its three spatial axes, by the same
  operation. The kernel then walks the grid of (batch element, depth): at each point it holds the x block of that
  depth and, streamed by its own transfers through a two-slot ring one window ahead, the three padded planes around
  that depth, and stores for each of the 27 window offsets the channel sum of x times the shifted window, scaled by
  one eighth. The reference forms, offset by offset, the product of x with the shifted slice of the padded array,
  sums it over the channels, stacks the 27 results and scales by one eighth. At the ideal instance both are the one
  function `Cert.WinCorr.corr` of x and the padded array, index by index: a lane sum and a host sum are the same
  finite sum (the host's starts from an exact zero), the stack reads its pieces back by the offset, and the scale is
  the same dyadic on both sides, so no law beyond `0 + s = s` joins the two sides and finiteness of the inputs is
  never used.

  The frames: the reference's is its run with the result dropped; the kernel's two (the printed text read at the
  word-level and at the ideal instance) rest on the ring invariant of the depth windows. The ideal pass rewrote
  nothing, so the idealization is the program's own text.
-/
import proofs.«131693_j81647328297400_1_alg».proof.Defs
import proofs.«131693_j81647328297400_1_alg».proof.Proof.Gen.Kernel
import proofs.«131693_j81647328297400_1_alg».proof.Proof.Gen.KernelIdeal
import proofs.«131693_j81647328297400_1_alg».proof.Proof.Gen.ReferenceIdeal
import proofs.«131693_j81647328297400_1_alg».proof.Proof.Gen.Pre_finite_inputs
import proofs.«131693_j81647328297400_1_alg».proof.Proof.KernelFrame
import proofs.«131693_j81647328297400_1_alg».proof.Proof.KernelIdealFinal
import proofs.«131693_j81647328297400_1_alg».proof.Proof.KernelIdealPad
import proofs.«131693_j81647328297400_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Halo.frame m ρ
theorem frame_ki : Cert.frame_KernelIdeal := fun m ρ _ => Cert.KernelIdeal.Halo.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

/-- Both runs end with the result at the correlation of the first argument with the padded second one. -/
theorem algebraic : Cert.algebraic_KernelIdeal_ReferenceIdeal := by
  intro m ρ m' ρ' _ hagree
  refine ⟨fun c => Cert.WinCorr.corr (m ((c.tc : Thread Cert.KernelIdeal.nD Cert.KernelIdeal.τ).loc Cert.KernelIdeal.main_arg0)) (Cert.KernelIdeal.Gen.V m c Cert.KernelIdeal.main_v0),
    Cert.KernelIdeal.Halo.value_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v113_eq, Cert.WinCorr.Ref.ref_eq, (hagree c).1, (hagree c).2]
  show Cert.WinCorr.corr _ _ = Cert.WinCorr.corr _ (Cert.KernelIdeal.Gen.V m c Cert.KernelIdeal.main_v0)
  rw [Cert.KernelIdeal.Halo.V_padded]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
